-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S16384x128 .f32) (main_arg1 : FVec F S128 .f32) (main_arg2 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16384x128 : Shape := ⟨2, ![16384, 128]⟩
abbrev S128 : Shape := ⟨1, ![128]⟩
abbrev S1x128 : Shape := ⟨2, ![1, 128]⟩
abbrev S2048x128 : Shape := ⟨2, ![2048, 128]⟩
abbrev S1024x128 : Shape := ⟨2, ![1024, 128]⟩
abbrev S2048x1 : Shape := ⟨2, ![2048, 1]⟩
abbrev S2048 : Shape := ⟨1, ![2048]⟩
abbrev S1024 : Shape := ⟨1, ![1024]⟩
abbrev S1024x1 : Shape := ⟨2, ![1024, 1]⟩
abbrev S128x1024 : Shape := ⟨2, ![128, 1024]⟩
abbrev S2048x1024 : Shape := ⟨2, ![2048, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x128, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x1, .f32⟩
  | .local _ .vmem, ⟨9, _⟩ => ⟨S2048x128, .f32⟩
  | .local _ .vmem, ⟨10, _⟩ => ⟨S2048x128, .bf16⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  packedbf16_S2048x128_S2048x128_0_0 : (Rect.unit (s := S2048x128) ![0, 0] S2048x128.size inb_S2048x128_S2048x128_0_0).PackedRows (EltTy.packing .bf16)
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  transposes_S1024x128_p1_0_S128x1024 : S1024x128.Transposes [1, 0] S128x1024
  reduces_S2048x1024_S2048 : S2048x1024.Reduces [1] S2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S2048x128_S128x1024_S2048x1024_1_0_0_1_n_n_wf : DotDims.WF S2048x128 S128x1024 S2048x1024 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .f32 = 32 ∨ (Rect.block (s := S16384x128) S2048x128.size (cc0_transform_4 i) (hinb0_4 i)).WholeWords (EltTy.packing .f32)

variable [Facts₀]

def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S128 : Shape := ⟨1, ![128]⟩
abbrev S_ : Shape := ⟨0, ![]⟩
abbrev S16384 : Shape := ⟨1, ![16384]⟩
abbrev S16384x1 : Shape := ⟨2, ![16384, 1]⟩
abbrev S128x16384 : Shape := ⟨2, ![128, 16384]⟩
abbrev S16384x16384 : Shape := ⟨2, ![16384, 16384]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128, .f32⟩
  | .hbm, ⟨2, _⟩ => ⟨S128, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x128, .f32⟩
  | .hbm, ⟨12, _⟩ => ⟨S16384x128, .f32⟩
  | .hbm, ⟨13, _⟩ => ⟨S128x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1, .f32⟩
  | .hbm, ⟨24, _⟩ => ⟨S16384x16384, .f32⟩
  | .hbm, ⟨25, _⟩ => ⟨S16384x16384, .f32⟩
  | .hbm, ⟨26, _⟩ => ⟨S16384x16384, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x16384, .f32⟩
  | .hbm, ⟨31, _⟩ => ⟨S16384x16384, .f32⟩
  | .hbm, ⟨32, _⟩ => ⟨S16384x128, .f32⟩
  | .hbm, ⟨33, _⟩ => ⟨S_, .f32⟩
  | .hbm, ⟨34, _⟩ => ⟨S16384x128, .f32⟩
  | .hbm, ⟨35, _⟩ => ⟨S16384x128, .f32⟩
  | .hbm, ⟨36, _⟩ => ⟨S_, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x128, .f32⟩
  | .hbm, ⟨56, _⟩ => ⟨S16384x128, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x128, .f32⟩
  | .hbm, ⟨62, _⟩ => ⟨S16384x128, .f32⟩
  | .hbm, ⟨63, _⟩ => ⟨S1x128, .f32⟩
  | .hbm, ⟨64, _⟩ => ⟨S16384x128, .f32⟩
  | .hbm, ⟨65, _⟩ => ⟨S16384x128, .f32⟩
  | .hbm, ⟨66, _⟩ => ⟨S1x128, .f32⟩
  | .hbm, ⟨67, _⟩ => ⟨S16384x128, .f32⟩
  | .hbm, ⟨68, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  transposes_S16384x128_S128x16384_1_0 : S16384x128.Transposes [1, 0] S128x16384
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  bcast_S16384x1_S16384x16384_0_1 : S16384x1.BroadcastsInDim S16384x16384 (![0, 1] : Fin 2 → Fin S16384x16384.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x128_S128x16384_S16384x16384_1_0_0_1_n_n_wf : DotDims.WF S16384x128 S128x16384 S16384x16384 [1] [0] [0] [1] [] []
  dot_S16384x16384_S16384x128_S16384x128_1_0_0_1_n_n_wf : DotDims.WF S16384x16384 S16384x128 S16384x128 [1] [0] [0] [1] [] []

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.KernelFrame.Base.lean ====
/-
  The frame of the word-level kernel, first module: what the three runs of the body share.  @main is two reshapes
  and then the region; the region's grid is 8 × 16 points, point `t` being row block `t / 16` against column block
  `t % 16`.  Window 0 (2048 rows of the matrix) and window 1 (1024 rows of the SAME matrix) are inputs, windows 2 and
  3 the scale and shift rows, window 4 the result's 2048 rows, stored only at the last column block of a row block.
  Three scratch buffers carry, from one column block to the next, the sum of weights, the weighted sum of rows and
  the normalised row block.  Stated for every float instance.
-/
import proofs.«406149_j61881888801194_3_alg».proof.Proof.Gen.Kernel.Launch
import proofs.«406149_j61881888801194_3_alg».proof.Proof.Gen.Kernel.Skeleton
import proofs.«406149_j61881888801194_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshapes write none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column block of the row block", as the body computes it from the second grid coordinate. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)
/-- "This is the last column block of the row block". -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
/-- Off the last column block the result window is idle and is not written back. -/
theorem idle0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
/-- At the last column block it is live. -/
theorem live0_4 : ∀ t : Fin cfg0.N, condLast (grid0.coords t) → cfg0.idle 4 (grid0.coords t) = false := by decide +kernel

/-! ## The memrefs the body is called with -/

abbrev VO4 : View sig .tc .vmem S2048x128 .f32 := (Memref.whole cc0_stg4_0 : Memref sig .tc .vmem S2048x128 .f32).view
abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .f32 := win0_4.stage (cfg0.slots t 4)
abbrev hs4 (t : Fin cfg0.N) : (ms4 t).IsWhole := hstage0_4 ((cfg0.slots t 4).cast nbuf0_4)
/-- The three scratch buffers: the sum of weights, the weighted sum of rows, the normalised row block. -/
abbrev scL : Memref sig .tc .vmem S2048x1 .f32 := Memref.whole cc0_scratch0
abbrev scA : Memref sig .tc .vmem S2048x128 .f32 := Memref.whole cc0_scratch1
abbrev scN : Memref sig .tc .vmem S2048x128 .bf16 := Memref.whole cc0_scratch2
abbrev VL : View sig .tc .vmem S2048x1 .f32 := scL.view
abbrev VA : View sig .tc .vmem S2048x128 .f32 := scA.view
abbrev VN : View sig .tc .vmem S2048x128 .bf16 := scN.view

/-- The core's scoped buffers that are no staging buffer are the three scratch buffers, each at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scL fullShare d) ∗ (∃ d, owns (c : Thread nD τ) scA fullShare d) ∗ (∃ d, owns (c : Thread nD τ) scN fullShare d)) := by
  rw [scopedRest0_eq]; simp only [scL, scA, scN, owns_whole]; try rfl

end Cert.Kernel.Fr

end
-- ==== Proof.KernelFrame.RunA.lean ====
/-
  The body's run at the FIRST column block of a row block (and not the last): the three scratch buffers, whatever
  they held, are overwritten — the sum of weights and the weighted sum of rows first by zeros and then by this
  column block's contribution, the normalised row block by the row block over its clipped norms —, the result's
  buffer is handed back untouched.  The pieces each scratch buffer ends with are found by running the body.
-/
import proofs.«406149_j61881888801194_3_alg».proof.Proof.KernelFrame.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run: the inputs' buffers at their contents, the result's buffer at `xi4` handed back as it was, the scratch
    buffers at anything; after it each scratch buffer holds its pieces. -/
noncomputable def kernelRunA (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) :
    Σ' (LS0 : List (View.Piece (Elt F) S2048x1 .f32)) (LS1 : List (View.Piece (Elt F) S2048x128 .f32)), { LS2 : List (View.Piece (Elt F) S2048x128 .bf16) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.KernelFrame.RunB.lean ====
/-
  The body's run at a MIDDLE column block (neither the first nor the last of its row block): the sum of weights and
  the weighted sum of rows, at what the column block before left (`xs0`, `xs1`), gain this column block's
  contribution; the normalised row block (`xs2`) is only read; the result's buffer is handed back untouched.
-/
import proofs.«406149_j61881888801194_3_alg».proof.Proof.KernelFrame.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) :
    Σ' (LS0 : List (View.Piece (Elt F) S2048x1 .f32)), { LS1 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; isplitr; · ipureintro; exact harg9.read_unread _
    iexact HS2

end Cert.Kernel.Fr

end
-- ==== Proof.KernelFrame.RunC.lean ====
/-
  The body's run at the LAST column block of a row block (and not the first): as at a middle one the two running sums
  gain this column block's contribution, and then the result's buffer, whatever it held, is stored whole: the weighted
  sum over the sum of weights, blended with the row block and layer-normalised with the scale and shift rows.
-/
import proofs.«406149_j61881888801194_3_alg».proof.Proof.KernelFrame.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) :
    Σ' (L4 : List (View.Piece (Elt F) S2048x128 .f32)) (LS0 : List (View.Piece (Elt F) S2048x1 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; isplitr; · ipureintro; exact harg9.read_unread _
    iexact HS2

end Cert.Kernel.Fr

end
-- ==== Proof.KernelFrame.Pieces.lean ====
/-
  What each of the body's three runs leaves in the scratch buffers and (at a last column block) in the result's
  buffer: the pieces the run found, read back as one block each; and that in every run the pieces of a buffer
  tile it, so that the block does not depend on what the buffer held before.
-/
import proofs.«406149_j61881888801194_3_alg».proof.Proof.KernelFrame.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sum of weights after a first column block. -/
def leftA_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) : Vec F S2048x1 .f32 :=
  VL.read (Elt F) (VL.writes (Elt F) VL.junk (kernelRunA c i arg2 harg2 arg3 harg3 arg4 harg4 arg5 harg5 arg6 harg6 arg7 harg7 arg8 harg8 arg9 harg9 hc0 hc1 x0 x1 x2 x3).1)
theorem coverA_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) (y : S2048x1.Idx) :
    ∃ pc ∈ (kernelRunA c i arg2 harg2 arg3 harg3 arg4 harg4 arg5 harg5 arg6 harg6 arg7 harg7 arg8 harg8 arg9 harg9 hc0 hc1 x0 x1 x2 x3).1, y ∈ pc.1.set :=
  View.cover_of_tiledL (kernelRunA c i arg2 harg2 arg3 harg3 arg4 harg4 arg5 harg5 arg6 harg6 arg7 harg7 arg8 harg8 arg9 harg9 hc0 hc1 x0 x1 x2 x3).1 S2048x1.size (by sl_kernel_rfl) y
/-- The weighted sum of rows after a first column block. -/
def leftA_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) : Vec F S2048x128 .f32 :=
  VA.read (Elt F) (VA.writes (Elt F) VA.junk (kernelRunA c i arg2 harg2 arg3 harg3 arg4 harg4 arg5 harg5 arg6 harg6 arg7 harg7 arg8 harg8 arg9 harg9 hc0 hc1 x0 x1 x2 x3).2.1)
theorem coverA_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) (y : S2048x128.Idx) :
    ∃ pc ∈ (kernelRunA c i arg2 harg2 arg3 harg3 arg4 harg4 arg5 harg5 arg6 harg6 arg7 harg7 arg8 harg8 arg9 harg9 hc0 hc1 x0 x1 x2 x3).2.1, y ∈ pc.1.set :=
  View.cover_of_tiledL (kernelRunA c i arg2 harg2 arg3 harg3 arg4 harg4 arg5 harg5 arg6 harg6 arg7 harg7 arg8 harg8 arg9 harg9 hc0 hc1 x0 x1 x2 x3).2.1 S2048x128.size (by sl_kernel_rfl) y
/-- The normalised row block a first column block stores. -/
def leftA_N (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) : Vec F S2048x128 .bf16 :=
  VN.read (Elt F) (VN.writes (Elt F) VN.junk (kernelRunA c i arg2 harg2 arg3 harg3 arg4 harg4 arg5 harg5 arg6 harg6 arg7 harg7 arg8 harg8 arg9 harg9 hc0 hc1 x0 x1 x2 x3).2.2.1)
theorem coverA_N (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) (y : S2048x128.Idx) :
    ∃ pc ∈ (kernelRunA c i arg2 harg2 arg3 harg3 arg4 harg4 arg5 harg5 arg6 harg6 arg7 harg7 arg8 harg8 arg9 harg9 hc0 hc1 x0 x1 x2 x3).2.2.1, y ∈ pc.1.set :=
  View.cover_of_tiledL (kernelRunA c i arg2 harg2 arg3 harg3 arg4 harg4 arg5 harg5 arg6 harg6 arg7 harg7 arg8 harg8 arg9 harg9 hc0 hc1 x0 x1 x2 x3).2.2.1 S2048x128.size (by sl_kernel_rfl) y
/-- The sum of weights after a middle column block. -/
def leftB_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) : Vec F S2048x1 .f32 :=
  VL.read (Elt F) (VL.writes (Elt F) VL.junk (kernelRunB c i arg2 harg2 arg3 harg3 arg4 harg4 arg5 harg5 arg6 harg6 arg7 harg7 arg8 harg8 arg9 harg9 hc0 hc1 x0 x1 x2 x3 xs0 xs1 xs2).1)
theorem coverB_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) (y : S2048x1.Idx) :
    ∃ pc ∈ (kernelRunB c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRunB c i arg2 harg2 arg3 harg3 arg4 harg4 arg5 harg5 arg6 harg6 arg7 harg7 arg8 harg8 arg9 harg9 hc0 hc1 x0 x1 x2 x3 xs0 xs1 xs2).1 S2048x1.size (by sl_kernel_rfl) y
/-- The weighted sum of rows after a middle column block. -/
def leftB_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) : Vec F S2048x128 .f32 :=
  VA.read (Elt F) (VA.writes (Elt F) VA.junk (kernelRunB c i arg2 harg2 arg3 harg3 arg4 harg4 arg5 harg5 arg6 harg6 arg7 harg7 arg8 harg8 arg9 harg9 hc0 hc1 x0 x1 x2 x3 xs0 xs1 xs2).2.1)
theorem coverB_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) (y : S2048x128.Idx) :
    ∃ pc ∈ (kernelRunB c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRunB c i arg2 harg2 arg3 harg3 arg4 harg4 arg5 harg5 arg6 harg6 arg7 harg7 arg8 harg8 arg9 harg9 hc0 hc1 x0 x1 x2 x3 xs0 xs1 xs2).2.1 S2048x128.size (by sl_kernel_rfl) y
/-- The result's block a last column block stores. -/
def leftC_O (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) : Vec F S2048x128 .f32 :=
  VO4.read (Elt F) (VO4.writes (Elt F) VO4.junk (kernelRunC c i arg2 harg2 arg3 harg3 arg4 harg4 arg5 harg5 arg6 harg6 arg7 harg7 arg8 harg8 arg9 harg9 hc0 hc1 x0 x1 x2 x3 xs0 xs1 xs2).1)
theorem coverC_O (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) (y : S2048x128.Idx) :
    ∃ pc ∈ (kernelRunC c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRunC c i arg2 harg2 arg3 harg3 arg4 harg4 arg5 harg5 arg6 harg6 arg7 harg7 arg8 harg8 arg9 harg9 hc0 hc1 x0 x1 x2 x3 xs0 xs1 xs2).1 S2048x128.size (by sl_kernel_rfl) y
/-- The sum of weights after a last column block. -/
def leftC_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) : Vec F S2048x1 .f32 :=
  VL.read (Elt F) (VL.writes (Elt F) VL.junk (kernelRunC c i arg2 harg2 arg3 harg3 arg4 harg4 arg5 harg5 arg6 harg6 arg7 harg7 arg8 harg8 arg9 harg9 hc0 hc1 x0 x1 x2 x3 xs0 xs1 xs2).2.1)
theorem coverC_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) (y : S2048x1.Idx) :
    ∃ pc ∈ (kernelRunC c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRunC c i arg2 harg2 arg3 harg3 arg4 harg4 arg5 harg5 arg6 harg6 arg7 harg7 arg8 harg8 arg9 harg9 hc0 hc1 x0 x1 x2 x3 xs0 xs1 xs2).2.1 S2048x1.size (by sl_kernel_rfl) y
/-- The weighted sum of rows after a last column block. -/
def leftC_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) : Vec F S2048x128 .f32 :=
  VA.read (Elt F) (VA.writes (Elt F) VA.junk (kernelRunC c i arg2 harg2 arg3 harg3 arg4 harg4 arg5 harg5 arg6 harg6 arg7 harg7 arg8 harg8 arg9 harg9 hc0 hc1 x0 x1 x2 x3 xs0 xs1 xs2).2.2.1)
theorem coverC_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) (y : S2048x128.Idx) :
    ∃ pc ∈ (kernelRunC c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRunC c i arg2 harg2 arg3 harg3 arg4 harg4 arg5 harg5 arg6 harg6 arg7 harg7 arg8 harg8 arg9 harg9 hc0 hc1 x0 x1 x2 x3 xs0 xs1 xs2).2.2.1 S2048x128.size (by sl_kernel_rfl) y

end Cert.Kernel.Fr

end
-- ==== Proof.KernelFrame.Frame.lean ====
/-
  The frame of the word-level kernel, last module: the proof data of the region and the body's obligation.

  A row block is visited sixteen times in a row, once per column block.  At the first visit the three scratch
  buffers are overwritten (the sum of weights, the weighted sum of rows, the normalised row block); at each later
  visit the two running sums gain the column block's contribution and the normalised row block is only read; at
  the sixteenth the result's block is stored.  What the scratch buffers hold after point `n` is therefore defined
  by recursion on `n` (`leftAt`), and the region's invariant before point `n + 1` names exactly those contents.
  The matrix is read through two windows at once, so each of them holds half of it.  Stated for every float
  instance.
-/
import proofs.«406149_j61881888801194_3_alg».proof.Proof.KernelFrame.Pieces

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- A point cannot be both the first and the last column block of its row block. -/
theorem notLast_of_first (t : Fin cfg0.N) (h0 : t.val % 16 = 0) : ¬condLast (grid0.coords t) :=
  fun h => by have h15 := (hcondLast t).mp h; omega
theorem notFirst_of_not (t : Fin cfg0.N) (h0 : ¬t.val % 16 = 0) : ¬condFirst (grid0.coords t) :=
  fun h => h0 ((hcondFirst t).mp h)
theorem notLast_of_not (t : Fin cfg0.N) (h1 : ¬t.val % 16 = 15) : ¬condLast (grid0.coords t) :=
  fun h => h1 ((hcondLast t).mp h)

/-- After a FIRST column block: the sum of weights, the weighted sum of rows and the normalised row block are what
    that run stores, whatever the buffers held; the result's buffer is not stored (a placeholder nothing consults:
    the window is idle there and not written back). -/
def atFirst (c : Dev nD) (t : Fin cfg0.N) (h0 : t.val % 16 = 0) : Vec F S2048x128 .f32 × Vec F S2048x1 .f32 × Vec F S2048x128 .f32 × Vec F S2048x128 .bf16 :=
  (VO4.read (Elt F) VO4.junk,
   leftA_L c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) ((hcondFirst t).mpr h0) (notLast_of_first t h0) (iblk m c 0 t) (iblk m c 1 t) (iblk m c 2 t) (iblk m c 3 t),
   leftA_A c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) ((hcondFirst t).mpr h0) (notLast_of_first t h0) (iblk m c 0 t) (iblk m c 1 t) (iblk m c 2 t) (iblk m c 3 t),
   leftA_N c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) ((hcondFirst t).mpr h0) (notLast_of_first t h0) (iblk m c 0 t) (iblk m c 1 t) (iblk m c 2 t) (iblk m c 3 t))

/-- After a MIDDLE column block, over what the point before left (`p`): the two running sums updated, the
    normalised row block as it was; the result's buffer again not stored. -/
def atMiddle (c : Dev nD) (t : Fin cfg0.N) (h0 : ¬t.val % 16 = 0) (h1 : ¬t.val % 16 = 15) (p : Vec F S2048x128 .f32 × Vec F S2048x1 .f32 × Vec F S2048x128 .f32 × Vec F S2048x128 .bf16) : Vec F S2048x128 .f32 × Vec F S2048x1 .f32 × Vec F S2048x128 .f32 × Vec F S2048x128 .bf16 :=
  (VO4.read (Elt F) VO4.junk,
   leftB_L c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) (notFirst_of_not t h0) (notLast_of_not t h1) (iblk m c 0 t) (iblk m c 1 t) (iblk m c 2 t) (iblk m c 3 t) p.2.1 p.2.2.1 p.2.2.2,
   leftB_A c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) (notFirst_of_not t h0) (notLast_of_not t h1) (iblk m c 0 t) (iblk m c 1 t) (iblk m c 2 t) (iblk m c 3 t) p.2.1 p.2.2.1 p.2.2.2,
   p.2.2.2)

/-- After a LAST column block, over what the point before left: the result's block stored whole, the two running
    sums updated once more, the normalised row block as it was. -/
def atLast (c : Dev nD) (t : Fin cfg0.N) (h0 : ¬t.val % 16 = 0) (h1 : t.val % 16 = 15) (p : Vec F S2048x128 .f32 × Vec F S2048x1 .f32 × Vec F S2048x128 .f32 × Vec F S2048x128 .bf16) : Vec F S2048x128 .f32 × Vec F S2048x1 .f32 × Vec F S2048x128 .f32 × Vec F S2048x128 .bf16 :=
  (leftC_O c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) (notFirst_of_not t h0) ((hcondLast t).mpr h1) (iblk m c 0 t) (iblk m c 1 t) (iblk m c 2 t) (iblk m c 3 t) p.2.1 p.2.2.1 p.2.2.2,
   leftC_L c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) (notFirst_of_not t h0) ((hcondLast t).mpr h1) (iblk m c 0 t) (iblk m c 1 t) (iblk m c 2 t) (iblk m c 3 t) p.2.1 p.2.2.1 p.2.2.2,
   leftC_A c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) (notFirst_of_not t h0) ((hcondLast t).mpr h1) (iblk m c 0 t) (iblk m c 1 t) (iblk m c 2 t) (iblk m c 3 t) p.2.1 p.2.2.1 p.2.2.2,
   p.2.2.2)

/-- THE ACCUMULATION.  What the result's buffer, the sum of weights, the weighted sum of rows and the normalised row
    block hold after the body at point `n`: a first column block starts afresh, every other one continues from what
    point `n - 1` left. -/
def leftAt (c : Dev nD) : (n : ℕ) → n < cfg0.N → Vec F S2048x128 .f32 × Vec F S2048x1 .f32 × Vec F S2048x128 .f32 × Vec F S2048x128 .bf16
  | 0, hn => atFirst m c ⟨0, hn⟩ (Nat.zero_mod _)
  | n + 1, hn =>
    if h0 : (n + 1) % 16 = 0 then atFirst m c ⟨n + 1, hn⟩ h0
    else if h1 : (n + 1) % 16 = 15 then atLast m c ⟨n + 1, hn⟩ h0 h1 (leftAt c n (Nat.lt_of_succ_lt hn))
    else atMiddle m c ⟨n + 1, hn⟩ h0 h1 (leftAt c n (Nat.lt_of_succ_lt hn))

/-- `leftAt` at a first column block. -/
theorem leftAt_A (c : Dev nD) (t : Fin cfg0.N) (h0 : t.val % 16 = 0) :
    leftAt m c t.val t.isLt = atFirst m c t h0 := by
  obtain ⟨n, hn⟩ := t
  cases n with
  | zero => exact rfl
  | succ n => exact dif_pos h0

/-- `leftAt` at a middle column block: over what the point before left. -/
theorem leftAt_B (c : Dev nD) (t : Fin cfg0.N) (h0 : ¬t.val % 16 = 0) (h1 : ¬t.val % 16 = 15) :
    leftAt m c t.val t.isLt = atMiddle m c t h0 h1 (leftAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- `leftAt` at a last column block: over what the point before left. -/
theorem leftAt_C (c : Dev nD) (t : Fin cfg0.N) (h0 : ¬t.val % 16 = 0) (h1 : t.val % 16 = 15) :
    leftAt m c t.val t.isLt = atLast m c t h0 h1 (leftAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region's invariant -/

/-- The invariant before point `n`: before the first point the scratch buffers hold anything; before point `n + 1`
    they hold what point `n` left. -/
def PhiS (c : Dev nD) : (n : ℕ) → n ≤ cfg0.N → sProp 𝕄
  | 0, _ => iprop((∃ d, owns (c : Thread nD τ) scL fullShare d) ∗ (∃ d, owns (c : Thread nD τ) scA fullShare d) ∗ (∃ d, owns (c : Thread nD τ) scN fullShare d))
  | n + 1, hn => iprop(owns (c : Thread nD τ) scL fullShare (leftAt m c n hn).2.1 ∗ owns (c : Thread nD τ) scA fullShare (leftAt m c n hn).2.2.1 ∗ owns (c : Thread nD τ) scN fullShare (leftAt m c n hn).2.2.2)

theorem PhiS_zero (c : Dev nD) (n : ℕ) (h : n ≤ cfg0.N) (hz : n = 0) :
    PhiS m c n h = iprop((∃ d, owns (c : Thread nD τ) scL fullShare d) ∗ (∃ d, owns (c : Thread nD τ) scA fullShare d) ∗ (∃ d, owns (c : Thread nD τ) scN fullShare d)) := by
  subst hz; rfl

theorem PhiS_succ (c : Dev nD) (n : ℕ) (hn : n < cfg0.N) :
    PhiS m c (n + 1) hn = iprop(owns (c : Thread nD τ) scL fullShare (leftAt m c n hn).2.1 ∗ owns (c : Thread nD τ) scA fullShare (leftAt m c n hn).2.2.1 ∗ owns (c : Thread nD τ) scN fullShare (leftAt m c n hn).2.2.2) := rfl

theorem PhiS_pos (c : Dev nD) (n : ℕ) (h : n ≤ cfg0.N) (hz : n ≠ 0) :
    PhiS m c n h = iprop(owns (c : Thread nD τ) scL fullShare (leftAt m c (n - 1) (by omega)).2.1 ∗ owns (c : Thread nD τ) scA fullShare (leftAt m c (n - 1) (by omega)).2.2.1 ∗ owns (c : Thread nD τ) scN fullShare (leftAt m c (n - 1) (by omega)).2.2.2) := by
  cases n with
  | zero => exact absurd rfl hz
  | succ n => rfl

/-- Whatever the point, the invariant gives the three scratch buffers at some contents. -/
theorem PhiS_any (c : Dev nD) (n : ℕ) (h : n ≤ cfg0.N) :
    PhiS m c n h ⊢ iprop((∃ d, owns (c : Thread nD τ) scL fullShare d) ∗ (∃ d, owns (c : Thread nD τ) scA fullShare d) ∗ (∃ d, owns (c : Thread nD τ) scN fullShare d)) := by
  cases n with
  | zero => exact Idealize.SL.BI.Entails.refl _
  | succ n =>
    rw [PhiS_succ]
    iintro ⟨HL, HA, HN⟩
    isplitl [HL]; · iexists _; iexact HL
    isplitl [HA]; · iexists _; iexact HA
    iexists _; iexact HN

/-! ## The pipeline's proof data -/

/-- The proof data of the region on core `c`: the arrays as the region finds them; after the body at point `t` each
    input's buffer at its block and the result's at `leftAt`'s first component; the invariant `PhiS`; nothing owed.
    The two windows on the matrix hold one half of it each, the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (leftAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (leftAt m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, nothing owed, and the five windows' current buffers, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at a first column block.  The scratch buffers are handed over at whatever the invariant says they hold
    (the run overwrites all three), the result's buffer is handed back untouched (its window is idle there), and
    the invariant is re-established at what the run's stores leave, which tile each buffer. -/
theorem sound_body_A (c : Dev nD) (t : Fin cfg0.N) (h0 : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0_0 t], after0_0]
  rw [show (dats m 0 c).leavesExact 1 t = owns (c : Thread nD τ) (ms1 t) fullShare ((dats m 0 c).after 1 t) from by
    unfold Dat.leavesExact; rw [live0_1 t], after0_1]
  rw [show (dats m 0 c).leavesExact 2 t = owns (c : Thread nD τ) (ms2 t) fullShare ((dats m 0 c).after 2 t) from by
    unfold Dat.leavesExact; rw [live0_2 t], after0_2]
  rw [show (dats m 0 c).leavesExact 3 t = owns (c : Thread nD τ) (ms3 t) fullShare ((dats m 0 c).after 3 t) from by
    unfold Dat.leavesExact; rw [live0_3 t], after0_3]
  rw [Dat.leavesExact_idle (dats m 0 c) 4 t (idle0_4 t (notLast_of_first t h0)) (noFlush0_4 t (notLast_of_first t h0))]
  rw [leftAt_A m c t h0]
  unfold atFirst leftA_L leftA_A leftA_N; (try dsimp only)
  rw [PhiS_castSucc m c t]
  refine (sep_mono_left (PhiS_any m c _ _)).trans ?_
  iintro ⟨⟨HL, HA, HN⟩, Ho, ⟨%d0, H0⟩, ⟨%d1, H1⟩, ⟨%d2, H2⟩, ⟨%d3, H3⟩, ⟨%d4, H4⟩⟩
  iapply ((kernelRunA c (grid0.coords t) _ _ _ _ _ _ _ _ _ _ _ _ _ _ _ _ ((hcondFirst t).mpr h0) (notLast_of_first t h0) (iblk m c 0 t) (iblk m c 1 t) (iblk m c 2 t) (iblk m c 3 t)).2.2.2 _ Set.univ _)
  isplitl [H0]; · iexact H0
  isplitl [H1]; · iexact H1
  isplitl [H2]; · iexact H2
  isplitl [H3]; · iexact H3
  isplitl [H4]; · iexact H4
  isplitl [HL]; · iexact HL
  isplitl [HA]; · iexact HA
  isplitl [HN]; · iexact HN
  iintro ⟨H0, H1, H2, H3, H4, ⟨%eL, HL⟩, ⟨%eA, HA⟩, ⟨%eN, HN⟩⟩
  isplitl [HL HA HN]
  · isplitl [HL]
    · unfold owns; iexists _; isplitr
      swap; · iexact HL
      ipureintro; exact View.read_writes_of_cover _ _ _ _ _ (coverA_L c _ _ _ _ _ _ _ _ _ _ _ _ _ _ _ _ _ _ _ _ _ _ _)
    isplitl [HA]
    · unfold owns; iexists _; isplitr
      swap; · iexact HA
      ipureintro; exact View.read_writes_of_cover _ _ _ _ _ (coverA_A c _ _ _ _ _ _ _ _ _ _ _ _ _ _ _ _ _ _ _ _ _ _ _)
    unfold owns; iexists _; isplitr
    swap; · iexact HN
    ipureintro; exact View.read_writes_of_cover _ _ _ _ _ (coverA_N c _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  iexists _; iexact H4

set_option maxHeartbeats 4800000 in
/-- The body at a middle column block.  The point is not the grid's first, so the invariant names what the point
    before left in the scratch buffers; the run updates the two running sums from exactly those contents and hands
    the normalised row block back as it was; the result's buffer is handed back untouched. -/
theorem sound_body_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0_0 t], after0_0]
  rw [show (dats m 0 c).leavesExact 1 t = owns (c : Thread nD τ) (ms1 t) fullShare ((dats m 0 c).after 1 t) from by
    unfold Dat.leavesExact; rw [live0_1 t], after0_1]
  rw [show (dats m 0 c).leavesExact 2 t = owns (c : Thread nD τ) (ms2 t) fullShare ((dats m 0 c).after 2 t) from by
    unfold Dat.leavesExact; rw [live0_2 t], after0_2]
  rw [show (dats m 0 c).leavesExact 3 t = owns (c : Thread nD τ) (ms3 t) fullShare ((dats m 0 c).after 3 t) from by
    unfold Dat.leavesExact; rw [live0_3 t], after0_3]
  rw [Dat.leavesExact_idle (dats m 0 c) 4 t (idle0_4 t (notLast_of_not t h1)) (noFlush0_4 t (notLast_of_not t h1))]
  rw [leftAt_B m c t h0 h1]
  unfold atMiddle leftB_L leftB_A; (try dsimp only)
  rw [PhiS_castSucc m c t, PhiS_pos m c _ _ hz]
  iintro ⟨⟨HL, HA, HN⟩, Ho, ⟨%d0, H0⟩, ⟨%d1, H1⟩, ⟨%d2, H2⟩, ⟨%d3, H3⟩, ⟨%d4, H4⟩⟩
  iapply ((kernelRunB c (grid0.coords t) _ _ _ _ _ _ _ _ _ _ _ _ _ _ _ _ (notFirst_of_not t h0) (notLast_of_not t h1) (iblk m c 0 t) (iblk m c 1 t) (iblk m c 2 t) (iblk m c 3 t)
    (leftAt m c (t.val - 1) (Nat.lt_of_le_of_lt (Nat.sub_le _ _) t.isLt)).2.1 (leftAt m c (t.val - 1) (Nat.lt_of_le_of_lt (Nat.sub_le _ _) t.isLt)).2.2.1 (leftAt m c (t.val - 1) (Nat.lt_of_le_of_lt (Nat.sub_le _ _) t.isLt)).2.2.2).2.2 _ Set.univ _)
  isplitl [H0]; · iexact H0
  isplitl [H1]; · iexact H1
  isplitl [H2]; · iexact H2
  isplitl [H3]; · iexact H3
  isplitl [H4]; · iexact H4
  isplitl [HL]; · iexact HL
  isplitl [HA]; · iexact HA
  isplitl [HN]; · iexact HN
  iintro ⟨H0, H1, H2, H3, H4, ⟨%eL, HL⟩, ⟨%eA, HA⟩, HN⟩
  isplitl [HL HA HN]
  · isplitl [HL]
    · unfold owns; iexists _; isplitr
      swap; · iexact HL
      ipureintro; exact View.read_writes_of_cover _ _ _ _ _ (coverB_L c _ _ _ _ _ _ _ _ _ _ _ _ _ _ _ _ _ _ _ _ _ _ _ _ _ _)
    isplitl [HA]
    · unfold owns; iexists _; isplitr
      swap; · iexact HA
      ipureintro; exact View.read_writes_of_cover _ _ _ _ _ (coverB_A c _ _ _ _ _ _ _ _ _ _ _ _ _ _ _ _ _ _ _ _ _ _ _ _ _ _)
    iexact HN
  isplitl [Ho]; · iexact Ho
  isplitl [H0]; · iexact H0
  isplitl [H1]; · iexact H1
  isplitl [H2]; · iexact H2
  isplitl [H3]; · iexact H3
  iexists _; iexact H4

set_option maxHeartbeats 4800000 in
/-- The body at a last column block.  As at a middle one for the scratch buffers; the result's buffer, at anything,
    is stored whole by the run (its stores tile it), which is what the proof data says it holds there. -/
theorem sound_body_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0_0 t], after0_0]
  rw [show (dats m 0 c).leavesExact 1 t = owns (c : Thread nD τ) (ms1 t) fullShare ((dats m 0 c).after 1 t) from by
    unfold Dat.leavesExact; rw [live0_1 t], after0_1]
  rw [show (dats m 0 c).leavesExact 2 t = owns (c : Thread nD τ) (ms2 t) fullShare ((dats m 0 c).after 2 t) from by
    unfold Dat.leavesExact; rw [live0_2 t], after0_2]
  rw [show (dats m 0 c).leavesExact 3 t = owns (c : Thread nD τ) (ms3 t) fullShare ((dats m 0 c).after 3 t) from by
    unfold Dat.leavesExact; rw [live0_3 t], after0_3]
  rw [show (dats m 0 c).leavesExact 4 t = owns (c : Thread nD τ) (ms4 t) fullShare ((dats m 0 c).after 4 t) from by
    unfold Dat.leavesExact; rw [live0_4 t ((hcondLast t).mpr h1)], after0_4]
  rw [leftAt_C m c t h0 h1]
  unfold atLast leftC_O leftC_L leftC_A; (try dsimp only)
  rw [PhiS_castSucc m c t, PhiS_pos m c _ _ hz]
  iintro ⟨⟨HL, HA, HN⟩, Ho, ⟨%d0, H0⟩, ⟨%d1, H1⟩, ⟨%d2, H2⟩, ⟨%d3, H3⟩, ⟨%d4, H4⟩⟩
  iapply ((kernelRunC c (grid0.coords t) _ _ _ _ _ _ _ _ _ _ _ _ _ _ _ _ (notFirst_of_not t h0) ((hcondLast t).mpr h1) (iblk m c 0 t) (iblk m c 1 t) (iblk m c 2 t) (iblk m c 3 t)
    (leftAt m c (t.val - 1) (Nat.lt_of_le_of_lt (Nat.sub_le _ _) t.isLt)).2.1 (leftAt m c (t.val - 1) (Nat.lt_of_le_of_lt (Nat.sub_le _ _) t.isLt)).2.2.1 (leftAt m c (t.val - 1) (Nat.lt_of_le_of_lt (Nat.sub_le _ _) t.isLt)).2.2.2).2.2.2 Set.univ _)
  isplitl [H0]; · iexact H0
  isplitl [H1]; · iexact H1
  isplitl [H2]; · iexact H2
  isplitl [H3]; · iexact H3
  isplitl [H4]; · iexists _; iexact H4
  isplitl [HL]; · iexact HL
  isplitl [HA]; · iexact HA
  isplitl [HN]; · iexact HN
  iintro ⟨H0, H1, H2, H3, ⟨%e4, H4⟩, ⟨%eL, HL⟩, ⟨%eA, HA⟩, HN⟩
  isplitl [HL HA HN]
  · isplitl [HL]
    · unfold owns; iexists _; isplitr
      swap; · iexact HL
      ipureintro; exact View.read_writes_of_cover _ _ _ _ _ (coverC_L c _ _ _ _ _ _ _ _ _ _ _ _ _ _ _ _ _ _ _ _ _ _ _ _ _ _)
    isplitl [HA]
    · unfold owns; iexists _; isplitr
      swap; · iexact HA
      ipureintro; exact View.read_writes_of_cover _ _ _ _ _ (coverC_A c _ _ _ _ _ _ _ _ _ _ _ _ _ _ _ _ _ _ _ _ _ _ _ _ _ _)
    iexact HN
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverC_O c _ _ _ _ _ _ _ _ _ _ _ _ _ _ _ _ _ _ _ _ _ _ _ _ _ _)

/-- The body at any point: its position in the row block decides which of the three runs applies. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_body_A m c t h0
  · by_cases h1 : t.val % 16 = 15
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the region -/

/-- The three scratch buffers at anything are the invariant before the first point. -/
theorem hin (c : Dev nD) :
    iprop((∃ d, owns (c : Thread nD τ) scL fullShare d) ∗ (∃ d, owns (c : Thread nD τ) scA fullShare d) ∗ (∃ d, owns (c : Thread nD τ) scN fullShare d)) ⊢ (dats m 0 c).Φ 0 := by
  rw [show (dats m 0 c).Φ 0 = PhiS m c 0 (Nat.zero_le _) from rfl, PhiS_zero m c 0 _ rfl]

/-- At any point the invariant gives the three scratch buffers back at some contents: what they were named to hold
    is forgotten. -/
theorem Phi_out (c : Dev nD) (t : Fin (cfg0.N + 1)) :
    (dats m 0 c).Φ t ⊢ iprop((∃ d, owns (c : Thread nD τ) scL fullShare d) ∗ (∃ d, owns (c : Thread nD τ) scA fullShare d) ∗ (∃ d, owns (c : Thread nD τ) scN fullShare d)) := by
  rw [show (dats m 0 c).Φ t = PhiS m c t.val (Nat.le_of_lt_succ t.isLt) from rfl]
  exact PhiS_any m c _ _

/-- In particular after the last point. -/
theorem hout (c : Dev nD) :
    (dats m 0 c).Φ (Fin.last cfg0.N) ⊢ iprop((∃ d, owns (c : Thread nD τ) scL fullShare d) ∗ (∃ d, owns (c : Thread nD τ) scA fullShare d) ∗ (∃ d, owns (c : Thread nD τ) scN fullShare d)) :=
  Phi_out m c _

end Cert.Kernel.Fr

end
-- ==== Proof.KernelFrame.Launch.lean ====
/-
  The launch of the word-level kernel's one region.  Windows 0 and 1 read the same array — the matrix argument —
  so its buffer, held whole when the region is entered, is dealt to them in two halves; every other window's array is
  its own buffer.  From the body's obligation at every grid point the region runs to its end, the arrays end at what
  the write-backs leave and the two vector arguments, which no window stages, end as they were.
-/
import proofs.«406149_j61881888801194_3_alg».proof.Proof.KernelFrame.Base
import Idealize.ShloMosaic.Lib.Pipeline.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three scratch buffers, each at some contents: what the region starts from and ends with. -/
abbrev scr (c : Dev nD) : sProp 𝕄 :=
  iprop((∃ d, owns (c : Thread nD τ) scL fullShare d) ∗ (∃ d, owns (c : Thread nD τ) scA fullShare d) ∗ (∃ d, owns (c : Thread nD τ) scN fullShare d))

/-- The buffers behind the windows' arrays, held whole, are the windows' arrays at their shares: the matrix's buffer
    split into the halves of windows 0 and 1. -/
theorem arrays_of_bufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Fn : (w : Fin cfg0.W) → Buf (Elt F) ((cfg0.win w).arr.view.loc (c.tc : Thread nD τ))) (hF : ∀ w, Fn w = V m c (Pipeline.arrRef spec0 w)) :
    (Pipeline.arrBufs (Ix := Unit) (Name := ℕ) (U := UR sig nD τ) (Lvl := ℕ) spec0 c (V m c) : sProp 𝕄) ⊢ dat.arrays Fn := by
  unfold Dat.arrays Pipeline.arrBufs
  rw [bigSep_W0]
  rw [bigSep_eq_bigSepL_of_eq [main_arg0, main_v0, main_v1, main_v2] (by decide) (by decide)]
  have e0 : (View.loc c.tc (cfg0.win 0).arr.view ↦[(cfg0.win 0).arr.view.set]{dat.share 0} Fn 0 : sProp 𝕄) = (c.tc.loc main_arg0 ↦{fullShare.left} V m c main_arg0) := by
    rw [(arr_whole0 0).set_eq_univ, hF 0, show dat.share 0 = fullShare.left from by unfold Dat.share; rw [if_neg (by decide)]; exact hq0]
  have e1 : (View.loc c.tc (cfg0.win 1).arr.view ↦[(cfg0.win 1).arr.view.set]{dat.share 1} Fn 1 : sProp 𝕄) = (c.tc.loc main_arg0 ↦{fullShare.right} V m c main_arg0) := by
    rw [(arr_whole0 1).set_eq_univ, hF 1, show dat.share 1 = fullShare.right from by unfold Dat.share; rw [if_neg (by decide)]; exact hq1]
  have e2 : (View.loc c.tc (cfg0.win 2).arr.view ↦[(cfg0.win 2).arr.view.set]{dat.share 2} Fn 2 : sProp 𝕄) = (c.tc.loc main_v0 ↦{fullShare} V m c main_v0) := by
    rw [(arr_whole0 2).set_eq_univ, hF 2, show dat.share 2 = fullShare from by unfold Dat.share; rw [if_neg (by decide)]; exact hq2]
  have e3 : (View.loc c.tc (cfg0.win 3).arr.view ↦[(cfg0.win 3).arr.view.set]{dat.share 3} Fn 3 : sProp 𝕄) = (c.tc.loc main_v1 ↦{fullShare} V m c main_v1) := by
    rw [(arr_whole0 3).set_eq_univ, hF 3, show dat.share 3 = fullShare from by unfold Dat.share; rw [if_neg (by decide)]; exact hq3]
  have e4 : (View.loc c.tc (cfg0.win 4).arr.view ↦[(cfg0.win 4).arr.view.set]{dat.share 4} Fn 4 : sProp 𝕄) = (c.tc.loc main_v2 ↦{fullShare} V m c main_v2) := by
    rw [(arr_whole0 4).set_eq_univ, hF 4, show dat.share 4 = fullShare from by unfold Dat.share; rw [if_pos (by decide)]]
  rw [e0, e1, e2, e3, e4]
  simp only [bigSepL_cons_cons, bigSepL_singleton]
  refine (show iprop((c.tc.loc main_arg0 ↦{fullShare} V m c main_arg0) ∗ (c.tc.loc main_v0 ↦{fullShare} V m c main_v0) ∗ (c.tc.loc main_v1 ↦{fullShare} V m c main_v1) ∗ (c.tc.loc main_v2 ↦{fullShare} V m c main_v2)) ⊢ _ from ?_)
  iintro ⟨H0, H1, H2, H3⟩
  have hs : (c.tc.loc main_arg0 ↦{fullShare} V m c main_arg0 : sProp 𝕄) ⊢ iprop((c.tc.loc main_arg0 ↦{fullShare.left} V m c main_arg0) ∗ (c.tc.loc main_arg0 ↦{fullShare.right} V m c main_arg0)) :=
    (pointsTo_share (IsOp.posShare_halves fullShare).mem_op).1
  ihave H0' := hs $$ H0
  icases H0' with ⟨H0l, H0r⟩
  isplitl [H0l]; · iexact H0l
  isplitl [H0r]; · iexact H0r
  isplitl [H1]; · iexact H1
  isplitl [H2]; · iexact H2
  iexact H3

set_option backward.isDefEq.respectTransparency.types false in
/-- THE RUN, from any proof data of the region whose arrays are the region-entry ones, whose windows 0 and 1 hold the
    two halves of the matrix, whose invariant starts from and ends at the scratch buffers at anything and whose body
    obligation holds: every weakly fair execution of @main ends, every window's array at what the write-backs leave,
    the two vector arguments as the region found them. -/
theorem run_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hbody : ∀ c, BodyObligation (dats 0 c) (defs₀ (F := F)) Variants.none () Set.univ)
    (hin : ∀ c, scr c ⊢ (dats 0 c).Φ 0) (hout : ∀ c, (dats 0 c).Φ (Fin.last cfg0.N) ⊢ scr c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ r.2.mem ((c.tc : Thread nD τ).loc main_arg1) = V m c main_arg1
      ∧ r.2.mem ((c.tc : Thread nD τ).loc main_arg2) = V m c main_arg2) := by
  classical
  refine Pipeline.θ_run_region_noSem_shared cfgs dats () cellOf_inj (0 : Fin 1) winFacts₀0 emb₁ defs₀ Variants.none m ρ main
    (fun c => (hbody c).loose) block_pos0 arr_whole0 stage_whole0 howed
    (Rounds.initOf (Pipeline.cells cfgs cellOf_inj) (Pipeline.launchToks cfgs cellOf_inj)) .rfl
    (V m) (hmain m Variants.none)
    (fun c => arrays_of_bufs m c (dats 0 c) (hq0 c) (hq1 c) (hq2 c) (hq3 c) _ (fun w => by rw [Dat.arrAt]; exact hA c w))
    (fun _ => iprop(emp)) (fun _ => iprop(emp))
    (fun c => Pipeline.unscopedRest (Ix := Unit) (Name := ℕ) (U := UR sig nD τ) (Lvl := ℕ) spec0 c (V m c))
    (fun c => by iintro H; isplitr; · iempintro
                 iexact H)
    (fun c => by
      rw [scopedRest_eq]
      exact (show _ ⊢ scr c from by iintro ⟨-, H⟩; iexact H).trans (hin c))
    (fun c => by
      rw [scopedRest_eq]
      exact (hout c).trans (by iintro H; isplitr; · iempintro
                               iexact H))
    (fun c s => s.mem ((c.tc : Thread nD τ).loc main_arg1) = V m c main_arg1 ∧ s.mem ((c.tc : Thread nD τ).loc main_arg2) = V m c main_arg2)
    (fun c s' => by
      rw [unscopedRest0_eq]
      iintro ⟨-, HU, HSI⟩
      imodintro
      ihave Hr := (pointsTo_read_all ({main_arg1, main_arg2} : Finset (Ref sig .tc)) (fun b => (c.tc : Thread nD τ).loc b) (V m c) s') $$ [HU HSI]
      · isplitl [HU]
        · rw [BI.bigSep_insert (by decide), BI.bigSep_singleton]; iexact HU
        · iexact HSI
      icases Hr with ⟨%hr, HSI⟩
      isplitr
      · ipureintro; exact ⟨hr _ (by decide), hr _ (by decide)⟩
      · iexact HSI)
    (fun s h c => ⟨(h c).1, (h c).2⟩)

/-- The frame from such a run: window 0's array is the matrix argument, never written; the two vector arguments are no
    window's array and the reshapes before the region do not write them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (fun r => ∀ c : Dev nD,
      (∀ w, r.2.mem ((spec0 w).arr.view.loc (c.tc : Thread nD τ)) = (dats 0 c).arrAt w cfg0.N)
      ∧ r.2.mem ((c.tc : Thread nD τ).loc main_arg1) = V m c main_arg1
      ∧ r.2.mem ((c.tc : Thread nD τ).loc main_arg2) = V m c main_arg2)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     (h c).2.1.trans (V_main_arg1 m c), (h c).2.2.trans (V_main_arg2 m c)⟩) h

end Cert.Kernel.Fr

end
-- ==== Proof.KernelFrame.Run.lean ====
/-
  The word-level kernel's run and frame: the launch applied to the proof data of the three-case body.
-/
import proofs.«406149_j61881888801194_3_alg».proof.Proof.KernelFrame.Frame
import proofs.«406149_j61881888801194_3_alg».proof.Proof.KernelFrame.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main ends; each window's array then holds what the write-backs of the proof data
    leave, and the two vector arguments are as the region found them. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ r.2.mem ((c.tc : Thread nD τ).loc main_arg1) = V m c main_arg1
      ∧ r.2.mem ((c.tc : Thread nD τ).loc main_arg2) = V m c main_arg2) :=
  run_of m ρ (dats m) (A_eq m) (fun _ => rfl) (fun _ => rfl) (fun _ => rfl) (fun _ => rfl) (fun _ _ => rfl)
    (body_obligation m) (hin m) (hout m)

/-- The frame: the run ends and leaves the three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KernelIdealFrame.Base.lean ====
/-
  The frame of the idealized kernel, first module: what the three runs of the body share.  @main is two reshapes
  and then the region; the region's grid is 8 × 16 points, point `t` being row block `t / 16` against column block
  `t % 16`.  Window 0 (2048 rows of the matrix) and window 1 (1024 rows of the SAME matrix) are inputs, windows 2 and
  3 the scale and shift rows, window 4 the result's 2048 rows, stored only at the last column block of a row block.
  Three scratch buffers carry, from one column block to the next, the sum of weights, the weighted sum of rows and
  the normalised row block.  Stated for every float instance.
-/
import proofs.«406149_j61881888801194_3_alg».proof.Proof.Gen.KernelIdeal.Launch
import proofs.«406149_j61881888801194_3_alg».proof.Proof.Gen.KernelIdeal.Skeleton
import proofs.«406149_j61881888801194_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshapes write none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column block of the row block", as the body computes it from the second grid coordinate. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)
/-- "This is the last column block of the row block". -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
/-- Off the last column block the result window is idle and is not written back. -/
theorem idle0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
/-- At the last column block it is live. -/
theorem live0_4 : ∀ t : Fin cfg0.N, condLast (grid0.coords t) → cfg0.idle 4 (grid0.coords t) = false := by decide +kernel

/-! ## The memrefs the body is called with -/

abbrev VO4 : View sig .tc .vmem S2048x128 .f32 := (Memref.whole cc0_stg4_0 : Memref sig .tc .vmem S2048x128 .f32).view
abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .f32 := win0_4.stage (cfg0.slots t 4)
abbrev hs4 (t : Fin cfg0.N) : (ms4 t).IsWhole := hstage0_4 ((cfg0.slots t 4).cast nbuf0_4)
/-- The three scratch buffers: the sum of weights, the weighted sum of rows, the normalised row block. -/
abbrev scL : Memref sig .tc .vmem S2048x1 .f32 := Memref.whole cc0_scratch0
abbrev scA : Memref sig .tc .vmem S2048x128 .f32 := Memref.whole cc0_scratch1
abbrev scN : Memref sig .tc .vmem S2048x128 .bf16 := Memref.whole cc0_scratch2
abbrev VL : View sig .tc .vmem S2048x1 .f32 := scL.view
abbrev VA : View sig .tc .vmem S2048x128 .f32 := scA.view
abbrev VN : View sig .tc .vmem S2048x128 .bf16 := scN.view

/-- The core's scoped buffers that are no staging buffer are the three scratch buffers, each at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scL fullShare d) ∗ (∃ d, owns (c : Thread nD τ) scA fullShare d) ∗ (∃ d, owns (c : Thread nD τ) scN fullShare d)) := by
  rw [scopedRest0_eq]; simp only [scL, scA, scN, owns_whole]; try rfl

end Cert.KernelIdeal.Fr

end
-- ==== Proof.KernelIdealFrame.RunA.lean ====
/-
  The body's run at the FIRST column block of a row block (and not the last): the three scratch buffers, whatever
  they held, are overwritten — the sum of weights and the weighted sum of rows first by zeros and then by this
  column block's contribution, the normalised row block by the row block over its clipped norms —, the result's
  buffer is handed back untouched.  The pieces each scratch buffer ends with are found by running the body.
-/
import proofs.«406149_j61881888801194_3_alg».proof.Proof.KernelIdealFrame.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run: the inputs' buffers at their contents, the result's buffer at `xi4` handed back as it was, the scratch
    buffers at anything; after it each scratch buffer holds its pieces. -/
noncomputable def kernelRunA (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) :
    Σ' (LS0 : List (View.Piece (Elt F) S2048x1 .f32)) (LS1 : List (View.Piece (Elt F) S2048x128 .f32)), { LS2 : List (View.Piece (Elt F) S2048x128 .bf16) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KernelIdealFrame.RunB.lean ====
/-
  The body's run at a MIDDLE column block (neither the first nor the last of its row block): the sum of weights and
  the weighted sum of rows, at what the column block before left (`xs0`, `xs1`), gain this column block's
  contribution; the normalised row block (`xs2`) is only read; the result's buffer is handed back untouched.
-/
import proofs.«406149_j61881888801194_3_alg».proof.Proof.KernelIdealFrame.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) :
    Σ' (LS0 : List (View.Piece (Elt F) S2048x1 .f32)), { LS1 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; isplitr; · ipureintro; exact harg9.read_unread _
    iexact HS2

end Cert.KernelIdeal.Fr

end
-- ==== Proof.KernelIdealFrame.RunC.lean ====
/-
  The body's run at the LAST column block of a row block (and not the first): as at a middle one the two running sums
  gain this column block's contribution, and then the result's buffer, whatever it held, is stored whole: the weighted
  sum over the sum of weights, blended with the row block and layer-normalised with the scale and shift rows.
-/
import proofs.«406149_j61881888801194_3_alg».proof.Proof.KernelIdealFrame.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) :
    Σ' (L4 : List (View.Piece (Elt F) S2048x128 .f32)) (LS0 : List (View.Piece (Elt F) S2048x1 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; isplitr; · ipureintro; exact harg9.read_unread _
    iexact HS2

end Cert.KernelIdeal.Fr

end
-- ==== Proof.KernelIdealFrame.Pieces.lean ====
/-
  What each of the body's three runs leaves in the scratch buffers and (at a last column block) in the result's
  buffer: the pieces the run found, read back as one block each; and that in every run the pieces of a buffer
  tile it, so that the block does not depend on what the buffer held before.
-/
import proofs.«406149_j61881888801194_3_alg».proof.Proof.KernelIdealFrame.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sum of weights after a first column block. -/
def leftA_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) : Vec F S2048x1 .f32 :=
  VL.read (Elt F) (VL.writes (Elt F) VL.junk (kernelRunA c i arg2 harg2 arg3 harg3 arg4 harg4 arg5 harg5 arg6 harg6 arg7 harg7 arg8 harg8 arg9 harg9 hc0 hc1 x0 x1 x2 x3).1)
theorem coverA_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) (y : S2048x1.Idx) :
    ∃ pc ∈ (kernelRunA c i arg2 harg2 arg3 harg3 arg4 harg4 arg5 harg5 arg6 harg6 arg7 harg7 arg8 harg8 arg9 harg9 hc0 hc1 x0 x1 x2 x3).1, y ∈ pc.1.set :=
  View.cover_of_tiledL (kernelRunA c i arg2 harg2 arg3 harg3 arg4 harg4 arg5 harg5 arg6 harg6 arg7 harg7 arg8 harg8 arg9 harg9 hc0 hc1 x0 x1 x2 x3).1 S2048x1.size (by sl_kernel_rfl) y
/-- The weighted sum of rows after a first column block. -/
def leftA_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) : Vec F S2048x128 .f32 :=
  VA.read (Elt F) (VA.writes (Elt F) VA.junk (kernelRunA c i arg2 harg2 arg3 harg3 arg4 harg4 arg5 harg5 arg6 harg6 arg7 harg7 arg8 harg8 arg9 harg9 hc0 hc1 x0 x1 x2 x3).2.1)
theorem coverA_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) (y : S2048x128.Idx) :
    ∃ pc ∈ (kernelRunA c i arg2 harg2 arg3 harg3 arg4 harg4 arg5 harg5 arg6 harg6 arg7 harg7 arg8 harg8 arg9 harg9 hc0 hc1 x0 x1 x2 x3).2.1, y ∈ pc.1.set :=
  View.cover_of_tiledL (kernelRunA c i arg2 harg2 arg3 harg3 arg4 harg4 arg5 harg5 arg6 harg6 arg7 harg7 arg8 harg8 arg9 harg9 hc0 hc1 x0 x1 x2 x3).2.1 S2048x128.size (by sl_kernel_rfl) y
/-- The normalised row block a first column block stores. -/
def leftA_N (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) : Vec F S2048x128 .bf16 :=
  VN.read (Elt F) (VN.writes (Elt F) VN.junk (kernelRunA c i arg2 harg2 arg3 harg3 arg4 harg4 arg5 harg5 arg6 harg6 arg7 harg7 arg8 harg8 arg9 harg9 hc0 hc1 x0 x1 x2 x3).2.2.1)
theorem coverA_N (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i)
    (x0 : Vec F S2048x128 .f32) (x1 : Vec F S1024x128 .f32) (x2 : Vec F S1x128 .f32) (x3 : Vec F S1x128 .f32) (y : S2048x128.Idx) :
    ∃ pc ∈ (kernelRunA c i arg2 harg2 arg3 harg3 arg4 harg4 arg5 harg5 arg6 harg6 arg7 harg7 arg8 harg8 arg9 harg9 hc0 hc1 x0 x1 x2 x3).2.2.1, y ∈ pc.1.set :=
  View.cover_of_tiledL (kernelRunA c i arg2 harg2 arg3 harg3 arg4 harg4 arg5 harg5 arg6 harg6 arg7 harg7 arg8 harg8 arg9 harg9 hc0 hc1 x0 x1 x2 x3).2.2.1 S2048x128.size (by sl_kernel_rfl) y
/-- The sum of weights after a middle column block. -/
def leftB_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) : Vec F S2048x1 .f32 :=
  VL.read (Elt F) (VL.writes (Elt F) VL.junk (kernelRunB c i arg2 harg2 arg3 harg3 arg4 harg4 arg5 harg5 arg6 harg6 arg7 harg7 arg8 harg8 arg9 harg9 hc0 hc1 x0 x1 x2 x3 xs0 xs1 xs2).1)
theorem coverB_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) (y : S2048x1.Idx) :
    ∃ pc ∈ (kernelRunB c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRunB c i arg2 harg2 arg3 harg3 arg4 harg4 arg5 harg5 arg6 harg6 arg7 harg7 arg8 harg8 arg9 harg9 hc0 hc1 x0 x1 x2 x3 xs0 xs1 xs2).1 S2048x1.size (by sl_kernel_rfl) y
/-- The weighted sum of rows after a middle column block. -/
def leftB_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) : Vec F S2048x128 .f32 :=
  VA.read (Elt F) (VA.writes (Elt F) VA.junk (kernelRunB c i arg2 harg2 arg3 harg3 arg4 harg4 arg5 harg5 arg6 harg6 arg7 harg7 arg8 harg8 arg9 harg9 hc0 hc1 x0 x1 x2 x3 xs0 xs1 xs2).2.1)
theorem coverB_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) (y : S2048x128.Idx) :
    ∃ pc ∈ (kernelRunB c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRunB c i arg2 harg2 arg3 harg3 arg4 harg4 arg5 harg5 arg6 harg6 arg7 harg7 arg8 harg8 arg9 harg9 hc0 hc1 x0 x1 x2 x3 xs0 xs1 xs2).2.1 S2048x128.size (by sl_kernel_rfl) y
/-- The result's block a last column block stores. -/
def leftC_O (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) : Vec F S2048x128 .f32 :=
  VO4.read (Elt F) (VO4.writes (Elt F) VO4.junk (kernelRunC c i arg2 harg2 arg3 harg3 arg4 harg4 arg5 harg5 arg6 harg6 arg7 harg7 arg8 harg8 arg9 harg9 hc0 hc1 x0 x1 x2 x3 xs0 xs1 xs2).1)
theorem coverC_O (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) (y : S2048x128.Idx) :
    ∃ pc ∈ (kernelRunC c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRunC c i arg2 harg2 arg3 harg3 arg4 harg4 arg5 harg5 arg6 harg6 arg7 harg7 arg8 harg8 arg9 harg9 hc0 hc1 x0 x1 x2 x3 xs0 xs1 xs2).1 S2048x128.size (by sl_kernel_rfl) y
/-- The sum of weights after a last column block. -/
def leftC_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) : Vec F S2048x1 .f32 :=
  VL.read (Elt F) (VL.writes (Elt F) VL.junk (kernelRunC c i arg2 harg2 arg3 harg3 arg4 harg4 arg5 harg5 arg6 harg6 arg7 harg7 arg8 harg8 arg9 harg9 hc0 hc1 x0 x1 x2 x3 xs0 xs1 xs2).2.1)
theorem coverC_L (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) (y : S2048x1.Idx) :
    ∃ pc ∈ (kernelRunC c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRunC c i arg2 harg2 arg3 harg3 arg4 harg4 arg5 harg5 arg6 harg6 arg7 harg7 arg8 harg8 arg9 harg9 hc0 hc1 x0 x1 x2 x3 xs0 xs1 xs2).2.1 S2048x1.size (by sl_kernel_rfl) y
/-- The weighted sum of rows after a last column block. -/
def leftC_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) : Vec F S2048x128 .f32 :=
  VA.read (Elt F) (VA.writes (Elt F) VA.junk (kernelRunC c i arg2 harg2 arg3 harg3 arg4 harg4 arg5 harg5 arg6 harg6 arg7 harg7 arg8 harg8 arg9 harg9 hc0 hc1 x0 x1 x2 x3 xs0 xs1 xs2).2.2.1)
theorem coverC_A (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i)
    (x0 : Vec F S2048x128 .f32) (x1 : Vec F S1024x128 .f32) (x2 : Vec F S1x128 .f32) (x3 : Vec F S1x128 .f32)
    (xs0 : Vec F S2048x1 .f32) (xs1 : Vec F S2048x128 .f32) (xs2 : Vec F S2048x128 .bf16) (y : S2048x128.Idx) :
    ∃ pc ∈ (kernelRunC c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRunC c i arg2 harg2 arg3 harg3 arg4 harg4 arg5 harg5 arg6 harg6 arg7 harg7 arg8 harg8 arg9 harg9 hc0 hc1 x0 x1 x2 x3 xs0 xs1 xs2).2.2.1 S2048x128.size (by sl_kernel_rfl) y

end Cert.KernelIdeal.Fr

end
-- ==== Proof.KernelIdealFrame.Frame.lean ====
/-
  The frame of the idealized kernel, last module: the proof data of the region and the body's obligation.

  A row block is visited sixteen times in a row, once per column block.  At the first visit the three scratch
  buffers are overwritten (the sum of weights, the weighted sum of rows, the normalised row block); at each later
  visit the two running sums gain the column block's contribution and the normalised row block is only read; at
  the sixteenth the result's block is stored.  What the scratch buffers hold after point `n` is therefore defined
  by recursion on `n` (`leftAt`), and the region's invariant before point `n + 1` names exactly those contents.
  The matrix is read through two windows at once, so each of them holds half of it.  Stated for every float
  instance.
-/
import proofs.«406149_j61881888801194_3_alg».proof.Proof.KernelIdealFrame.Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- A point cannot be both the first and the last column block of its row block. -/
theorem notLast_of_first (t : Fin cfg0.N) (h0 : t.val % 16 = 0) : ¬condLast (grid0.coords t) :=
  fun h => by have h15 := (hcondLast t).mp h; omega
theorem notFirst_of_not (t : Fin cfg0.N) (h0 : ¬t.val % 16 = 0) : ¬condFirst (grid0.coords t) :=
  fun h => h0 ((hcondFirst t).mp h)
theorem notLast_of_not (t : Fin cfg0.N) (h1 : ¬t.val % 16 = 15) : ¬condLast (grid0.coords t) :=
  fun h => h1 ((hcondLast t).mp h)

/-- After a FIRST column block: the sum of weights, the weighted sum of rows and the normalised row block are what
    that run stores, whatever the buffers held; the result's buffer is not stored (a placeholder nothing consults:
    the window is idle there and not written back). -/
def atFirst (c : Dev nD) (t : Fin cfg0.N) (h0 : t.val % 16 = 0) : Vec F S2048x128 .f32 × Vec F S2048x1 .f32 × Vec F S2048x128 .f32 × Vec F S2048x128 .bf16 :=
  (VO4.read (Elt F) VO4.junk,
   leftA_L c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) ((hcondFirst t).mpr h0) (notLast_of_first t h0) (iblk m c 0 t) (iblk m c 1 t) (iblk m c 2 t) (iblk m c 3 t),
   leftA_A c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) ((hcondFirst t).mpr h0) (notLast_of_first t h0) (iblk m c 0 t) (iblk m c 1 t) (iblk m c 2 t) (iblk m c 3 t),
   leftA_N c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) ((hcondFirst t).mpr h0) (notLast_of_first t h0) (iblk m c 0 t) (iblk m c 1 t) (iblk m c 2 t) (iblk m c 3 t))

/-- After a MIDDLE column block, over what the point before left (`p`): the two running sums updated, the
    normalised row block as it was; the result's buffer again not stored. -/
def atMiddle (c : Dev nD) (t : Fin cfg0.N) (h0 : ¬t.val % 16 = 0) (h1 : ¬t.val % 16 = 15) (p : Vec F S2048x128 .f32 × Vec F S2048x1 .f32 × Vec F S2048x128 .f32 × Vec F S2048x128 .bf16) : Vec F S2048x128 .f32 × Vec F S2048x1 .f32 × Vec F S2048x128 .f32 × Vec F S2048x128 .bf16 :=
  (VO4.read (Elt F) VO4.junk,
   leftB_L c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) (notFirst_of_not t h0) (notLast_of_not t h1) (iblk m c 0 t) (iblk m c 1 t) (iblk m c 2 t) (iblk m c 3 t) p.2.1 p.2.2.1 p.2.2.2,
   leftB_A c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) (notFirst_of_not t h0) (notLast_of_not t h1) (iblk m c 0 t) (iblk m c 1 t) (iblk m c 2 t) (iblk m c 3 t) p.2.1 p.2.2.1 p.2.2.2,
   p.2.2.2)

/-- After a LAST column block, over what the point before left: the result's block stored whole, the two running
    sums updated once more, the normalised row block as it was. -/
def atLast (c : Dev nD) (t : Fin cfg0.N) (h0 : ¬t.val % 16 = 0) (h1 : t.val % 16 = 15) (p : Vec F S2048x128 .f32 × Vec F S2048x1 .f32 × Vec F S2048x128 .f32 × Vec F S2048x128 .bf16) : Vec F S2048x128 .f32 × Vec F S2048x1 .f32 × Vec F S2048x128 .f32 × Vec F S2048x128 .bf16 :=
  (leftC_O c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) (notFirst_of_not t h0) ((hcondLast t).mpr h1) (iblk m c 0 t) (iblk m c 1 t) (iblk m c 2 t) (iblk m c 3 t) p.2.1 p.2.2.1 p.2.2.2,
   leftC_L c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) (notFirst_of_not t h0) ((hcondLast t).mpr h1) (iblk m c 0 t) (iblk m c 1 t) (iblk m c 2 t) (iblk m c 3 t) p.2.1 p.2.2.1 p.2.2.2,
   leftC_A c (grid0.coords t) (ms0 t) (hs0 t) (ms1 t) (hs1 t) (ms2 t) (hs2 t) (ms3 t) (hs3 t) (ms4 t) (hs4 t) scL (Memref.isWhole_whole _) scA (Memref.isWhole_whole _) scN (Memref.isWhole_whole _) (notFirst_of_not t h0) ((hcondLast t).mpr h1) (iblk m c 0 t) (iblk m c 1 t) (iblk m c 2 t) (iblk m c 3 t) p.2.1 p.2.2.1 p.2.2.2,
   p.2.2.2)

/-- THE ACCUMULATION.  What the result's buffer, the sum of weights, the weighted sum of rows and the normalised row
    block hold after the body at point `n`: a first column block starts afresh, every other one continues from what
    point `n - 1` left. -/
def leftAt (c : Dev nD) : (n : ℕ) → n < cfg0.N → Vec F S2048x128 .f32 × Vec F S2048x1 .f32 × Vec F S2048x128 .f32 × Vec F S2048x128 .bf16
  | 0, hn => atFirst m c ⟨0, hn⟩ (Nat.zero_mod _)
  | n + 1, hn =>
    if h0 : (n + 1) % 16 = 0 then atFirst m c ⟨n + 1, hn⟩ h0
    else if h1 : (n + 1) % 16 = 15 then atLast m c ⟨n + 1, hn⟩ h0 h1 (leftAt c n (Nat.lt_of_succ_lt hn))
    else atMiddle m c ⟨n + 1, hn⟩ h0 h1 (leftAt c n (Nat.lt_of_succ_lt hn))

/-- `leftAt` at a first column block. -/
theorem leftAt_A (c : Dev nD) (t : Fin cfg0.N) (h0 : t.val % 16 = 0) :
    leftAt m c t.val t.isLt = atFirst m c t h0 := by
  obtain ⟨n, hn⟩ := t
  cases n with
  | zero => exact rfl
  | succ n => exact dif_pos h0

/-- `leftAt` at a middle column block: over what the point before left. -/
theorem leftAt_B (c : Dev nD) (t : Fin cfg0.N) (h0 : ¬t.val % 16 = 0) (h1 : ¬t.val % 16 = 15) :
    leftAt m c t.val t.isLt = atMiddle m c t h0 h1 (leftAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- `leftAt` at a last column block: over what the point before left. -/
theorem leftAt_C (c : Dev nD) (t : Fin cfg0.N) (h0 : ¬t.val % 16 = 0) (h1 : t.val % 16 = 15) :
    leftAt m c t.val t.isLt = atLast m c t h0 h1 (leftAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region's invariant -/

/-- The invariant before point `n`: before the first point the scratch buffers hold anything; before point `n + 1`
    they hold what point `n` left. -/
def PhiS (c : Dev nD) : (n : ℕ) → n ≤ cfg0.N → sProp 𝕄
  | 0, _ => iprop((∃ d, owns (c : Thread nD τ) scL fullShare d) ∗ (∃ d, owns (c : Thread nD τ) scA fullShare d) ∗ (∃ d, owns (c : Thread nD τ) scN fullShare d))
  | n + 1, hn => iprop(owns (c : Thread nD τ) scL fullShare (leftAt m c n hn).2.1 ∗ owns (c : Thread nD τ) scA fullShare (leftAt m c n hn).2.2.1 ∗ owns (c : Thread nD τ) scN fullShare (leftAt m c n hn).2.2.2)

theorem PhiS_zero (c : Dev nD) (n : ℕ) (h : n ≤ cfg0.N) (hz : n = 0) :
    PhiS m c n h = iprop((∃ d, owns (c : Thread nD τ) scL fullShare d) ∗ (∃ d, owns (c : Thread nD τ) scA fullShare d) ∗ (∃ d, owns (c : Thread nD τ) scN fullShare d)) := by
  subst hz; rfl

theorem PhiS_succ (c : Dev nD) (n : ℕ) (hn : n < cfg0.N) :
    PhiS m c (n + 1) hn = iprop(owns (c : Thread nD τ) scL fullShare (leftAt m c n hn).2.1 ∗ owns (c : Thread nD τ) scA fullShare (leftAt m c n hn).2.2.1 ∗ owns (c : Thread nD τ) scN fullShare (leftAt m c n hn).2.2.2) := rfl

theorem PhiS_pos (c : Dev nD) (n : ℕ) (h : n ≤ cfg0.N) (hz : n ≠ 0) :
    PhiS m c n h = iprop(owns (c : Thread nD τ) scL fullShare (leftAt m c (n - 1) (by omega)).2.1 ∗ owns (c : Thread nD τ) scA fullShare (leftAt m c (n - 1) (by omega)).2.2.1 ∗ owns (c : Thread nD τ) scN fullShare (leftAt m c (n - 1) (by omega)).2.2.2) := by
  cases n with
  | zero => exact absurd rfl hz
  | succ n => rfl

/-- Whatever the point, the invariant gives the three scratch buffers at some contents. -/
theorem PhiS_any (c : Dev nD) (n : ℕ) (h : n ≤ cfg0.N) :
    PhiS m c n h ⊢ iprop((∃ d, owns (c : Thread nD τ) scL fullShare d) ∗ (∃ d, owns (c : Thread nD τ) scA fullShare d) ∗ (∃ d, owns (c : Thread nD τ) scN fullShare d)) := by
  cases n with
  | zero => exact Idealize.SL.BI.Entails.refl _
  | succ n =>
    rw [PhiS_succ]
    iintro ⟨HL, HA, HN⟩
    isplitl [HL]; · iexists _; iexact HL
    isplitl [HA]; · iexists _; iexact HA
    iexists _; iexact HN

/-! ## The pipeline's proof data -/

/-- The proof data of the region on core `c`: the arrays as the region finds them; after the body at point `t` each
    input's buffer at its block and the result's at `leftAt`'s first component; the invariant `PhiS`; nothing owed.
    The two windows on the matrix hold one half of it each, the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (leftAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (leftAt m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, nothing owed, and the five windows' current buffers, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at a first column block.  The scratch buffers are handed over at whatever the invariant says they hold
    (the run overwrites all three), the result's buffer is handed back untouched (its window is idle there), and
    the invariant is re-established at what the run's stores leave, which tile each buffer. -/
theorem sound_body_A (c : Dev nD) (t : Fin cfg0.N) (h0 : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0_0 t], after0_0]
  rw [show (dats m 0 c).leavesExact 1 t = owns (c : Thread nD τ) (ms1 t) fullShare ((dats m 0 c).after 1 t) from by
    unfold Dat.leavesExact; rw [live0_1 t], after0_1]
  rw [show (dats m 0 c).leavesExact 2 t = owns (c : Thread nD τ) (ms2 t) fullShare ((dats m 0 c).after 2 t) from by
    unfold Dat.leavesExact; rw [live0_2 t], after0_2]
  rw [show (dats m 0 c).leavesExact 3 t = owns (c : Thread nD τ) (ms3 t) fullShare ((dats m 0 c).after 3 t) from by
    unfold Dat.leavesExact; rw [live0_3 t], after0_3]
  rw [Dat.leavesExact_idle (dats m 0 c) 4 t (idle0_4 t (notLast_of_first t h0)) (noFlush0_4 t (notLast_of_first t h0))]
  rw [leftAt_A m c t h0]
  unfold atFirst leftA_L leftA_A leftA_N; (try dsimp only)
  rw [PhiS_castSucc m c t]
  refine (sep_mono_left (PhiS_any m c _ _)).trans ?_
  iintro ⟨⟨HL, HA, HN⟩, Ho, ⟨%d0, H0⟩, ⟨%d1, H1⟩, ⟨%d2, H2⟩, ⟨%d3, H3⟩, ⟨%d4, H4⟩⟩
  iapply ((kernelRunA c (grid0.coords t) _ _ _ _ _ _ _ _ _ _ _ _ _ _ _ _ ((hcondFirst t).mpr h0) (notLast_of_first t h0) (iblk m c 0 t) (iblk m c 1 t) (iblk m c 2 t) (iblk m c 3 t)).2.2.2 _ Set.univ _)
  isplitl [H0]; · iexact H0
  isplitl [H1]; · iexact H1
  isplitl [H2]; · iexact H2
  isplitl [H3]; · iexact H3
  isplitl [H4]; · iexact H4
  isplitl [HL]; · iexact HL
  isplitl [HA]; · iexact HA
  isplitl [HN]; · iexact HN
  iintro ⟨H0, H1, H2, H3, H4, ⟨%eL, HL⟩, ⟨%eA, HA⟩, ⟨%eN, HN⟩⟩
  isplitl [HL HA HN]
  · isplitl [HL]
    · unfold owns; iexists _; isplitr
      swap; · iexact HL
      ipureintro; exact View.read_writes_of_cover _ _ _ _ _ (coverA_L c _ _ _ _ _ _ _ _ _ _ _ _ _ _ _ _ _ _ _ _ _ _ _)
    isplitl [HA]
    · unfold owns; iexists _; isplitr
      swap; · iexact HA
      ipureintro; exact View.read_writes_of_cover _ _ _ _ _ (coverA_A c _ _ _ _ _ _ _ _ _ _ _ _ _ _ _ _ _ _ _ _ _ _ _)
    unfold owns; iexists _; isplitr
    swap; · iexact HN
    ipureintro; exact View.read_writes_of_cover _ _ _ _ _ (coverA_N c _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  iexists _; iexact H4

set_option maxHeartbeats 4800000 in
/-- The body at a middle column block.  The point is not the grid's first, so the invariant names what the point
    before left in the scratch buffers; the run updates the two running sums from exactly those contents and hands
    the normalised row block back as it was; the result's buffer is handed back untouched. -/
theorem sound_body_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0_0 t], after0_0]
  rw [show (dats m 0 c).leavesExact 1 t = owns (c : Thread nD τ) (ms1 t) fullShare ((dats m 0 c).after 1 t) from by
    unfold Dat.leavesExact; rw [live0_1 t], after0_1]
  rw [show (dats m 0 c).leavesExact 2 t = owns (c : Thread nD τ) (ms2 t) fullShare ((dats m 0 c).after 2 t) from by
    unfold Dat.leavesExact; rw [live0_2 t], after0_2]
  rw [show (dats m 0 c).leavesExact 3 t = owns (c : Thread nD τ) (ms3 t) fullShare ((dats m 0 c).after 3 t) from by
    unfold Dat.leavesExact; rw [live0_3 t], after0_3]
  rw [Dat.leavesExact_idle (dats m 0 c) 4 t (idle0_4 t (notLast_of_not t h1)) (noFlush0_4 t (notLast_of_not t h1))]
  rw [leftAt_B m c t h0 h1]
  unfold atMiddle leftB_L leftB_A; (try dsimp only)
  rw [PhiS_castSucc m c t, PhiS_pos m c _ _ hz]
  iintro ⟨⟨HL, HA, HN⟩, Ho, ⟨%d0, H0⟩, ⟨%d1, H1⟩, ⟨%d2, H2⟩, ⟨%d3, H3⟩, ⟨%d4, H4⟩⟩
  iapply ((kernelRunB c (grid0.coords t) _ _ _ _ _ _ _ _ _ _ _ _ _ _ _ _ (notFirst_of_not t h0) (notLast_of_not t h1) (iblk m c 0 t) (iblk m c 1 t) (iblk m c 2 t) (iblk m c 3 t)
    (leftAt m c (t.val - 1) (Nat.lt_of_le_of_lt (Nat.sub_le _ _) t.isLt)).2.1 (leftAt m c (t.val - 1) (Nat.lt_of_le_of_lt (Nat.sub_le _ _) t.isLt)).2.2.1 (leftAt m c (t.val - 1) (Nat.lt_of_le_of_lt (Nat.sub_le _ _) t.isLt)).2.2.2).2.2 _ Set.univ _)
  isplitl [H0]; · iexact H0
  isplitl [H1]; · iexact H1
  isplitl [H2]; · iexact H2
  isplitl [H3]; · iexact H3
  isplitl [H4]; · iexact H4
  isplitl [HL]; · iexact HL
  isplitl [HA]; · iexact HA
  isplitl [HN]; · iexact HN
  iintro ⟨H0, H1, H2, H3, H4, ⟨%eL, HL⟩, ⟨%eA, HA⟩, HN⟩
  isplitl [HL HA HN]
  · isplitl [HL]
    · unfold owns; iexists _; isplitr
      swap; · iexact HL
      ipureintro; exact View.read_writes_of_cover _ _ _ _ _ (coverB_L c _ _ _ _ _ _ _ _ _ _ _ _ _ _ _ _ _ _ _ _ _ _ _ _ _ _)
    isplitl [HA]
    · unfold owns; iexists _; isplitr
      swap; · iexact HA
      ipureintro; exact View.read_writes_of_cover _ _ _ _ _ (coverB_A c _ _ _ _ _ _ _ _ _ _ _ _ _ _ _ _ _ _ _ _ _ _ _ _ _ _)
    iexact HN
  isplitl [Ho]; · iexact Ho
  isplitl [H0]; · iexact H0
  isplitl [H1]; · iexact H1
  isplitl [H2]; · iexact H2
  isplitl [H3]; · iexact H3
  iexists _; iexact H4

set_option maxHeartbeats 4800000 in
/-- The body at a last column block.  As at a middle one for the scratch buffers; the result's buffer, at anything,
    is stored whole by the run (its stores tile it), which is what the proof data says it holds there. -/
theorem sound_body_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0_0 t], after0_0]
  rw [show (dats m 0 c).leavesExact 1 t = owns (c : Thread nD τ) (ms1 t) fullShare ((dats m 0 c).after 1 t) from by
    unfold Dat.leavesExact; rw [live0_1 t], after0_1]
  rw [show (dats m 0 c).leavesExact 2 t = owns (c : Thread nD τ) (ms2 t) fullShare ((dats m 0 c).after 2 t) from by
    unfold Dat.leavesExact; rw [live0_2 t], after0_2]
  rw [show (dats m 0 c).leavesExact 3 t = owns (c : Thread nD τ) (ms3 t) fullShare ((dats m 0 c).after 3 t) from by
    unfold Dat.leavesExact; rw [live0_3 t], after0_3]
  rw [show (dats m 0 c).leavesExact 4 t = owns (c : Thread nD τ) (ms4 t) fullShare ((dats m 0 c).after 4 t) from by
    unfold Dat.leavesExact; rw [live0_4 t ((hcondLast t).mpr h1)], after0_4]
  rw [leftAt_C m c t h0 h1]
  unfold atLast leftC_O leftC_L leftC_A; (try dsimp only)
  rw [PhiS_castSucc m c t, PhiS_pos m c _ _ hz]
  iintro ⟨⟨HL, HA, HN⟩, Ho, ⟨%d0, H0⟩, ⟨%d1, H1⟩, ⟨%d2, H2⟩, ⟨%d3, H3⟩, ⟨%d4, H4⟩⟩
  iapply ((kernelRunC c (grid0.coords t) _ _ _ _ _ _ _ _ _ _ _ _ _ _ _ _ (notFirst_of_not t h0) ((hcondLast t).mpr h1) (iblk m c 0 t) (iblk m c 1 t) (iblk m c 2 t) (iblk m c 3 t)
    (leftAt m c (t.val - 1) (Nat.lt_of_le_of_lt (Nat.sub_le _ _) t.isLt)).2.1 (leftAt m c (t.val - 1) (Nat.lt_of_le_of_lt (Nat.sub_le _ _) t.isLt)).2.2.1 (leftAt m c (t.val - 1) (Nat.lt_of_le_of_lt (Nat.sub_le _ _) t.isLt)).2.2.2).2.2.2 Set.univ _)
  isplitl [H0]; · iexact H0
  isplitl [H1]; · iexact H1
  isplitl [H2]; · iexact H2
  isplitl [H3]; · iexact H3
  isplitl [H4]; · iexists _; iexact H4
  isplitl [HL]; · iexact HL
  isplitl [HA]; · iexact HA
  isplitl [HN]; · iexact HN
  iintro ⟨H0, H1, H2, H3, ⟨%e4, H4⟩, ⟨%eL, HL⟩, ⟨%eA, HA⟩, HN⟩
  isplitl [HL HA HN]
  · isplitl [HL]
    · unfold owns; iexists _; isplitr
      swap; · iexact HL
      ipureintro; exact View.read_writes_of_cover _ _ _ _ _ (coverC_L c _ _ _ _ _ _ _ _ _ _ _ _ _ _ _ _ _ _ _ _ _ _ _ _ _ _)
    isplitl [HA]
    · unfold owns; iexists _; isplitr
      swap; · iexact HA
      ipureintro; exact View.read_writes_of_cover _ _ _ _ _ (coverC_A c _ _ _ _ _ _ _ _ _ _ _ _ _ _ _ _ _ _ _ _ _ _ _ _ _ _)
    iexact HN
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverC_O c _ _ _ _ _ _ _ _ _ _ _ _ _ _ _ _ _ _ _ _ _ _ _ _ _ _)

/-- The body at any point: its position in the row block decides which of the three runs applies. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_body_A m c t h0
  · by_cases h1 : t.val % 16 = 15
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the region -/

/-- The three scratch buffers at anything are the invariant before the first point. -/
theorem hin (c : Dev nD) :
    iprop((∃ d, owns (c : Thread nD τ) scL fullShare d) ∗ (∃ d, owns (c : Thread nD τ) scA fullShare d) ∗ (∃ d, owns (c : Thread nD τ) scN fullShare d)) ⊢ (dats m 0 c).Φ 0 := by
  rw [show (dats m 0 c).Φ 0 = PhiS m c 0 (Nat.zero_le _) from rfl, PhiS_zero m c 0 _ rfl]

/-- At any point the invariant gives the three scratch buffers back at some contents: what they were named to hold
    is forgotten. -/
theorem Phi_out (c : Dev nD) (t : Fin (cfg0.N + 1)) :
    (dats m 0 c).Φ t ⊢ iprop((∃ d, owns (c : Thread nD τ) scL fullShare d) ∗ (∃ d, owns (c : Thread nD τ) scA fullShare d) ∗ (∃ d, owns (c : Thread nD τ) scN fullShare d)) := by
  rw [show (dats m 0 c).Φ t = PhiS m c t.val (Nat.le_of_lt_succ t.isLt) from rfl]
  exact PhiS_any m c _ _

/-- In particular after the last point. -/
theorem hout (c : Dev nD) :
    (dats m 0 c).Φ (Fin.last cfg0.N) ⊢ iprop((∃ d, owns (c : Thread nD τ) scL fullShare d) ∗ (∃ d, owns (c : Thread nD τ) scA fullShare d) ∗ (∃ d, owns (c : Thread nD τ) scN fullShare d)) :=
  Phi_out m c _

end Cert.KernelIdeal.Fr

end
-- ==== Proof.KernelIdealFrame.Launch.lean ====
/-
  The launch of the idealized kernel's one region.  Windows 0 and 1 read the same array — the matrix argument —
  so its buffer, held whole when the region is entered, is dealt to them in two halves; every other window's array is
  its own buffer.  From the body's obligation at every grid point the region runs to its end, the arrays end at what
  the write-backs leave and the two vector arguments, which no window stages, end as they were.
-/
import proofs.«406149_j61881888801194_3_alg».proof.Proof.KernelIdealFrame.Base
import Idealize.ShloMosaic.Lib.Pipeline.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three scratch buffers, each at some contents: what the region starts from and ends with. -/
abbrev scr (c : Dev nD) : sProp 𝕄 :=
  iprop((∃ d, owns (c : Thread nD τ) scL fullShare d) ∗ (∃ d, owns (c : Thread nD τ) scA fullShare d) ∗ (∃ d, owns (c : Thread nD τ) scN fullShare d))

/-- The buffers behind the windows' arrays, held whole, are the windows' arrays at their shares: the matrix's buffer
    split into the halves of windows 0 and 1. -/
theorem arrays_of_bufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Fn : (w : Fin cfg0.W) → Buf (Elt F) ((cfg0.win w).arr.view.loc (c.tc : Thread nD τ))) (hF : ∀ w, Fn w = V m c (Pipeline.arrRef spec0 w)) :
    (Pipeline.arrBufs (Ix := Unit) (Name := ℕ) (U := UR sig nD τ) (Lvl := ℕ) spec0 c (V m c) : sProp 𝕄) ⊢ dat.arrays Fn := by
  unfold Dat.arrays Pipeline.arrBufs
  rw [bigSep_W0]
  rw [bigSep_eq_bigSepL_of_eq [main_arg0, main_v0, main_v1, main_v2] (by decide) (by decide)]
  have e0 : (View.loc c.tc (cfg0.win 0).arr.view ↦[(cfg0.win 0).arr.view.set]{dat.share 0} Fn 0 : sProp 𝕄) = (c.tc.loc main_arg0 ↦{fullShare.left} V m c main_arg0) := by
    rw [(arr_whole0 0).set_eq_univ, hF 0, show dat.share 0 = fullShare.left from by unfold Dat.share; rw [if_neg (by decide)]; exact hq0]
  have e1 : (View.loc c.tc (cfg0.win 1).arr.view ↦[(cfg0.win 1).arr.view.set]{dat.share 1} Fn 1 : sProp 𝕄) = (c.tc.loc main_arg0 ↦{fullShare.right} V m c main_arg0) := by
    rw [(arr_whole0 1).set_eq_univ, hF 1, show dat.share 1 = fullShare.right from by unfold Dat.share; rw [if_neg (by decide)]; exact hq1]
  have e2 : (View.loc c.tc (cfg0.win 2).arr.view ↦[(cfg0.win 2).arr.view.set]{dat.share 2} Fn 2 : sProp 𝕄) = (c.tc.loc main_v0 ↦{fullShare} V m c main_v0) := by
    rw [(arr_whole0 2).set_eq_univ, hF 2, show dat.share 2 = fullShare from by unfold Dat.share; rw [if_neg (by decide)]; exact hq2]
  have e3 : (View.loc c.tc (cfg0.win 3).arr.view ↦[(cfg0.win 3).arr.view.set]{dat.share 3} Fn 3 : sProp 𝕄) = (c.tc.loc main_v1 ↦{fullShare} V m c main_v1) := by
    rw [(arr_whole0 3).set_eq_univ, hF 3, show dat.share 3 = fullShare from by unfold Dat.share; rw [if_neg (by decide)]; exact hq3]
  have e4 : (View.loc c.tc (cfg0.win 4).arr.view ↦[(cfg0.win 4).arr.view.set]{dat.share 4} Fn 4 : sProp 𝕄) = (c.tc.loc main_v2 ↦{fullShare} V m c main_v2) := by
    rw [(arr_whole0 4).set_eq_univ, hF 4, show dat.share 4 = fullShare from by unfold Dat.share; rw [if_pos (by decide)]]
  rw [e0, e1, e2, e3, e4]
  simp only [bigSepL_cons_cons, bigSepL_singleton]
  refine (show iprop((c.tc.loc main_arg0 ↦{fullShare} V m c main_arg0) ∗ (c.tc.loc main_v0 ↦{fullShare} V m c main_v0) ∗ (c.tc.loc main_v1 ↦{fullShare} V m c main_v1) ∗ (c.tc.loc main_v2 ↦{fullShare} V m c main_v2)) ⊢ _ from ?_)
  iintro ⟨H0, H1, H2, H3⟩
  have hs : (c.tc.loc main_arg0 ↦{fullShare} V m c main_arg0 : sProp 𝕄) ⊢ iprop((c.tc.loc main_arg0 ↦{fullShare.left} V m c main_arg0) ∗ (c.tc.loc main_arg0 ↦{fullShare.right} V m c main_arg0)) :=
    (pointsTo_share (IsOp.posShare_halves fullShare).mem_op).1
  ihave H0' := hs $$ H0
  icases H0' with ⟨H0l, H0r⟩
  isplitl [H0l]; · iexact H0l
  isplitl [H0r]; · iexact H0r
  isplitl [H1]; · iexact H1
  isplitl [H2]; · iexact H2
  iexact H3

set_option backward.isDefEq.respectTransparency.types false in
/-- THE RUN, from any proof data of the region whose arrays are the region-entry ones, whose windows 0 and 1 hold the
    two halves of the matrix, whose invariant starts from and ends at the scratch buffers at anything and whose body
    obligation holds: every weakly fair execution of @main ends, every window's array at what the write-backs leave,
    the two vector arguments as the region found them. -/
theorem run_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hbody : ∀ c, BodyObligation (dats 0 c) (defs₀ (F := F)) Variants.none () Set.univ)
    (hin : ∀ c, scr c ⊢ (dats 0 c).Φ 0) (hout : ∀ c, (dats 0 c).Φ (Fin.last cfg0.N) ⊢ scr c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ r.2.mem ((c.tc : Thread nD τ).loc main_arg1) = V m c main_arg1
      ∧ r.2.mem ((c.tc : Thread nD τ).loc main_arg2) = V m c main_arg2) := by
  classical
  refine Pipeline.θ_run_region_noSem_shared cfgs dats () cellOf_inj (0 : Fin 1) winFacts₀0 emb₁ defs₀ Variants.none m ρ main
    (fun c => (hbody c).loose) block_pos0 arr_whole0 stage_whole0 howed
    (Rounds.initOf (Pipeline.cells cfgs cellOf_inj) (Pipeline.launchToks cfgs cellOf_inj)) .rfl
    (V m) (hmain m Variants.none)
    (fun c => arrays_of_bufs m c (dats 0 c) (hq0 c) (hq1 c) (hq2 c) (hq3 c) _ (fun w => by rw [Dat.arrAt]; exact hA c w))
    (fun _ => iprop(emp)) (fun _ => iprop(emp))
    (fun c => Pipeline.unscopedRest (Ix := Unit) (Name := ℕ) (U := UR sig nD τ) (Lvl := ℕ) spec0 c (V m c))
    (fun c => by iintro H; isplitr; · iempintro
                 iexact H)
    (fun c => by
      rw [scopedRest_eq]
      exact (show _ ⊢ scr c from by iintro ⟨-, H⟩; iexact H).trans (hin c))
    (fun c => by
      rw [scopedRest_eq]
      exact (hout c).trans (by iintro H; isplitr; · iempintro
                               iexact H))
    (fun c s => s.mem ((c.tc : Thread nD τ).loc main_arg1) = V m c main_arg1 ∧ s.mem ((c.tc : Thread nD τ).loc main_arg2) = V m c main_arg2)
    (fun c s' => by
      rw [unscopedRest0_eq]
      iintro ⟨-, HU, HSI⟩
      imodintro
      ihave Hr := (pointsTo_read_all ({main_arg1, main_arg2} : Finset (Ref sig .tc)) (fun b => (c.tc : Thread nD τ).loc b) (V m c) s') $$ [HU HSI]
      · isplitl [HU]
        · rw [BI.bigSep_insert (by decide), BI.bigSep_singleton]; iexact HU
        · iexact HSI
      icases Hr with ⟨%hr, HSI⟩
      isplitr
      · ipureintro; exact ⟨hr _ (by decide), hr _ (by decide)⟩
      · iexact HSI)
    (fun s h c => ⟨(h c).1, (h c).2⟩)

/-- The frame from such a run: window 0's array is the matrix argument, never written; the two vector arguments are no
    window's array and the reshapes before the region do not write them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (fun r => ∀ c : Dev nD,
      (∀ w, r.2.mem ((spec0 w).arr.view.loc (c.tc : Thread nD τ)) = (dats 0 c).arrAt w cfg0.N)
      ∧ r.2.mem ((c.tc : Thread nD τ).loc main_arg1) = V m c main_arg1
      ∧ r.2.mem ((c.tc : Thread nD τ).loc main_arg2) = V m c main_arg2)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     (h c).2.1.trans (V_main_arg1 m c), (h c).2.2.trans (V_main_arg2 m c)⟩) h

end Cert.KernelIdeal.Fr

end
-- ==== Proof.KernelIdealFrame.Run.lean ====
/-
  The idealized kernel's run and frame: the launch applied to the proof data of the three-case body.
-/
import proofs.«406149_j61881888801194_3_alg».proof.Proof.KernelIdealFrame.Frame
import proofs.«406149_j61881888801194_3_alg».proof.Proof.KernelIdealFrame.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main ends; each window's array then holds what the write-backs of the proof data
    leave, and the two vector arguments are as the region found them. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ r.2.mem ((c.tc : Thread nD τ).loc main_arg1) = V m c main_arg1
      ∧ r.2.mem ((c.tc : Thread nD τ).loc main_arg2) = V m c main_arg2) :=
  run_of m ρ (dats m) (A_eq m) (fun _ => rfl) (fun _ => rfl) (fun _ => rfl) (fun _ => rfl) (fun _ _ => rfl)
    (body_obligation m) (hin m) (hout m)

/-- The frame: the run ends and leaves the three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.Spec.lean ====
/-
  The common vocabulary of this certificate: the two programs' results written as plain functions of the three
  argument arrays, coordinate by coordinate, on the extended reals.

  For a matrix `x` (16384 rows of 128 entries) both programs normalise each row by its Euclidean norm (clipped below
  by a small constant), take all pairwise inner products of normalised rows (`sim`), weight row `j` of `x` by the
  exponential of `sim i j` and divide by the total weight, blend the result with the row itself and apply a layer
  normalisation with scale `g` and shift `b`.  They differ in one place only: the kernel divides the weighted sum of
  rows by the sum of the weights (`aggK`), the reference first subtracts the row's largest logit, normalises every
  weight and then sums (`aggR`).  The two agree wherever the entries of `x` are real numbers.
-/
import Idealize.ShloMosaic.PureOps.Ideal
import Idealize.ShloMosaic.Lib.ValueIdx

noncomputable section

open scoped BigOperators

namespace Cert.Spec

open Idealize.ShloMosaic Idealize.ShloMosaic.ValueIdx

/-- A 16384 × 128 matrix of extended reals, by coordinates. -/
abbrev Mat := Fin 16384 → Fin 128 → EReal
/-- A vector of 128 extended reals. -/
abbrev Row := Fin 128 → EReal

/-- The lower clip of a row norm (the binary32 value nearest 1e-12). -/
def normEps : EReal := Ideal.ofBits .f32 0x2B8CBCCC#32
/-- The literal 1.0 the reference divides its logits by. -/
def one : EReal := Ideal.ofBits .f32 0x3F800000#32
/-- The reference's starting value of a row maximum, minus infinity. -/
def negInf : EReal := Ideal.ofBits .f32 0xFF800000#32
/-- 1.5, 0.5, 128 and the variance offset (the binary32 value nearest 1e-5). -/
def c15 : EReal := Ideal.ofBits .f32 0x3FC00000#32
def c05 : EReal := Ideal.ofBits .f32 0x3F000000#32
def c128 : EReal := Ideal.ofBits .f32 0x43000000#32
def lnEps : EReal := Ideal.ofBits .f32 0x3727C5AC#32

/-- The clipped Euclidean norm of row `i`. -/
def nrm (x : Mat) (i : Fin 16384) : EReal := max (Ideal.sqrt (∑ d : Fin 128, x i d * x i d)) normEps
/-- The normalised rows. -/
def nx (x : Mat) (i : Fin 16384) (d : Fin 128) : EReal := Ideal.div (x i d) (nrm x i)
/-- The inner product of normalised rows `i` and `j`. -/
def sim (x : Mat) (i j : Fin 16384) : EReal := ∑ k : Fin 128, nx x i k * nx x j k
/-- The unnormalised weight of row `j` for row `i`. -/
def wgt (x : Mat) (i j : Fin 16384) : EReal := Ideal.exp (sim x i j)

/-- The kernel's aggregate: the weighted sum of the rows over the sum of the weights. -/
def aggK (x : Mat) (i : Fin 16384) (d : Fin 128) : EReal :=
  Ideal.div (∑ j : Fin 16384, wgt x i j * x j d) (∑ j : Fin 16384, wgt x i j)

/-- The reference's logits: the inner products over the literal one. -/
def logit (x : Mat) (i j : Fin 16384) : EReal := Ideal.div (sim x i j) one
/-- The reference's row maximum of the logits, started from minus infinity twice over. -/
def rowMax (x : Mat) (i : Fin 16384) : EReal :=
  max negInf ((Finset.univ : Finset (Fin 16384)).fold max negInf (fun j => logit x i j))
/-- The reference's shifted weights. -/
def swgt (x : Mat) (i j : Fin 16384) : EReal := Ideal.exp (logit x i j - rowMax x i)
/-- The reference's aggregate: every shifted weight over their sum, then the weighted sum of the rows. -/
def aggR (x : Mat) (i : Fin 16384) (d : Fin 128) : EReal :=
  ∑ j : Fin 16384, Ideal.div (swgt x i j) (∑ l : Fin 16384, swgt x i l) * x j d

/-- The blend of a row with its aggregate. -/
def blend (xr ar : Row) (d : Fin 128) : EReal := c15 * xr d - c05 * ar d
/-- The mean of a row, the centred row and its mean square. -/
def mean (y : Row) : EReal := Ideal.div (∑ d : Fin 128, y d) c128
def cen (y : Row) (d : Fin 128) : EReal := y d - mean y
def var (y : Row) : EReal := Ideal.div (∑ d : Fin 128, cen y d * cen y d) c128
/-- The layer normalisation of a row with scale `g` and shift `b`. -/
def lnorm (y g b : Row) (d : Fin 128) : EReal := cen y d * Ideal.rsqrt (var y + lnEps) * g d + b d

/-- What both programs do after the aggregate: blend, then normalise. -/
def finish (x agg : Mat) (g b : Row) : Mat := fun i d => lnorm (blend (x i) (agg i)) g b d

/-- The kernel's result and the reference's. -/
def outK (x : Mat) (g b : Row) : Mat := finish x (aggK x) g b
def outR (x : Mat) (g b : Row) : Mat := finish x (aggR x) g b

/-- An array of shape [16384, 128] by coordinates, a vector of shape [128] by its coordinate, and back. -/
def matOf (a : (⟨2, ![16384, 128]⟩ : Shape).Idx → EReal) : Mat := fun i d => a (ix2 i d)
def rowOf (a : (⟨1, ![128]⟩ : Shape).Idx → EReal) : Row := fun d => a (ix1 d)
def arrOf (M : Mat) : (⟨2, ![16384, 128]⟩ : Shape).Idx → EReal := fun j => M (j 0) (j 1)

theorem arrOf_ix2 (M : Mat) (i : Fin 16384) (d : Fin 128) : arrOf M (ix2 i d) = M i d := rfl

/-- Equal aggregates give equal results. -/
theorem outR_eq_outK_of_agg {x : Mat} (h : aggR x = aggK x) (g b : Row) : outR x g b = outK x g b := by
  unfold outR outK; rw [h]

end Cert.Spec

end
-- ==== Proof.KernelIdealValue.Blocks.lean ====
/-
  The idealized kernel's windows, read at an index.

  The region's grid has 8 × 16 points; point `t` pairs row block `t / 16` with column block `t % 16`.  Window 0 is
  the 2048 rows of the argument matrix starting at row `2048 · (t / 16)`, window 1 the 1024 rows of the SAME matrix
  starting at row `1024 · (t % 16)`, windows 2 and 3 the scale and the shift vector laid out as one row, and window 4
  the result's 2048 rows starting at row `2048 · (t / 16)`.  An element of a block sits in its array, on each axis, at
  the block index times the block's size plus its own coordinate; the block indices are decided once over the grid.
-/
import proofs.«406149_j61881888801194_3_alg».proof.Proof.KernelIdealFrame.Base
import proofs.«406149_j61881888801194_3_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The block indices over the grid -/

/-- At point `t` the row-block windows (0 and 4) sit at block `t / 16`, the column-block window (1) at block
    `t % 16`, and the two one-row windows at block 0; no window moves along the 128 entries of a row. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0 :=
  (by decide +kernel : ∀ t : Fin grid0.N, _)

/-- The grid has 128 points, so a row block index is below 8 and a column block index below 16. -/
theorem point_lt (t : Fin cfg0.N) : t.val < 128 := by
  have h : t.val < grid0.N := t.isLt
  rw [N_0] at h; exact h

/-! ## The blocks, by their literal types -/

/-- The row block at point `t`: 2048 rows of the matrix. -/
abbrev rowBlock (c : Dev nD) (t : Fin cfg0.N) : Vec Ideal S2048x128 .f32 := Fr.iblk m c 0 t
/-- The column block at point `t`: 1024 rows of the same matrix. -/
abbrev colBlock (c : Dev nD) (t : Fin cfg0.N) : Vec Ideal S1024x128 .f32 := Fr.iblk m c 1 t
/-- The scale and the shift vector, each as one row. -/
abbrev scaleBlock (c : Dev nD) (t : Fin cfg0.N) : Vec Ideal S1x128 .f32 := Fr.iblk m c 2 t
abbrev shiftBlock (c : Dev nD) (t : Fin cfg0.N) : Vec Ideal S1x128 .f32 := Fr.iblk m c 3 t

/-- The argument matrix and the two vectors by coordinates, as the common vocabulary reads them. -/
abbrev X (c : Dev nD) : Cert.Spec.Mat := Cert.Spec.matOf (m ((c : Thread nD τ).loc main_arg0))
abbrev G (c : Dev nD) : Cert.Spec.Row := Cert.Spec.rowOf (m ((c : Thread nD τ).loc main_arg1))
abbrev B (c : Dev nD) : Cert.Spec.Row := Cert.Spec.rowOf (m ((c : Thread nD τ).loc main_arg2))

/-! ## The two matrix windows -/

/-- Row `p` of the row block at point `t` is row `2048 · (t / 16) + p` of the matrix. -/
theorem rowBlock_apply (c : Dev nD) (t : Fin cfg0.N) (p : Fin 2048) (q : Fin 128) :
    rowBlock m c t (ix2 p q)
      = X m c ⟨2048 * (t.val / 16) + p.val, by have := point_lt t; have := p.isLt; omega⟩ q := by
  obtain ⟨e0, e1, -⟩ := idx_facts t
  show Fr.V m c main_arg0 (((cfg0.win 0).blk t).view.emb (ix2 p q)) = _
  rw [Fr.V_main_arg0]
  refine congrArg (m ((c : Thread nD τ).loc main_arg0)) ?_
  funext a; apply Fin.ext
  match a with
  | ⟨0, _⟩ => show win0_0.index t (0 : Fin 2) * 2048 + 1 * p.val = 2048 * (t.val / 16) + p.val; omega
  | ⟨1, _⟩ => show win0_0.index t (1 : Fin 2) * 128 + 1 * q.val = q.val; omega

/-- Row `j` of the column block at point `t` is row `1024 · (t % 16) + j` of the matrix. -/
theorem colBlock_apply (c : Dev nD) (t : Fin cfg0.N) (j : Fin 1024) (q : Fin 128) :
    colBlock m c t (ix2 j q)
      = X m c ⟨1024 * (t.val % 16) + j.val, by have := j.isLt; omega⟩ q := by
  obtain ⟨-, -, e0, e1, -⟩ := idx_facts t
  show Fr.V m c main_arg0 (((cfg0.win 1).blk t).view.emb (ix2 j q)) = _
  rw [Fr.V_main_arg0]
  refine congrArg (m ((c : Thread nD τ).loc main_arg0)) ?_
  funext a; apply Fin.ext
  match a with
  | ⟨0, _⟩ => show win0_1.index t (0 : Fin 2) * 1024 + 1 * j.val = 1024 * (t.val % 16) + j.val; omega
  | ⟨1, _⟩ => show win0_1.index t (1 : Fin 2) * 128 + 1 * q.val = q.val; omega

/-! ## The two one-row windows

Before the region the scale and the shift vector are each recast from 128 entries to one row of 128; the window is
that whole row. -/

/-- The recast scale vector, as the region finds it. -/
theorem scaleRow_eq (c : Dev nD) :
    (Fr.V m c main_v0 : S1x128.Idx → EReal)
      = shapeCast S1x128 (m ((c : Thread nD τ).loc main_arg1)) shapeCasts_S128_S1x128 := by
  dsimp only [Fr.V, Gen.hostOps0]; after_results; rfl

/-- The recast shift vector, as the region finds it. -/
theorem shiftRow_eq (c : Dev nD) :
    (Fr.V m c main_v1 : S1x128.Idx → EReal)
      = shapeCast S1x128 (m ((c : Thread nD τ).loc main_arg2)) shapeCasts_S128_S1x128 := by
  dsimp only [Fr.V, Gen.hostOps0]; after_results; rfl

/-- Entry `q` of the scale row is entry `q` of the scale vector. -/
theorem scaleBlock_apply (c : Dev nD) (t : Fin cfg0.N) (z : Fin 1) (q : Fin 128) :
    scaleBlock m c t (ix2 z q) = G m c q := by
  obtain ⟨-, -, -, -, e0, e1, -⟩ := idx_facts t
  show (Fr.V m c main_v0 : S1x128.Idx → EReal) (((cfg0.win 2).blk t).view.emb (ix2 z q)) = _
  rw [scaleRow_eq]
  have hi : ((cfg0.win 2).blk t).view.emb (ix2 z q) = ix2 z q := by
    funext a; apply Fin.ext
    match a with
    | ⟨0, _⟩ => show win0_2.index t (0 : Fin 2) * 1 + 1 * z.val = z.val; omega
    | ⟨1, _⟩ => show win0_2.index t (1 : Fin 2) * 128 + 1 * q.val = q.val; omega
  rw [hi]
  exact shapeCast_a_1a_apply _ _ z q

/-- Entry `q` of the shift row is entry `q` of the shift vector. -/
theorem shiftBlock_apply (c : Dev nD) (t : Fin cfg0.N) (z : Fin 1) (q : Fin 128) :
    shiftBlock m c t (ix2 z q) = B m c q := by
  obtain ⟨-, -, -, -, -, -, e0, e1, -⟩ := idx_facts t
  show (Fr.V m c main_v1 : S1x128.Idx → EReal) (((cfg0.win 3).blk t).view.emb (ix2 z q)) = _
  rw [shiftRow_eq]
  have hi : ((cfg0.win 3).blk t).view.emb (ix2 z q) = ix2 z q := by
    funext a; apply Fin.ext
    match a with
    | ⟨0, _⟩ => show win0_3.index t (0 : Fin 2) * 1 + 1 * z.val = z.val; omega
    | ⟨1, _⟩ => show win0_3.index t (1 : Fin 2) * 128 + 1 * q.val = q.val; omega
  rw [hi]
  exact shapeCast_a_1a_apply _ _ z q

/-! ## The result window -/

/-- An index of the result is in point `t`'s block iff each coordinate is in the block's range on its axis. -/
theorem mem_outBlock (t : Fin cfg0.N) (i : S16384x128.Idx) :
    i ∈ ((cfg0.win 4).blk t).view.set
      ↔ ∀ a : Fin 2, win0_4.index t a * S2048x128.size a ≤ (i a).val
          ∧ (i a).val < win0_4.index t a * S2048x128.size a + S2048x128.size a := by
  show i ∈ ((View.whole main_v2).slice (win0_4.rect t)).set ↔ _
  rw [View.set_slice_whole, Rect.mem_set_unit]
  exact Iff.rfl

/-- Row `i` of the result is in point `t`'s block iff `t` is in row block `i / 2048`. -/
theorem mem_outBlock_iff (t : Fin cfg0.N) (i : Fin 16384) (q : Fin 128) :
    (ix2 i q : S16384x128.Idx) ∈ ((cfg0.win 4).blk t).view.set ↔ i.val / 2048 = t.val / 16 := by
  obtain ⟨-, -, -, -, -, -, -, -, e0, e1⟩ := idx_facts t
  rw [mem_outBlock]
  have hq := q.isLt
  constructor
  · intro h
    have h0 : win0_4.index t (0 : Fin 2) * 2048 ≤ i.val ∧ i.val < win0_4.index t (0 : Fin 2) * 2048 + 2048 := h 0
    omega
  · intro h a
    match a with
    | ⟨0, _⟩ =>
      show win0_4.index t (0 : Fin 2) * 2048 ≤ i.val ∧ i.val < win0_4.index t (0 : Fin 2) * 2048 + 2048
      omega
    | ⟨1, _⟩ =>
      show win0_4.index t (1 : Fin 2) * 128 ≤ q.val ∧ q.val < win0_4.index t (1 : Fin 2) * 128 + 128
      omega

/-- Row `p` of the result block at point `t` sits at row `2048 · (t / 16) + p` of the result. -/
theorem outBlock_emb (t : Fin cfg0.N) (p : Fin 2048) (q : Fin 128) :
    ((cfg0.win 4).blk t).view.emb (ix2 p q)
      = (ix2 (⟨2048 * (t.val / 16) + p.val, by have := point_lt t; have := p.isLt; omega⟩ : Fin 16384) q
          : S16384x128.Idx) := by
  obtain ⟨-, -, -, -, -, -, -, -, e0, e1⟩ := idx_facts t
  funext a; apply Fin.ext
  match a with
  | ⟨0, _⟩ => show win0_4.index t (0 : Fin 2) * 2048 + 1 * p.val = 2048 * (t.val / 16) + p.val; omega
  | ⟨1, _⟩ => show win0_4.index t (1 : Fin 2) * 128 + 1 * q.val = q.val; omega

end Cert.KernelIdeal.Val

end
-- ==== Proof.KernelIdealValue.Final.lean ====
/-
  The idealized kernel's result array, from its last column blocks.

  The result's window is written back exactly at the last column block of each row block (the points `t` with
  `t % 16 = 15`), and what is written back there is the first component of what the accumulation has left.  Given
  that at every such point row `p` of that block is row `2048 · (t / 16) + p` of `outK` of the arguments, every block
  written back is a block of the one array `outK` laid out by coordinates; row `i` of the result lies in the block of
  the point `16 · (i / 2048) + 15`, so these blocks cover the result and the result ends holding `outK`.
-/
import proofs.«406149_j61881888801194_3_alg».proof.Proof.KernelIdealFrame.Frame
import proofs.«406149_j61881888801194_3_alg».proof.Proof.KernelIdealFrame.Launch
import proofs.«406149_j61881888801194_3_alg».proof.Proof.KernelIdealFrame.Run
import proofs.«406149_j61881888801194_3_alg».proof.Proof.KernelIdealValue.Blocks

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The array both programs are to end with: `outK` of the arguments, laid out by coordinates. -/
abbrev target (c : Dev nD) : S16384x128.Idx → EReal := Cert.Spec.arrOf (Cert.Spec.outK (X m c) (G m c) (B m c))

/-! ## What a last column block writes back -/

/-- At a point that writes the result back, the block written is the block of `target` at that point. -/
theorem flushed_eq (c : Dev nD)
    (hblk : ∀ (t : Fin cfg0.N), t.val % 16 = 15 → ∀ (p : Fin 2048) (q : Fin 128),
      (Fr.leftAt m c t.val t.isLt).1 (ix2 p q)
        = Cert.Spec.outK (X m c) (G m c) (B m c)
            ⟨2048 * (t.val / 16) + p.val, by have := point_lt t; have := p.isLt; omega⟩ q)
    (t : Fin cfg0.N) (hf : (cfg0.win 4).flush t = true) :
    (Fr.dats m 0 c).flushed 4 t = ((cfg0.win 4).blk t).view.read (Elt Ideal) (target m c) := by
  have h15 : t.val % 16 = 15 := (flush0_4 t).mp hf
  show (cfg0.win 4).cut (grid0.coords t) ((Fr.dats m 0 c).after 4 t) = _
  rw [Fr.after0_4]
  funext j
  obtain ⟨p, q, rfl⟩ : ∃ (p : Fin 2048) (q : Fin 128), j = (ix2 p q : S2048x128.Idx) :=
    ⟨j 0, j 1, eq_ix2 (n0 := 2048) (n1 := 128) j⟩
  show (Fr.leftAt m c t.val t.isLt).1 (ix2 p q) = target m c (((cfg0.win 4).blk t).view.emb (ix2 p q))
  rw [outBlock_emb]
  exact hblk t h15 p q

/-! ## The cover -/

/-- Row `i` of the result is written back by the last column block of its row block. -/
theorem covered (i : S16384x128.Idx) :
    ∃ t : Fin cfg0.N, (cfg0.win 4).flush t = true ∧ i ∈ ((cfg0.win 4).blk t).view.set := by
  obtain ⟨r, q, rfl⟩ : ∃ (r : Fin 16384) (q : Fin 128), i = (ix2 r q : S16384x128.Idx) :=
    ⟨i 0, i 1, eq_ix2 (n0 := 16384) (n1 := 128) i⟩
  have hr := r.isLt
  have hN : 16 * (r.val / 2048) + 15 < cfg0.N := by
    show 16 * (r.val / 2048) + 15 < grid0.N
    rw [N_0]; omega
  refine ⟨⟨16 * (r.val / 2048) + 15, hN⟩, (flush0_4 _).mpr ?_, (mem_outBlock_iff _ r q).mpr ?_⟩
  · show (16 * (r.val / 2048) + 15) % 16 = 15; omega
  · show r.val / 2048 = (16 * (r.val / 2048) + 15) / 16; omega

/-! ## The result array, and the run -/

/-- The result array after the run is `outK` of the arguments, given the value of every last column block. -/
theorem final_of (c : Dev nD)
    (hblk : ∀ (t : Fin cfg0.N), t.val % 16 = 15 → ∀ (p : Fin 2048) (q : Fin 128),
      (Fr.leftAt m c t.val t.isLt).1 (ix2 p q)
        = Cert.Spec.outK (X m c) (G m c) (B m c)
            ⟨2048 * (t.val / 16) + p.val, by have := point_lt t; have := p.isLt; omega⟩ q) :
    (Fr.dats m 0 c).arrAt 4 cfg0.N = Cert.Spec.arrOf (Cert.Spec.outK (X m c) (G m c) (B m c)) :=
  (Fr.dats m 0 c).arrAt_eq_of_cover 4 (target m c) (fun t hf => flushed_eq m c hblk t hf) (covered)

/-- Every weakly fair execution of the idealized kernel ends with its result buffer at `outK` of the arguments'
    launch contents and the three arguments unchanged, given the value of every last column block on every core. -/
theorem run_value_of
    (hblk : ∀ (c : Dev nD) (t : Fin cfg0.N), t.val % 16 = 15 → ∀ (p : Fin 2048) (q : Fin 128),
      (Fr.leftAt m c t.val t.isLt).1 (ix2 p q)
        = Cert.Spec.outK (X m c) (G m c) (B m c)
            ⟨2048 * (t.val / 16) + p.val, by have := point_lt t; have := p.isLt; omega⟩ q) :
    θ_run Cert.KernelIdeal.defs (onTc (τ := τ) (main (F := Ideal))) ⟨m, fun _ => 0, ρ⟩ (fun r => ∀ c : Dev nD,
      r.2.mem ((c.tc : Thread nD τ).loc main_v2) = Cert.Spec.arrOf (Cert.Spec.outK (X m c) (G m c) (B m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.KernelIdeal.defs _ _).mono (fun _ h c =>
    ⟨((h c).1 4).trans (final_of m c (hblk c)),
     ((h c).1 0).trans (((Fr.dats m 0 c).arrAt_in 0 rfl _).trans ((Fr.A_eq m c 0).trans (Fr.V_main_arg0 m c))),
     (h c).2.1.trans (Fr.V_main_arg1 m c), (h c).2.2.trans (Fr.V_main_arg2 m c)⟩)
    (Fr.run_main (F := Ideal) m ρ)

end Cert.KernelIdeal.Val

end
-- ==== Proof.KernelIdealValue.PieceValues.lean ====
/-
  What each run of the body leaves, as a value: the pieces a run found are stores of the body's payloads, each
  over the whole buffer, so the block a buffer ends with is the payload of its last store, applied to what the run
  loaded — the input blocks, and the scratch buffers' contents (at a first column block: what the same run had just
  stored there, the zeros and the normalised row block).  Stated for every float instance.
-/
import proofs.«406149_j61881888801194_3_alg».proof.Proof.KernelIdealFrame.Pieces
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

/-! ## A first column block -/

/-- The normalised row block stored at a first column block is the row block over its clipped norms. -/
theorem leftA_N_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i) (x0 : Vec F S2048x128 .f32) (x1 : Vec F S1024x128 .f32) (x2 : Vec F S1x128 .f32) (x3 : Vec F S1x128 .f32) :
    leftA_N c i arg2 harg2 arg3 harg3 arg4 harg4 arg5 harg5 arg6 harg6 arg7 harg7 arg8 harg8 arg9 harg9 hc0 hc1 x0 x1 x2 x3 = k0_pay4 x0 := by
  unfold leftA_N
  rw [View.read_writes_eq_canon _ _ _ (coverA_N c i arg2 harg2 arg3 harg3 arg4 harg4 arg5 harg5 arg6 harg6 arg7 harg7 arg8 harg8 arg9 harg9 hc0 hc1 x0 x1 x2 x3)]
  unfold kernelRunA
  dsimp only
  sl_unfold_words
  rw [View.canon_unit_zero (S := S2048x128) hz]
  simp only [View.readAt_eq_ld, harg2.read_unread, View.ld_unit_zero (S := S2048x128) hz]

/-- The sum of weights after a first column block: this block's contribution added to the zeros the same run stored,
    the weights taken against the normalised row block the same run stored. -/
theorem leftA_L_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i) (x0 : Vec F S2048x128 .f32) (x1 : Vec F S1024x128 .f32) (x2 : Vec F S1x128 .f32) (x3 : Vec F S1x128 .f32) :
    leftA_L c i arg2 harg2 arg3 harg3 arg4 harg4 arg5 harg5 arg6 harg6 arg7 harg7 arg8 harg8 arg9 harg9 hc0 hc1 x0 x1 x2 x3 = k0_pay6 x1 (k0_pay4 x0) k0_pay2 := by
  unfold leftA_L
  rw [View.read_writes_eq_canon _ _ _ (coverA_L c i arg2 harg2 arg3 harg3 arg4 harg4 arg5 harg5 arg6 harg6 arg7 harg7 arg8 harg8 arg9 harg9 hc0 hc1 x0 x1 x2 x3)]
  unfold kernelRunA
  dsimp only
  sl_unfold_words
  rw [View.canon_cons_unit_zero (S := S2048x1) hz, View.readCov_unit_zero (S := S2048x128) _ hz,
    View.readCov_unit_zero (S := S2048x1) _ hz]
  simp only [View.readAt_eq_ld, harg2.read_unread, harg3.read_unread, View.ld_unit_zero (S := S2048x128) hz,
    View.ld_unit_zero (S := S1024x128) hz]

/-- The weighted sum of rows after a first column block, likewise from zeros. -/
theorem leftA_A_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : condFirst i) (hc1 : ¬condLast i) (x0 : Vec F S2048x128 .f32) (x1 : Vec F S1024x128 .f32) (x2 : Vec F S1x128 .f32) (x3 : Vec F S1x128 .f32) :
    leftA_A c i arg2 harg2 arg3 harg3 arg4 harg4 arg5 harg5 arg6 harg6 arg7 harg7 arg8 harg8 arg9 harg9 hc0 hc1 x0 x1 x2 x3 = k0_pay7 x1 (k0_pay4 x0) k0_pay3 := by
  unfold leftA_A
  rw [View.read_writes_eq_canon _ _ _ (coverA_A c i arg2 harg2 arg3 harg3 arg4 harg4 arg5 harg5 arg6 harg6 arg7 harg7 arg8 harg8 arg9 harg9 hc0 hc1 x0 x1 x2 x3)]
  unfold kernelRunA
  dsimp only
  sl_unfold_words
  rw [View.canon_cons_unit_zero (S := S2048x128) hz, View.readCov_unit_zero (S := S2048x128) _ hz,
    View.readCov_unit_zero (S := S2048x128) _ hz]
  simp only [View.readAt_eq_ld, harg2.read_unread, harg3.read_unread, View.ld_unit_zero (S := S2048x128) hz,
    View.ld_unit_zero (S := S1024x128) hz]

/-! ## A middle column block -/

/-- The sum of weights after a middle column block: this block's contribution added to what the buffer held. -/
theorem leftB_L_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i) (x0 : Vec F S2048x128 .f32) (x1 : Vec F S1024x128 .f32) (x2 : Vec F S1x128 .f32) (x3 : Vec F S1x128 .f32) (xs0 : Vec F S2048x1 .f32) (xs1 : Vec F S2048x128 .f32) (xs2 : Vec F S2048x128 .bf16) :
    leftB_L c i arg2 harg2 arg3 harg3 arg4 harg4 arg5 harg5 arg6 harg6 arg7 harg7 arg8 harg8 arg9 harg9 hc0 hc1 x0 x1 x2 x3 xs0 xs1 xs2 = k0_pay6 x1 xs2 xs0 := by
  unfold leftB_L
  rw [View.read_writes_eq_canon _ _ _ (coverB_L c i arg2 harg2 arg3 harg3 arg4 harg4 arg5 harg5 arg6 harg6 arg7 harg7 arg8 harg8 arg9 harg9 hc0 hc1 x0 x1 x2 x3 xs0 xs1 xs2)]
  unfold kernelRunB
  dsimp only
  sl_unfold_words
  rw [View.canon_unit_zero (S := S2048x1) hz]
  simp only [View.readAt_eq_ld, harg3.read_unread, harg7.read_unread, harg9.read_unread,
    View.ld_unit_zero (S := S2048x128) hz, View.ld_unit_zero (S := S1024x128) hz, View.ld_unit_zero (S := S2048x1) hz]

/-- The weighted sum of rows after a middle column block. -/
theorem leftB_A_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : ¬condLast i) (x0 : Vec F S2048x128 .f32) (x1 : Vec F S1024x128 .f32) (x2 : Vec F S1x128 .f32) (x3 : Vec F S1x128 .f32) (xs0 : Vec F S2048x1 .f32) (xs1 : Vec F S2048x128 .f32) (xs2 : Vec F S2048x128 .bf16) :
    leftB_A c i arg2 harg2 arg3 harg3 arg4 harg4 arg5 harg5 arg6 harg6 arg7 harg7 arg8 harg8 arg9 harg9 hc0 hc1 x0 x1 x2 x3 xs0 xs1 xs2 = k0_pay7 x1 xs2 xs1 := by
  unfold leftB_A
  rw [View.read_writes_eq_canon _ _ _ (coverB_A c i arg2 harg2 arg3 harg3 arg4 harg4 arg5 harg5 arg6 harg6 arg7 harg7 arg8 harg8 arg9 harg9 hc0 hc1 x0 x1 x2 x3 xs0 xs1 xs2)]
  unfold kernelRunB
  dsimp only
  sl_unfold_words
  rw [View.canon_unit_zero (S := S2048x128) hz]
  simp only [View.readAt_eq_ld, harg3.read_unread, harg8.read_unread, harg9.read_unread,
    View.ld_unit_zero (S := S2048x128) hz, View.ld_unit_zero (S := S1024x128) hz]

/-! ## A last column block -/

/-- The sum of weights after a last column block. -/
theorem leftC_L_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i) (x0 : Vec F S2048x128 .f32) (x1 : Vec F S1024x128 .f32) (x2 : Vec F S1x128 .f32) (x3 : Vec F S1x128 .f32) (xs0 : Vec F S2048x1 .f32) (xs1 : Vec F S2048x128 .f32) (xs2 : Vec F S2048x128 .bf16) :
    leftC_L c i arg2 harg2 arg3 harg3 arg4 harg4 arg5 harg5 arg6 harg6 arg7 harg7 arg8 harg8 arg9 harg9 hc0 hc1 x0 x1 x2 x3 xs0 xs1 xs2 = k0_pay6 x1 xs2 xs0 := by
  unfold leftC_L
  rw [View.read_writes_eq_canon _ _ _ (coverC_L c i arg2 harg2 arg3 harg3 arg4 harg4 arg5 harg5 arg6 harg6 arg7 harg7 arg8 harg8 arg9 harg9 hc0 hc1 x0 x1 x2 x3 xs0 xs1 xs2)]
  unfold kernelRunC
  dsimp only
  sl_unfold_words
  rw [View.canon_unit_zero (S := S2048x1) hz]
  simp only [View.readAt_eq_ld, harg3.read_unread, harg7.read_unread, harg9.read_unread,
    View.ld_unit_zero (S := S2048x128) hz, View.ld_unit_zero (S := S1024x128) hz, View.ld_unit_zero (S := S2048x1) hz]

/-- The weighted sum of rows after a last column block. -/
theorem leftC_A_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i) (x0 : Vec F S2048x128 .f32) (x1 : Vec F S1024x128 .f32) (x2 : Vec F S1x128 .f32) (x3 : Vec F S1x128 .f32) (xs0 : Vec F S2048x1 .f32) (xs1 : Vec F S2048x128 .f32) (xs2 : Vec F S2048x128 .bf16) :
    leftC_A c i arg2 harg2 arg3 harg3 arg4 harg4 arg5 harg5 arg6 harg6 arg7 harg7 arg8 harg8 arg9 harg9 hc0 hc1 x0 x1 x2 x3 xs0 xs1 xs2 = k0_pay7 x1 xs2 xs1 := by
  unfold leftC_A
  rw [View.read_writes_eq_canon _ _ _ (coverC_A c i arg2 harg2 arg3 harg3 arg4 harg4 arg5 harg5 arg6 harg6 arg7 harg7 arg8 harg8 arg9 harg9 hc0 hc1 x0 x1 x2 x3 xs0 xs1 xs2)]
  unfold kernelRunC
  dsimp only
  sl_unfold_words
  rw [View.canon_unit_zero (S := S2048x128) hz]
  simp only [View.readAt_eq_ld, harg3.read_unread, harg8.read_unread, harg9.read_unread,
    View.ld_unit_zero (S := S2048x128) hz, View.ld_unit_zero (S := S1024x128) hz]

/-- The result's block a last column block stores: the blend and normalisation of the row block with the weighted
    sum of rows over the sum of weights, both as the same run has just updated them. -/
theorem leftC_O_eq (c : Dev nD) (i : grid0.Coords) (arg2 : Memref sig .tc .vmem S2048x128 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .bf16) (harg9 : arg9.IsWhole) (hc0 : ¬condFirst i) (hc1 : condLast i) (x0 : Vec F S2048x128 .f32) (x1 : Vec F S1024x128 .f32) (x2 : Vec F S1x128 .f32) (x3 : Vec F S1x128 .f32) (xs0 : Vec F S2048x1 .f32) (xs1 : Vec F S2048x128 .f32) (xs2 : Vec F S2048x128 .bf16) :
    leftC_O c i arg2 harg2 arg3 harg3 arg4 harg4 arg5 harg5 arg6 harg6 arg7 harg7 arg8 harg8 arg9 harg9 hc0 hc1 x0 x1 x2 x3 xs0 xs1 xs2 = k0_pay1 x0 (k0_pay7 x1 xs2 xs1) (k0_pay6 x1 xs2 xs0) x2 x3 := by
  unfold leftC_O
  rw [View.read_writes_eq_canon _ _ _ (coverC_O c i arg2 harg2 arg3 harg3 arg4 harg4 arg5 harg5 arg6 harg6 arg7 harg7 arg8 harg8 arg9 harg9 hc0 hc1 x0 x1 x2 x3 xs0 xs1 xs2)]
  unfold kernelRunC
  dsimp only
  sl_unfold_words
  rw [View.canon_unit_zero (S := S2048x128) hz, View.readCov_unit_zero (S := S2048x128) _ hz,
    View.readCov_unit_zero (S := S2048x1) _ hz]
  simp only [View.readAt_eq_ld, harg2.read_unread, harg3.read_unread, harg4.read_unread, harg5.read_unread,
    harg7.read_unread, harg8.read_unread, harg9.read_unread, View.ld_unit_zero (S := S2048x128) hz,
    View.ld_unit_zero (S := S1024x128) hz, View.ld_unit_zero (S := S2048x1) hz, View.ld_unit_zero (S := S1x128) hz]

end Cert.KernelIdeal.Val

end
-- ==== Proof.KernelIdealValue.PointValues.lean ====
/-
  What the buffers hold after one more point, as payloads of the point's blocks: the three cases of the accumulation
  with the found pieces read as values.
-/
import proofs.«406149_j61881888801194_3_alg».proof.Proof.KernelIdealFrame.Frame
import proofs.«406149_j61881888801194_3_alg».proof.Proof.KernelIdealValue.PieceValues
import proofs.«406149_j61881888801194_3_alg».proof.Proof.KernelIdealValue.Blocks

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- What the result's buffer, the sum of weights, the weighted sum of rows and the normalised row block hold. -/
abbrev St : Type := Vec Ideal S2048x128 .f32 × Vec Ideal S2048x1 .f32 × Vec Ideal S2048x128 .f32 × Vec Ideal S2048x128 .bf16

/-! ## After a first column block -/

theorem first_N (c : Dev nD) (t : Fin cfg0.N) (h0 : t.val % 16 = 0) :
    (Fr.atFirst m c t h0).2.2.2 = k0_pay4 (rowBlock m c t) := by
  unfold Fr.atFirst; dsimp only
  exact
  leftA_N_eq c (grid0.coords t) (Fr.ms0 t) (Fr.hs0 t) (Fr.ms1 t) (Fr.hs1 t) (Fr.ms2 t) (Fr.hs2 t) (Fr.ms3 t) (Fr.hs3 t) (Fr.ms4 t) (Fr.hs4 t) Fr.scL (Memref.isWhole_whole _) Fr.scA (Memref.isWhole_whole _) Fr.scN (Memref.isWhole_whole _) ((Fr.hcondFirst t).mpr h0) (Fr.notLast_of_first t h0) (rowBlock m c t) (colBlock m c t) (scaleBlock m c t) (shiftBlock m c t)
theorem first_L (c : Dev nD) (t : Fin cfg0.N) (h0 : t.val % 16 = 0) :
    (Fr.atFirst m c t h0).2.1 = k0_pay6 (colBlock m c t) (k0_pay4 (rowBlock m c t)) (k0_pay2 (F := Ideal)) := by
  unfold Fr.atFirst; dsimp only
  exact
  leftA_L_eq c (grid0.coords t) (Fr.ms0 t) (Fr.hs0 t) (Fr.ms1 t) (Fr.hs1 t) (Fr.ms2 t) (Fr.hs2 t) (Fr.ms3 t) (Fr.hs3 t) (Fr.ms4 t) (Fr.hs4 t) Fr.scL (Memref.isWhole_whole _) Fr.scA (Memref.isWhole_whole _) Fr.scN (Memref.isWhole_whole _) ((Fr.hcondFirst t).mpr h0) (Fr.notLast_of_first t h0) (rowBlock m c t) (colBlock m c t) (scaleBlock m c t) (shiftBlock m c t)
theorem first_A (c : Dev nD) (t : Fin cfg0.N) (h0 : t.val % 16 = 0) :
    (Fr.atFirst m c t h0).2.2.1 = k0_pay7 (colBlock m c t) (k0_pay4 (rowBlock m c t)) (k0_pay3 (F := Ideal)) := by
  unfold Fr.atFirst; dsimp only
  exact
  leftA_A_eq c (grid0.coords t) (Fr.ms0 t) (Fr.hs0 t) (Fr.ms1 t) (Fr.hs1 t) (Fr.ms2 t) (Fr.hs2 t) (Fr.ms3 t) (Fr.hs3 t) (Fr.ms4 t) (Fr.hs4 t) Fr.scL (Memref.isWhole_whole _) Fr.scA (Memref.isWhole_whole _) Fr.scN (Memref.isWhole_whole _) ((Fr.hcondFirst t).mpr h0) (Fr.notLast_of_first t h0) (rowBlock m c t) (colBlock m c t) (scaleBlock m c t) (shiftBlock m c t)

/-! ## After a middle column block -/

theorem middle_N (c : Dev nD) (t : Fin cfg0.N) (h0 : ¬t.val % 16 = 0) (h1 : ¬t.val % 16 = 15) (s : St) :
    (Fr.atMiddle m c t h0 h1 s).2.2.2 = s.2.2.2 := by
  unfold Fr.atMiddle; dsimp only
theorem middle_L (c : Dev nD) (t : Fin cfg0.N) (h0 : ¬t.val % 16 = 0) (h1 : ¬t.val % 16 = 15) (s : St) :
    (Fr.atMiddle m c t h0 h1 s).2.1 = k0_pay6 (colBlock m c t) s.2.2.2 s.2.1 := by
  unfold Fr.atMiddle; dsimp only
  exact
  leftB_L_eq c (grid0.coords t) (Fr.ms0 t) (Fr.hs0 t) (Fr.ms1 t) (Fr.hs1 t) (Fr.ms2 t) (Fr.hs2 t) (Fr.ms3 t) (Fr.hs3 t) (Fr.ms4 t) (Fr.hs4 t) Fr.scL (Memref.isWhole_whole _) Fr.scA (Memref.isWhole_whole _) Fr.scN (Memref.isWhole_whole _) (Fr.notFirst_of_not t h0) (Fr.notLast_of_not t h1) (rowBlock m c t) (colBlock m c t) (scaleBlock m c t) (shiftBlock m c t) s.2.1 s.2.2.1 s.2.2.2
theorem middle_A (c : Dev nD) (t : Fin cfg0.N) (h0 : ¬t.val % 16 = 0) (h1 : ¬t.val % 16 = 15) (s : St) :
    (Fr.atMiddle m c t h0 h1 s).2.2.1 = k0_pay7 (colBlock m c t) s.2.2.2 s.2.2.1 := by
  unfold Fr.atMiddle; dsimp only
  exact
  leftB_A_eq c (grid0.coords t) (Fr.ms0 t) (Fr.hs0 t) (Fr.ms1 t) (Fr.hs1 t) (Fr.ms2 t) (Fr.hs2 t) (Fr.ms3 t) (Fr.hs3 t) (Fr.ms4 t) (Fr.hs4 t) Fr.scL (Memref.isWhole_whole _) Fr.scA (Memref.isWhole_whole _) Fr.scN (Memref.isWhole_whole _) (Fr.notFirst_of_not t h0) (Fr.notLast_of_not t h1) (rowBlock m c t) (colBlock m c t) (scaleBlock m c t) (shiftBlock m c t) s.2.1 s.2.2.1 s.2.2.2

/-! ## After a last column block -/

theorem last_N (c : Dev nD) (t : Fin cfg0.N) (h0 : ¬t.val % 16 = 0) (h1 : t.val % 16 = 15) (s : St) :
    (Fr.atLast m c t h0 h1 s).2.2.2 = s.2.2.2 := by
  unfold Fr.atLast; dsimp only
theorem last_L (c : Dev nD) (t : Fin cfg0.N) (h0 : ¬t.val % 16 = 0) (h1 : t.val % 16 = 15) (s : St) :
    (Fr.atLast m c t h0 h1 s).2.1 = k0_pay6 (colBlock m c t) s.2.2.2 s.2.1 := by
  unfold Fr.atLast; dsimp only
  exact
  leftC_L_eq c (grid0.coords t) (Fr.ms0 t) (Fr.hs0 t) (Fr.ms1 t) (Fr.hs1 t) (Fr.ms2 t) (Fr.hs2 t) (Fr.ms3 t) (Fr.hs3 t) (Fr.ms4 t) (Fr.hs4 t) Fr.scL (Memref.isWhole_whole _) Fr.scA (Memref.isWhole_whole _) Fr.scN (Memref.isWhole_whole _) (Fr.notFirst_of_not t h0) ((Fr.hcondLast t).mpr h1) (rowBlock m c t) (colBlock m c t) (scaleBlock m c t) (shiftBlock m c t) s.2.1 s.2.2.1 s.2.2.2
theorem last_A (c : Dev nD) (t : Fin cfg0.N) (h0 : ¬t.val % 16 = 0) (h1 : t.val % 16 = 15) (s : St) :
    (Fr.atLast m c t h0 h1 s).2.2.1 = k0_pay7 (colBlock m c t) s.2.2.2 s.2.2.1 := by
  unfold Fr.atLast; dsimp only
  exact
  leftC_A_eq c (grid0.coords t) (Fr.ms0 t) (Fr.hs0 t) (Fr.ms1 t) (Fr.hs1 t) (Fr.ms2 t) (Fr.hs2 t) (Fr.ms3 t) (Fr.hs3 t) (Fr.ms4 t) (Fr.hs4 t) Fr.scL (Memref.isWhole_whole _) Fr.scA (Memref.isWhole_whole _) Fr.scN (Memref.isWhole_whole _) (Fr.notFirst_of_not t h0) ((Fr.hcondLast t).mpr h1) (rowBlock m c t) (colBlock m c t) (scaleBlock m c t) (shiftBlock m c t) s.2.1 s.2.2.1 s.2.2.2
theorem last_O (c : Dev nD) (t : Fin cfg0.N) (h0 : ¬t.val % 16 = 0) (h1 : t.val % 16 = 15) (s : St) :
    (Fr.atLast m c t h0 h1 s).1
      = k0_pay1 (rowBlock m c t) (k0_pay7 (colBlock m c t) s.2.2.2 s.2.2.1) (k0_pay6 (colBlock m c t) s.2.2.2 s.2.1)
          (scaleBlock m c t) (shiftBlock m c t) := by
  unfold Fr.atLast; dsimp only
  exact
  leftC_O_eq c (grid0.coords t) (Fr.ms0 t) (Fr.hs0 t) (Fr.ms1 t) (Fr.hs1 t) (Fr.ms2 t) (Fr.hs2 t) (Fr.ms3 t) (Fr.hs3 t) (Fr.ms4 t) (Fr.hs4 t) Fr.scL (Memref.isWhole_whole _) Fr.scA (Memref.isWhole_whole _) Fr.scN (Memref.isWhole_whole _) (Fr.notFirst_of_not t h0) ((Fr.hcondLast t).mpr h1) (rowBlock m c t) (colBlock m c t) (scaleBlock m c t) (shiftBlock m c t) s.2.1 s.2.2.1 s.2.2.2

end Cert.KernelIdeal.Val

end
-- ==== Proof.KernelIdealValue.Layout.lean ====
/-
  Three layout readings the body's payloads need, at an index written by coordinates: a vector kept as a column,
  a column broadcast along the rows, and — at the ideal values — the sum over the second axis of a matrix kept as a
  column, which is the sum of a row.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum over the second axis of an `[a, b]` array, kept as a column, reads at `(p, u)` the
    sum of row `p`. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ d : Fin b, v (ix2 p d) := by
  refine (shapeCast_a_a1_apply _ hc p u).trans ?_
  refine (Ideal.multiReduction_add_single v _ h hφ hacc (ix1 p)).trans ?_
  exact Finset.sum_congr rfl fun d _ => congrArg v (funext fun ax => Fin.ext (by
    match ax with
    | ⟨0, _⟩ => rfl
    | ⟨1, _⟩ => rfl))

end Cert.KernelIdeal.Val

end
-- ==== Proof.KernelIdealValue.Dots.lean ====
/-
  The body's two matrix products at the ideal values, read at an index written by coordinates: into a zero
  accumulator each is the plain sum over the contracted coordinate of the products of the operands' entries.
-/
import proofs.«406149_j61881888801194_3_alg».proof.Proof.Gen.KernelIdeal
import Idealize.ShloMosaic.Lib.ValueIdx
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-! ## The product of the normalised row block with the transposed normalised column block -/

theorem lhs_qk_0 (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide), dif_pos (show (0 : Fin S2048x128.rank) ∈ dot_S2048x128_S128x1024_S2048x1024_1_0_0_1_n_n.lhsNonContracting by decide)]
  rfl
theorem lhs_qk_1 (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q
theorem rhs_qk_0 (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q
theorem rhs_qk_1 (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide), dif_pos (show (1 : Fin S128x1024.rank) ∈ dot_S2048x128_S128x1024_S2048x1024_1_0_0_1_n_n.rhsNonContracting by decide)]
  rfl

/-- Entry `(p, j)` of the first product: the inner product of row `p` of the left operand with column `j` of the
    right one, over the 128 features. -/
theorem matmul_qk_apply (nq : FVec Ideal S2048x128 .bf16) (kt : FVec Ideal S128x1024 .bf16) (p : Fin 2048) (j : Fin 1024) :
    matmul dot_S2048x128_S128x1024_S2048x1024_1_0_0_1_n_n none nq kt (constant (F := Ideal) S2048x1024 .f32 0x00000000#32) (ix2 p j)
      = ∑ k : Fin 128, nq (ix2 p k) * kt (ix2 k j) := by
  simp only [matmul]
  rw [Ideal.matmul_constant_zero_apply, ← Equiv.sum_comp (contrEquiv1 dot_S2048x128_S128x1024_S2048x1024_1_0_0_1_n_n 128 rfl rfl).symm]
  refine Finset.sum_congr rfl fun k _ => ?_
  have hk := contrEquiv1_symm_val dot_S2048x128_S128x1024_S2048x1024_1_0_0_1_n_n 128 rfl rfl k
  have el : dot_S2048x128_S128x1024_S2048x1024_1_0_0_1_n_n.lhsIdx (ix2 p j) ((contrEquiv1 dot_S2048x128_S128x1024_S2048x1024_1_0_0_1_n_n 128 rfl rfl).symm k) = ix2 p k := funext fun a => Fin.ext (by
    match a with
    | ⟨0, _⟩ => exact lhs_qk_0 _ _
    | ⟨1, _⟩ => exact (lhs_qk_1 _ _).trans hk)
  have er : dot_S2048x128_S128x1024_S2048x1024_1_0_0_1_n_n.rhsIdx (ix2 p j) ((contrEquiv1 dot_S2048x128_S128x1024_S2048x1024_1_0_0_1_n_n 128 rfl rfl).symm k) = ix2 k j := funext fun a => Fin.ext (by
    match a with
    | ⟨0, _⟩ => exact (rhs_qk_0 _ _).trans hk
    | ⟨1, _⟩ => exact rhs_qk_1 _ _)
  rw [el, er]

/-! ## The product of the weights with the column block -/

theorem lhs_pv_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_pv_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_pv_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_pv_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- Entry `(p, q)` of the second product: the sum over the 1024 rows of the column block of the weight of row `j`
    times that row's entry `q`. -/
theorem matmul_pv_apply (w : FVec Ideal S2048x1024 .bf16) (xk : FVec Ideal S1024x128 .bf16) (p : Fin 2048) (q : Fin 128) :
    matmul dot_S2048x1024_S1024x128_S2048x128_1_0_0_1_n_n none w xk (constant (F := Ideal) S2048x128 .f32 0x00000000#32) (ix2 p q)
      = ∑ j : Fin 1024, w (ix2 p j) * xk (ix2 j q) := by
  simp only [matmul]
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 p q) ((contrEquiv1 dot_S2048x1024_S1024x128_S2048x128_1_0_0_1_n_n 1024 rfl rfl).symm k) = ix2 p k := funext fun a => Fin.ext (by
    match a with
    | ⟨0, _⟩ => exact lhs_pv_0 _ _
    | ⟨1, _⟩ => exact (lhs_pv_1 _ _).trans hk)
  have er : dot_S2048x1024_S1024x128_S2048x128_1_0_0_1_n_n.rhsIdx (ix2 p q) ((contrEquiv1 dot_S2048x1024_S1024x128_S2048x128_1_0_0_1_n_n 1024 rfl rfl).symm k) = ix2 k q := funext fun a => Fin.ext (by
    match a with
    | ⟨0, _⟩ => exact (rhs_pv_0 _ _).trans hk
    | ⟨1, _⟩ => exact rhs_pv_1 _ _)
  rw [el, er]

end Cert.KernelIdeal.Val

end
-- ==== Proof.KernelIdealValue.Payloads.lean ====
/-
  The body's payloads at the ideal values, read at an index written by coordinates.  The normalised blocks are the
  entries over the clipped norm of their row; the weights are the exponentials of the inner products of normalised
  rows; the two running sums add this column block's weights, and its weighted rows; and the result's block is the
  blend and layer normalisation of the shared vocabulary, applied to the weighted sum of rows over the sum of weights.
-/
import proofs.«406149_j61881888801194_3_alg».proof.Proof.Gen.KernelIdeal.Skeleton
import proofs.«406149_j61881888801194_3_alg».proof.Proof.Spec
import proofs.«406149_j61881888801194_3_alg».proof.Proof.KernelIdealValue.Layout
import proofs.«406149_j61881888801194_3_alg».proof.Proof.KernelIdealValue.Dots

noncomputable section

open scoped BigOperators

namespace Cert.KernelIdeal.Val

open Cert.KernelIdeal Cert.KernelIdeal.Gen
open Idealize.ShloMosaic Idealize.ShloMosaic.ValueIdx

/-! ## Three more pointwise operations at an index -/

section Pointwise
variable {s : Shape} {φ : FTy}
theorem sqrt_apply (a : FVec Ideal s φ) (i : s.Idx) : sqrt a i = Ideal.sqrt (a i) := rfl
theorem rsqrt_apply (a : FVec Ideal s φ) (i : s.Idx) : rsqrt a i = Ideal.rsqrt (a i) := rfl
theorem exp_apply (a : FVec Ideal s φ) (i : s.Idx) : exp a i = Ideal.exp (a i) := rfl
end Pointwise

/-- The clipped Euclidean norm of row `p` of a block of rows of 128 entries. -/
def rowN {n : ℕ} (x : (⟨2, ![n, 128]⟩ : Shape).Idx → EReal) (p : Fin n) : EReal :=
  max (Ideal.sqrt (∑ d : Fin 128, x (ix2 p d) * x (ix2 p d))) Cert.Spec.normEps

/-! ## The layout readings at the body's own shapes

The general readings, restated over the shapes and the shape facts the body's payloads spell, so that they rewrite a
payload as it is printed. -/

/-- The sum of row `p` of a block of 2048 rows of 128 entries, kept as a column. -/
theorem rowSum_2048x128 (v : FVec Ideal S2048x128 .f32) (p : Fin 2048) (u : Fin 1) :
    shapeCast S2048x1 (multiReduction .add [1] S2048 v 0x00000000#32 reduces_S2048x128_S2048 (.inl rfl) rfl)
        shapeCasts_S2048_S2048x1 (ix2 p u) = ∑ d : Fin 128, v (ix2 p d) :=
  rowSum_apply v _ _ _ _ p u

/-- The sum of row `j` of a block of 1024 rows of 128 entries, kept as a column. -/
theorem rowSum_1024x128 (v : FVec Ideal S1024x128 .f32) (j : Fin 1024) (u : Fin 1) :
    shapeCast S1024x1 (multiReduction .add [1] S1024 v 0x00000000#32 reduces_S1024x128_S1024 (.inl rfl) rfl)
        shapeCasts_S1024_S1024x1 (ix2 j u) = ∑ d : Fin 128, v (ix2 j d) :=
  rowSum_apply v _ _ _ _ j u

/-- The sum of row `p` of the 2048 × 1024 weights, kept as a column. -/
theorem rowSum_2048x1024 (v : FVec Ideal S2048x1024 .f32) (p : Fin 2048) (u : Fin 1) :
    shapeCast S2048x1 (multiReduction .add [1] S2048 v 0x00000000#32 reduces_S2048x1024_S2048 (.inl rfl) rfl)
        shapeCasts_S2048_S2048x1 (ix2 p u) = ∑ j : Fin 1024, v (ix2 p j) :=
  rowSum_apply v _ _ _ _ p u

/-- The transposed column block reads, at `(k, j)`, the column block at `(j, k)`. -/
theorem transpose_1024x128 {α : Type} (v : S1024x128.Idx → α) (k : Fin 128) (j : Fin 1024) :
    transpose S128x1024 [1, 0] v transposes_S1024x128_p1_0_S128x1024 (ix2 k j) = v (ix2 j k) :=
  transpose_ix2_apply v _ k j

/-! ## The payloads -/

/-- The zeros a first column block stores for the sum of weights. -/
theorem k0_pay2_apply (p : Fin 2048) (u : Fin 1) : (k0_pay2 (F := Ideal)) (ix2 p u) = 0 := by
  unfold k0_pay2
  simp only [shapeCast_self, broadcast_apply]
  exact Ideal.ofBits_zero_f32

/-- The zeros a first column block stores for the weighted sum of rows. -/
theorem k0_pay3_apply (p : Fin 2048) (q : Fin 128) : (k0_pay3 (F := Ideal)) (ix2 p q) = 0 := by
  unfold k0_pay3
  simp only [shapeCast_self, broadcast_apply]
  exact Ideal.ofBits_zero_f32

/-- The normalised row block: each entry over the clipped norm of its row. -/
theorem k0_pay4_apply (x0 : FVec Ideal S2048x128 .f32) (p : Fin 2048) (q : Fin 128) :
    k0_pay4 (F := Ideal) x0 (ix2 p q) = Ideal.div (x0 (ix2 p q)) (rowN x0 p) := by
  unfold k0_pay4
  simp only [shapeCast_self, truncf_apply, divf_apply, broadcastTo_a1_ab_apply, maximumf_apply, sqrt_apply,
    broadcast_apply]
  rw [rowSum_2048x128]
  rfl

/-- The weights: the exponential of the inner product of normalised row `p` of the row block with the normalised
    row `j` of the column block. -/
theorem k0_pay5_apply (x1 : FVec Ideal S1024x128 .f32) (nq : FVec Ideal S2048x128 .bf16) (p : Fin 2048) (j : Fin 1024) :
    k0_pay5 (F := Ideal) x1 nq (ix2 p j)
      = Ideal.exp (∑ k : Fin 128, nq (ix2 p k) * Ideal.div (x1 (ix2 j k)) (rowN x1 j)) := by
  unfold k0_pay5
  simp only [exp_apply, matmul_qk_apply]
  refine congrArg Ideal.exp (Finset.sum_congr rfl fun k _ => congrArg (nq (ix2 p k) * ·) ?_)
  rw [transpose_1024x128]
  simp only [truncf_apply, divf_apply, broadcastTo_a1_ab_apply, maximumf_apply, sqrt_apply, broadcast_apply]
  rw [rowSum_1024x128]
  rfl

/-- The sum of weights: what the buffer held plus this column block's weights. -/
theorem k0_pay6_apply (x1 : FVec Ideal S1024x128 .f32) (nq : FVec Ideal S2048x128 .bf16) (l : FVec Ideal S2048x1 .f32)
    (p : Fin 2048) (u : Fin 1) :
    k0_pay6 (F := Ideal) x1 nq l (ix2 p u) = l (ix2 p u) + ∑ j : Fin 1024, k0_pay5 (F := Ideal) x1 nq (ix2 p j) := by
  unfold k0_pay6
  simp only [shapeCast_self, addf_apply]
  rw [rowSum_2048x1024]

/-- The weighted sum of rows: what the buffer held plus this column block's rows, each times its weight. -/
theorem k0_pay7_apply (x1 : FVec Ideal S1024x128 .f32) (nq : FVec Ideal S2048x128 .bf16) (a : FVec Ideal S2048x128 .f32)
    (p : Fin 2048) (q : Fin 128) :
    k0_pay7 (F := Ideal) x1 nq a (ix2 p q)
      = a (ix2 p q) + ∑ j : Fin 1024, k0_pay5 (F := Ideal) x1 nq (ix2 p j) * x1 (ix2 j q) := by
  unfold k0_pay7
  simp only [shapeCast_self, addf_apply, matmul_pv_apply, truncf_apply]

/-- The result's block: the layer normalisation, with the scale and shift rows, of the blend of the row with the
    weighted sum of rows over the sum of weights. -/
theorem k0_pay1_apply (x0 a : FVec Ideal S2048x128 .f32) (l : FVec Ideal S2048x1 .f32) (g b : FVec Ideal S1x128 .f32)
    (p : Fin 2048) (q : Fin 128) :
    k0_pay1 (F := Ideal) x0 a l g b (ix2 p q)
      = Cert.Spec.lnorm (Cert.Spec.blend (fun d => x0 (ix2 p d)) (fun d => Ideal.div (a (ix2 p d)) (l (ix2 p (0 : Fin 1)))))
          (fun d => g (ix2 (0 : Fin 1) d)) (fun d => b (ix2 (0 : Fin 1) d)) q := by
  unfold k0_pay1
  simp only [addf_apply, mulf_apply, subf_apply, divf_apply, rsqrt_apply, broadcast_apply, broadcastTo_a1_ab_apply,
    broadcastTo_1b_ab_apply, shapeCast_self]
  rw [rowSum_2048x128, rowSum_2048x128]
  simp only [addf_apply, mulf_apply, subf_apply, divf_apply, broadcast_apply, broadcastTo_a1_ab_apply]
  rw [rowSum_2048x128]
  simp only [subf_apply, mulf_apply, divf_apply, broadcast_apply, broadcastTo_a1_ab_apply]
  unfold Cert.Spec.lnorm Cert.Spec.var Cert.Spec.cen Cert.Spec.mean Cert.Spec.blend Cert.Spec.c15 Cert.Spec.c05 Cert.Spec.c128 Cert.Spec.lnEps
  rfl

end Cert.KernelIdeal.Val

end
-- ==== Proof.LibPrefixSums.lean ====
/-
  Sums over an initial segment of `Fin N`, taken block by block.

  For a family `f : Fin N → M` in an additive commutative monoid, `prefixSum f n` is the sum of `f j` over the
  indices `j < n`.  It is zero at `n = 0`, it is the whole sum at `n = N`, and going from `B * k` to `B * (k + 1)`
  adds exactly the `B` terms of block `k`.  Only commutativity and associativity of the addition are used, so the
  statements hold in the extended reals as well.
-/
import Mathlib.Algebra.BigOperators.Fin
import Mathlib.Algebra.BigOperators.Group.Finset.Basic
import Mathlib.Data.Fintype.BigOperators

open scoped BigOperators

namespace Cert.Lib

variable {M : Type*} [AddCommMonoid M]

/-- The sum of `f j` over the indices `j` of `Fin N` below `n`. -/
def prefixSum {N : ℕ} (f : Fin N → M) (n : ℕ) : M :=
  ∑ j ∈ Finset.univ.filter (fun j : Fin N => j.val < n), f j

/-- No index lies below zero: the empty sum. -/
theorem prefixSum_zero {N : ℕ} (f : Fin N → M) : prefixSum f 0 = 0 := by
  unfold prefixSum
  rw [Finset.filter_false_of_mem (fun j _ => Nat.not_lt_zero j.val)]
  exact Finset.sum_empty

/-- Every index of `Fin N` lies below `N`: the whole sum. -/
theorem prefixSum_all {N : ℕ} (f : Fin N → M) : prefixSum f N = ∑ j, f j := by
  unfold prefixSum
  rw [Finset.filter_true_of_mem (fun j _ => j.isLt)]

/-- The indices below `B * (k + 1)` are those below `B * k` together with the `B` indices `B * k + j`, `j < B`, of
    block `k`; the two sets are disjoint, and the second is the image of `Fin B` under `j ↦ B * k + j`. -/
theorem prefixSum_block {N : ℕ} (B k : ℕ) (h : B * (k + 1) ≤ N) (f : Fin N → M) :
    prefixSum f (B * (k + 1)) = prefixSum f (B * k)
      + ∑ j : Fin B, f ⟨B * k + j.val, Nat.lt_of_lt_of_le
          (show B * k + j.val < B * (k + 1) by have := j.isLt; rw [Nat.mul_succ]; omega) h⟩ := by
  unfold prefixSum
  have hsplit : Finset.univ.filter (fun j : Fin N => j.val < B * (k + 1))
      = Finset.univ.filter (fun j : Fin N => j.val < B * k)
        ∪ Finset.univ.filter (fun j : Fin N => B * k ≤ j.val ∧ j.val < B * (k + 1)) := by
    ext j
    simp only [Finset.mem_filter, Finset.mem_univ, true_and, Finset.mem_union]
    rw [Nat.mul_succ]; omega
  have hdisj : Disjoint (Finset.univ.filter (fun j : Fin N => j.val < B * k))
      (Finset.univ.filter (fun j : Fin N => B * k ≤ j.val ∧ j.val < B * (k + 1))) := by
    rw [Finset.disjoint_filter]
    intro j _ h1 h2; omega
  rw [hsplit, Finset.sum_union hdisj]
  congr 1
  symm
  refine Finset.sum_bij (fun (j : Fin B) _ => (⟨B * k + j.val, Nat.lt_of_lt_of_le
      (show B * k + j.val < B * (k + 1) by have := j.isLt; rw [Nat.mul_succ]; omega) h⟩ : Fin N)) ?_ ?_ ?_ ?_
  · intro j _
    simp only [Finset.mem_filter, Finset.mem_univ, true_and]
    have := j.isLt; rw [Nat.mul_succ]; omega
  · intro a _ b _ hab
    have hv : B * k + a.val = B * k + b.val := congrArg Fin.val hab
    exact Fin.ext (by omega)
  · intro j hj
    simp only [Finset.mem_filter, Finset.mem_univ, true_and] at hj
    rw [Nat.mul_succ] at hj
    exact ⟨⟨j.val - B * k, by omega⟩, Finset.mem_univ _, Fin.ext (by simp only; omega)⟩
  · intro j _; rfl

/-- The instance for 16384 indices in 16 blocks of 1024: block `k` adds its 1024 terms. -/
theorem prefixSum_cols (f : Fin 16384 → M) (k : ℕ) (hk : k < 16) :
    prefixSum f (1024 * (k + 1)) = prefixSum f (1024 * k)
      + ∑ j : Fin 1024, f ⟨1024 * k + j.val, by have := j.isLt; omega⟩ :=
  prefixSum_block 1024 k (by omega) f

/-- The instance for 16384 indices: below 16384 is everything. -/
theorem prefixSum_full (f : Fin 16384 → M) : prefixSum f 16384 = ∑ j, f j :=
  prefixSum_all f

end Cert.Lib
-- ==== Proof.KernelIdealValue.Steps.lean ====
/-
  One column block's contribution, in the shared vocabulary.  If a block's rows are rows of the matrix, the body's
  payloads computed from the block are the vocabulary's quantities of those rows: the normalised entries, the
  weights, and — when the running sums entered the block holding the sums over the first `1024 k` rows — the sums
  over the first `1024 (k + 1)` rows; and from the full sums the result's block is the kernel's result.
-/
import proofs.«406149_j61881888801194_3_alg».proof.Proof.KernelIdealValue.Payloads
import proofs.«406149_j61881888801194_3_alg».proof.Proof.LibPrefixSums

noncomputable section

open scoped BigOperators

namespace Cert.KernelIdeal.Val

open Cert.KernelIdeal Cert.KernelIdeal.Gen Cert.Spec Cert.Lib
open Idealize.ShloMosaic Idealize.ShloMosaic.ValueIdx

variable (X : Mat)

/-- The clipped norm of a block's row that is row `i` of the matrix is that row's clipped norm. -/
theorem rowN_eq {n : ℕ} (x : (⟨2, ![n, 128]⟩ : Shape).Idx → EReal) (p : Fin n) (i : Fin 16384)
    (hx : ∀ d, x (ix2 p d) = X i d) : rowN x p = nrm X i :=
  congrArg (fun s => max (Ideal.sqrt s) normEps) (Finset.sum_congr rfl fun d _ => by rw [hx d])

/-- The normalised row block, at a row that is row `i` of the matrix. -/
theorem pay4_eq (x0 : FVec Ideal S2048x128 .f32) (p : Fin 2048) (i : Fin 16384) (hx : ∀ d, x0 (ix2 p d) = X i d)
    (q : Fin 128) : k0_pay4 (F := Ideal) x0 (ix2 p q) = nx X i q := by
  show _ = Ideal.div (X i q) (nrm X i)
  rw [k0_pay4_apply, rowN_eq X x0 p i hx, hx q]

/-- A weight: row `p` of the normalised row block being the normalised row `i`, and row `j` of the column
    block row `i'` of the matrix, the weight at `(p, j)` is the weight of row `i'` for row `i`. -/
theorem pay5_eq (x1 : FVec Ideal S1024x128 .f32) (N : FVec Ideal S2048x128 .bf16) (p : Fin 2048) (j : Fin 1024)
    (i i' : Fin 16384) (hN : ∀ d, N (ix2 p d) = nx X i d) (hx : ∀ d, x1 (ix2 j d) = X i' d) :
    k0_pay5 (F := Ideal) x1 N (ix2 p j) = wgt X i i' := by
  rw [k0_pay5_apply, rowN_eq X x1 j i' hx]
  show _ = Ideal.exp (∑ k : Fin 128, nx X i k * nx X i' k)
  refine congrArg Ideal.exp (Finset.sum_congr rfl fun k _ => ?_)
  show N (ix2 p k) * Ideal.div (x1 (ix2 j k)) (nrm X i') = nx X i k * Ideal.div (X i' k) (nrm X i')
  rw [hN k, hx k]

section Block
variable (x1 : FVec Ideal S1024x128 .f32) (N : FVec Ideal S2048x128 .bf16) (p : Fin 2048) (i : Fin 16384)
  (k : ℕ) (hk : k < 16) (hN : ∀ d, N (ix2 p d) = nx X i d)
  (hx : ∀ (j : Fin 1024) (d : Fin 128), x1 (ix2 j d) = X ⟨1024 * k + j.val, by have := j.isLt; omega⟩ d)
include hk hN hx

/-- The sum of weights over the first `1024 (k + 1)` rows, from the sum over the first `1024 k`. -/
theorem pay6_eq (L : FVec Ideal S2048x1 .f32) (u : Fin 1)
    (hL : L (ix2 p u) = prefixSum (fun j => wgt X i j) (1024 * k)) :
    k0_pay6 (F := Ideal) x1 N L (ix2 p u) = prefixSum (fun j => wgt X i j) (1024 * (k + 1)) := by
  rw [k0_pay6_apply, prefixSum_cols _ k hk, hL]
  exact congrArg (_ + ·) (Finset.sum_congr rfl fun j _ => pay5_eq X x1 N p j i _ hN (hx j))

/-- The weighted sum of rows over the first `1024 (k + 1)` rows, from the sum over the first `1024 k`. -/
theorem pay7_eq (A : FVec Ideal S2048x128 .f32) (q : Fin 128)
    (hA : A (ix2 p q) = prefixSum (fun j => wgt X i j * X j q) (1024 * k)) :
    k0_pay7 (F := Ideal) x1 N A (ix2 p q) = prefixSum (fun j => wgt X i j * X j q) (1024 * (k + 1)) := by
  rw [k0_pay7_apply, prefixSum_cols _ k hk, hA]
  refine congrArg (_ + ·) (Finset.sum_congr rfl fun j _ => ?_)
  rw [pay5_eq X x1 N p j i _ hN (hx j), hx j q]

end Block

/-- The result's block from the full sums: the kernel's result at row `i`. -/
theorem pay1_eq (x0 A : FVec Ideal S2048x128 .f32) (L : FVec Ideal S2048x1 .f32) (g b : FVec Ideal S1x128 .f32)
    (Gr Br : Row) (p : Fin 2048) (q : Fin 128) (i : Fin 16384)
    (hx : ∀ d, x0 (ix2 p d) = X i d)
    (hA : ∀ d, A (ix2 p d) = ∑ j, wgt X i j * X j d)
    (hL : L (ix2 p (0 : Fin 1)) = ∑ j, wgt X i j)
    (hg : ∀ d, g (ix2 (0 : Fin 1) d) = Gr d) (hb : ∀ d, b (ix2 (0 : Fin 1) d) = Br d) :
    k0_pay1 (F := Ideal) x0 A L g b (ix2 p q) = outK X Gr Br i q := by
  have e1 : (fun d => x0 (ix2 p d)) = X i := funext hx
  have e2 : (fun d => Ideal.div (A (ix2 p d)) (L (ix2 p (0 : Fin 1)))) = aggK X i := funext fun d => by
    rw [hA d, hL]; rfl
  have e3 : (fun d => g (ix2 (0 : Fin 1) d)) = Gr := funext hg
  have e4 : (fun d => b (ix2 (0 : Fin 1) d)) = Br := funext hb
  refine (k0_pay1_apply x0 A L g b p q).trans ?_
  rw [e1, e2, e3, e4]
  rfl

end Cert.KernelIdeal.Val

end
-- ==== Proof.KernelIdealValue.Invariant.lean ====
/-
  The accumulation, as values.  Point `n` pairs row block `n / 16` with column block `n % 16`.  After it, row `p` of the
  normalised row block is the normalised row `i = 2048 (n / 16) + p` of the matrix, and the two running sums hold, for
  that row, the sum of the weights and the weighted sum of rows over the first `1024 (n % 16 + 1)` rows of the
  matrix: by induction on the point.  At the last column block the sums are over all rows, and the block the body
  stores is the kernel's result at rows `2048 (n / 16) + p`.
-/
import proofs.«406149_j61881888801194_3_alg».proof.Proof.KernelIdealValue.PointValues
import proofs.«406149_j61881888801194_3_alg».proof.Proof.KernelIdealValue.Steps

set_option maxRecDepth 16384

noncomputable section

open scoped BigOperators

namespace Cert.KernelIdeal.Val

open Cert.KernelIdeal Cert.KernelIdeal.Gen Cert.Spec Cert.Lib
open Idealize.ShloMosaic Idealize.ShloMosaic.TcCoe Idealize.ShloMosaic.ValueIdx Idealize.SL.Sem

variable (m : (ℓ : Loc nD τ sig) → Buf (Elt Ideal) ℓ)

/-- What the scratch buffers hold for row block `r` after its column block `k`: the normalised rows, and the two sums
    over the first `1024 (k + 1)` rows of the matrix. -/
def Inv (c : Dev nD) (r k : ℕ) (s : St) : Prop :=
  ∀ (p : Fin 2048) (hi : 2048 * r + p.val < 16384),
    (∀ q : Fin 128, s.2.2.2 (ix2 p q) = nx (X m c) ⟨2048 * r + p.val, hi⟩ q)
    ∧ (∀ u : Fin 1, s.2.1 (ix2 p u)
        = prefixSum (fun j => wgt (X m c) ⟨2048 * r + p.val, hi⟩ j) (1024 * (k + 1)))
    ∧ (∀ q : Fin 128, s.2.2.1 (ix2 p q)
        = prefixSum (fun j => wgt (X m c) ⟨2048 * r + p.val, hi⟩ j * X m c j q) (1024 * (k + 1)))

/-- A first column block establishes it from nothing: the sums start from the zeros the same run stored. -/
theorem inv_first (c : Dev nD) (t : Fin cfg0.N) (h0 : t.val % 16 = 0) :
    Inv m c (t.val / 16) (t.val % 16) (Fr.atFirst m c t h0) := by
  intro p hi
  have hrow : ∀ d, rowBlock m c t (ix2 p d) = X m c ⟨2048 * (t.val / 16) + p.val, hi⟩ d :=
    fun d => rowBlock_apply m c t p d
  have hcol : ∀ (j : Fin 1024) (d : Fin 128),
      colBlock m c t (ix2 j d) = X m c ⟨1024 * (t.val % 16) + j.val, by have := j.isLt; omega⟩ d :=
    fun j d => colBlock_apply m c t j d
  have hN : ∀ d, k0_pay4 (F := Ideal) (rowBlock m c t) (ix2 p d) = nx (X m c) ⟨2048 * (t.val / 16) + p.val, hi⟩ d :=
    pay4_eq (X m c) _ p _ hrow
  have hk : t.val % 16 < 16 := Nat.mod_lt _ (by decide)
  refine ⟨fun q => ?_, fun u => ?_, fun q => ?_⟩
  · rw [first_N]; exact hN q
  · rw [first_L]
    exact pay6_eq (X m c) (colBlock m c t) (k0_pay4 (rowBlock m c t)) p ⟨_, hi⟩ (t.val % 16) hk hN hcol
      (k0_pay2 (F := Ideal)) u (by rw [h0]; exact (k0_pay2_apply p u).trans (prefixSum_zero _).symm)
  · rw [first_A]
    exact pay7_eq (X m c) (colBlock m c t) (k0_pay4 (rowBlock m c t)) p ⟨_, hi⟩ (t.val % 16) hk hN hcol
      (k0_pay3 (F := Ideal)) q (by rw [h0]; exact (k0_pay3_apply p q).trans (prefixSum_zero _).symm)

/-- Every later column block of the row block carries it one block further. -/
theorem inv_step (c : Dev nD) (t : Fin cfg0.N) (r k : ℕ) (hr : t.val / 16 = r) (hk : t.val % 16 = k + 1) (s s' : St)
    (hN' : s'.2.2.2 = s.2.2.2) (hL' : s'.2.1 = k0_pay6 (colBlock m c t) s.2.2.2 s.2.1)
    (hA' : s'.2.2.1 = k0_pay7 (colBlock m c t) s.2.2.2 s.2.2.1) (hs : Inv m c r k s) :
    Inv m c (t.val / 16) (t.val % 16) s' := by
  subst hr
  intro p hi
  obtain ⟨hN, hL, hA⟩ := hs p hi
  have hcol : ∀ (j : Fin 1024) (d : Fin 128),
      colBlock m c t (ix2 j d) = X m c ⟨1024 * (t.val % 16) + j.val, by have := j.isLt; omega⟩ d :=
    fun j d => colBlock_apply m c t j d
  have hk16 : t.val % 16 < 16 := Nat.mod_lt _ (by decide)
  refine ⟨fun q => ?_, fun u => ?_, fun q => ?_⟩
  · rw [hN']; exact hN q
  · rw [hL']
    exact pay6_eq (X m c) (colBlock m c t) s.2.2.2 p ⟨_, hi⟩ (t.val % 16) hk16 hN hcol s.2.1 u
      (by rw [hk]; exact hL u)
  · rw [hA']
    exact pay7_eq (X m c) (colBlock m c t) s.2.2.2 p ⟨_, hi⟩ (t.val % 16) hk16 hN hcol s.2.2.1 q
      (by rw [hk]; exact hA q)

/-- THE INVARIANT: after every point, by induction on the point. -/
theorem inv_leftAt (c : Dev nD) : ∀ (n : ℕ) (hn : n < cfg0.N), Inv m c (n / 16) (n % 16) (Fr.leftAt m c n hn)
  | 0, hn => by
    have e : Fr.leftAt m c 0 hn = Fr.atFirst m c ⟨0, hn⟩ (Nat.zero_mod _) := Fr.leftAt_A m c ⟨0, hn⟩ (Nat.zero_mod _)
    rw [e]; exact inv_first m c ⟨0, hn⟩ (Nat.zero_mod _)
  | n + 1, hn => by
    by_cases h0 : (n + 1) % 16 = 0
    · have e : Fr.leftAt m c (n + 1) hn = Fr.atFirst m c ⟨n + 1, hn⟩ h0 := Fr.leftAt_A m c ⟨n + 1, hn⟩ h0
      rw [e]; exact inv_first m c ⟨n + 1, hn⟩ h0
    · have ih := inv_leftAt c n (Nat.lt_of_succ_lt hn)
      have e1 : (n + 1) / 16 = n / 16 := by omega
      have e2 : (n + 1) % 16 = n % 16 + 1 := by omega
      by_cases h1 : (n + 1) % 16 = 15
      · have e : Fr.leftAt m c (n + 1) hn
            = Fr.atLast m c ⟨n + 1, hn⟩ h0 h1 (Fr.leftAt m c n (Nat.lt_of_succ_lt hn)) :=
          Fr.leftAt_C m c ⟨n + 1, hn⟩ h0 h1
        rw [e]
        exact inv_step m c ⟨n + 1, hn⟩ (n / 16) (n % 16) e1 e2 _ _ (last_N m c _ h0 h1 _) (last_L m c _ h0 h1 _)
          (last_A m c _ h0 h1 _) ih
      · have e : Fr.leftAt m c (n + 1) hn
            = Fr.atMiddle m c ⟨n + 1, hn⟩ h0 h1 (Fr.leftAt m c n (Nat.lt_of_succ_lt hn)) :=
          Fr.leftAt_B m c ⟨n + 1, hn⟩ h0 h1
        rw [e]
        exact inv_step m c ⟨n + 1, hn⟩ (n / 16) (n % 16) e1 e2 _ _ (middle_N m c _ h0 h1 _) (middle_L m c _ h0 h1 _)
          (middle_A m c _ h0 h1 _) ih

/-- THE RESULT'S BLOCK.  At the last column block of a row block the body stores the kernel's result at the row
    block's rows. -/
theorem resultBlock_eq (c : Dev nD) (t : Fin cfg0.N) (ht : t.val % 16 = 15) (p : Fin 2048) (q : Fin 128) :
    (Fr.leftAt m c t.val t.isLt).1 (ix2 p q)
      = outK (X m c) (G m c) (B m c)
          ⟨2048 * (t.val / 16) + p.val, by have := point_lt t; have := p.isLt; omega⟩ q := by
  have h0 : ¬t.val % 16 = 0 := by omega
  have hlt : t.val - 1 < cfg0.N := Nat.lt_of_le_of_lt (Nat.sub_le _ _) t.isLt
  rw [Fr.leftAt_C m c t h0 ht, last_O]
  have hs := inv_leftAt m c (t.val - 1) hlt
  have e1 : (t.val - 1) / 16 = t.val / 16 := by omega
  have e2 : (t.val - 1) % 16 = 14 := by omega
  rw [e1, e2] at hs
  have hi : 2048 * (t.val / 16) + p.val < 16384 := by have := point_lt t; have := p.isLt; omega
  obtain ⟨hN, hL, hA⟩ := hs p hi
  have hcol : ∀ (j : Fin 1024) (d : Fin 128),
      colBlock m c t (ix2 j d) = X m c ⟨1024 * (t.val % 16) + j.val, by have := j.isLt; omega⟩ d :=
    fun j d => colBlock_apply m c t j d
  have hk16 : t.val % 16 < 16 := Nat.mod_lt _ (by decide)
  refine pay1_eq (X m c) _ _ _ _ _ (G m c) (B m c) p q ⟨_, hi⟩ (fun d => rowBlock_apply m c t p d) (fun d => ?_) ?_
    (fun d => scaleBlock_apply m c t 0 d) (fun d => shiftBlock_apply m c t 0 d)
  · have h := pay7_eq (X m c) (colBlock m c t) _ p ⟨_, hi⟩ (t.val % 16) hk16 hN hcol _ d (by rw [ht]; exact hA d)
    rw [ht] at h
    exact h.trans (prefixSum_full _)
  · have h := pay6_eq (X m c) (colBlock m c t) _ p ⟨_, hi⟩ (t.val % 16) hk16 hN hcol _ 0 (by rw [ht]; exact hL 0)
    rw [ht] at h
    exact h.trans (prefixSum_full _)

end Cert.KernelIdeal.Val

end
-- ==== Proof.KernelIdealValue.Value.lean ====
/-
  The idealized kernel's value: every weakly fair execution ends with the result buffer holding `outK` of the three
  arguments — the layer-normalised blend of each row with the weighted average of all rows — and the arguments
  unchanged.  The result array is assembled from the blocks the last column blocks write back (`run_value_of`), and
  each such block is the matching rows of `outK` because the running sums then range over all 16384 columns
  (`resultBlock_eq`).
-/
import proofs.«406149_j61881888801194_3_alg».proof.Proof.KernelIdealValue.Final
import proofs.«406149_j61881888801194_3_alg».proof.Proof.KernelIdealValue.Invariant

noncomputable section

namespace Cert.KernelIdeal.Val

open Cert.KernelIdeal Cert.KernelIdeal.Gen
open Idealize.ShloMosaic Idealize.ShloMosaic.TcCoe Idealize.ShloMosaic.ValueIdx Idealize.SL.Sem

theorem run_value (m : (ℓ : Loc nD τ sig) → Buf (Elt Ideal) ℓ) (ρ : Dev nD → PrngReg) :
    θ_run Cert.KernelIdeal.defs (onTc (τ := τ) (main (F := Ideal))) ⟨m, fun _ => 0, ρ⟩ (fun r => ∀ c : Dev nD,
      r.2.mem ((c.tc : Thread nD τ).loc main_v2) = Cert.Spec.arrOf (Cert.Spec.outK (X m c) (G m c) (B m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_value_of m ρ (fun c t ht p q => resultBlock_eq m c t ht p q)

end Cert.KernelIdeal.Val

end
-- ==== Proof.RefRows.lean ====
/-
  The reference program, read stage by stage at explicit coordinates: from the argument matrix to the logits.

  Row `p` of the matrix is squared entry by entry and summed, the root of the sum is clipped below by the small
  constant, every entry of the row is divided by that clipped norm, and the logit of rows `p` and `r` is the inner
  product of the two normalised rows over the literal one.  Each lemma reads one stage of the generated chain at
  the index `ix2 p q` (or `ix1 p` for a per-row quantity) and names what it finds there in the common vocabulary.
-/
import proofs.«406149_j61881888801194_3_alg».proof.Proof.Gen.ReferenceIdeal.Read
import proofs.«406149_j61881888801194_3_alg».proof.Proof.Spec

noncomputable section

open scoped BigOperators

namespace Cert.RefValue

open Cert.ReferenceIdeal Cert.ReferenceIdeal.Read Cert.Spec Idealize.ShloMosaic Idealize.ShloMosaic.ValueIdx

/-- Two indices of a rank-2 shape are equal when both coordinates have equal values; here both sides compute. -/
local macro "idx_rank2" : tactic =>
  `(tactic| (funext a; apply Fin.ext; match a with | ⟨0, _⟩ => rfl | ⟨1, _⟩ => rfl))
/-- The same for a rank-1 shape. -/
local macro "idx_rank1" : tactic =>
  `(tactic| (funext a; apply Fin.ext; match a with | ⟨0, _⟩ => rfl))

variable (x : (⟨S16384x128, .f32⟩ : BufTy).Contents (Elt Ideal))

/-! ## The squared row norm -/

/-- The entrywise square. -/
theorem square_at (p : Fin 16384) (q : Fin 128) :
    val_main_v0 (F := Ideal) x (ix2 p q) = matOf x p q * matOf x p q := by
  rw [val_main_v0_apply]; rfl

/-- Summing row `p` over its 128 entries visits the indices `(p, k)`. -/
theorem rowsum_idx (p : Fin 16384) (k : Fin 128) : idx_main_v1 (ix1 p) k = ix2 p k := by idx_rank2

/-- The sum of the squares of row `p`: the sum starts from the zero literal, which adds nothing. -/
theorem sumsq_at (p : Fin 16384) :
    val_main_v1 (F := Ideal) x (ix1 p) = ∑ d : Fin 128, matOf x p d * matOf x p d := by
  rw [val_main_v1_apply, val_main_cst_apply, Ideal.ofBits_def, Ideal.ofBits_zero_f32, zero_add]
  exact Finset.sum_congr rfl fun k _ => by rw [rowsum_idx, square_at]

/-- A per-row quantity kept as a column of width one is read at the row. -/
theorem col_idx (p : Fin 16384) (z : Fin 1) : idx_main_v2 (ix2 p z) = ix1 p := by idx_rank1

/-- The clipped Euclidean norm of row `p`, as a column. -/
theorem nrm_at (p : Fin 16384) (z : Fin 1) : val_main_v5 (F := Ideal) x (ix2 p z) = nrm (matOf x) p := by
  rw [val_main_v5_apply, val_main_v3_apply, val_main_v2_apply, col_idx, sumsq_at, val_main_v4_apply,
    val_main_cst_0_apply]
  rfl

/-- Spreading a column over the 128 entries of each row reads the column at the row. -/
theorem spread_idx (p : Fin 16384) (q : Fin 128) : idx_main_v6 (ix2 p q) = ix2 p (0 : Fin 1) := by idx_rank2

/-! ## The normalised rows -/

/-- Entry `q` of row `p` over the row's clipped norm. -/
theorem nx_at (p : Fin 16384) (q : Fin 128) : val_main_v7 (F := Ideal) x (ix2 p q) = nx (matOf x) p q := by
  rw [val_main_v7_apply, val_main_v6_apply, spread_idx, nrm_at]
  rfl

/-- The transposed matrix at `(k, r)` is the matrix at `(r, k)`. -/
theorem transpose_idx (k : Fin 128) (r : Fin 16384) : idx_main_v8 (ix2 k r) = ix2 r k := by idx_rank2

theorem nxT_at (k : Fin 128) (r : Fin 16384) : val_main_v8 (F := Ideal) x (ix2 k r) = nx (matOf x) r k := by
  rw [val_main_v8_apply, transpose_idx, nx_at]

/-! ## Inner products and logits -/

/-- The product of the normalised rows with their transpose contracts the 128 entries: at `(p, r)` the left factor
    is read at `(p, k)` and the right one at `(k, r)`. -/
theorem sim_lidx (p r : Fin 16384) (k : Fin 128) : lidx_main_v9 (ix2 p r) k = ix2 p k := by idx_rank2
theorem sim_ridx (p r : Fin 16384) (k : Fin 128) : ridx_main_v9 (ix2 p r) k = ix2 k r := by idx_rank2

/-- The inner product of normalised rows `p` and `r`. -/
theorem sim_at (p r : Fin 16384) : val_main_v9 (F := Ideal) x (ix2 p r) = sim (matOf x) p r := by
  rw [val_main_v9_apply]
  exact Finset.sum_congr rfl fun k _ => by rw [sim_lidx, sim_ridx, nx_at, nxT_at]

/-- The logit: the inner product over the literal one. -/
theorem logit_at (p r : Fin 16384) : val_main_v11 (F := Ideal) x (ix2 p r) = logit (matOf x) p r := by
  rw [val_main_v11_apply, sim_at, val_main_v10_apply, val_main_cst_1_apply]
  rfl

end Cert.RefValue

end
-- ==== Proof.RefSoft.lean ====
/-
  The reference program, read stage by stage at explicit coordinates: from the logits to the aggregate.

  For row `p` the largest logit is found by a fold of `max` over the 16384 columns, started from minus infinity and
  compared with minus infinity once more; every logit of the row is shifted by that maximum and exponentiated; the
  shifted weights are summed along the row, each weight is divided by the sum, and the normalised weights of row `p`
  are contracted with column `q` of the argument matrix.
-/
import proofs.«406149_j61881888801194_3_alg».proof.Proof.RefRows
import Idealize.ShloMosaic.PureOps.Reduce
import Idealize.ShloMosaic.PureOps.Ideal.Laws

noncomputable section

open scoped BigOperators

namespace Cert.RefValue

open Cert.ReferenceIdeal Cert.ReferenceIdeal.Gen Cert.ReferenceIdeal.Read Cert.Spec Idealize.ShloMosaic
  Idealize.ShloMosaic.ValueIdx

local macro "idx_rank2" : tactic =>
  `(tactic| (funext a; apply Fin.ext; match a with | ⟨0, _⟩ => rfl | ⟨1, _⟩ => rfl))
local macro "idx_rank1" : tactic =>
  `(tactic| (funext a; apply Fin.ext; match a with | ⟨0, _⟩ => rfl))

variable (x : (⟨S16384x128, .f32⟩ : BufTy).Contents (Elt Ideal))

/-! ## The row maximum -/

/-- Dropping the column axis of the square array of logits leaves the rows. -/
theorem reducesCols : S16384x16384.Reduces [1] S16384 := by decide

/-- Row `p` with column `k` put back is the index `(p, k)`. -/
theorem cols_lift (p : Fin 16384) (k : Fin 16384) : reducesCols.lift (ix1 p) k = ix2 p k := by idx_rank2

/-- A reduction by `max` along the columns is, at row `p`, the fold of `max` over the entries `(p, k)` of that row,
    started from the initial value. -/
theorem foldmax_cols (y : FVec Ideal S16384x16384 .f32) (c : FVec Ideal S_ .f32) (p : Fin 16384) :
    Host.reduce (FloatOps.maximumf (F := Ideal) (φ := .f32)) y c reducesTo_S16384x16384_S16384_d1 h_S_ (ix1 p)
      = (Finset.univ : Finset (Fin 16384)).fold max (c (Shape.Idx.first h_S_)) (fun k => y (ix2 p k)) := by
  refine (Host.reduce_eq_fold_single (FloatOps.maximumf (F := Ideal) (φ := .f32)) y c
    reducesTo_S16384x16384_S16384_d1 reducesCols h_S_ (ix1 p)).trans ?_
  exact congrArg (fun f => Finset.fold max (c (Shape.Idx.first h_S_)) f (Finset.univ : Finset (Fin 16384)))
    (funext fun k => congrArg y (cols_lift p k))

/-- The fold of `max` over the logits of row `p`, from minus infinity. -/
theorem foldmax_at (p : Fin 16384) :
    val_main_v12 (F := Ideal) x (ix1 p)
      = (Finset.univ : Finset (Fin 16384)).fold max negInf (fun j => logit (matOf x) p j) := by
  unfold val_main_v12
  refine (foldmax_cols _ _ p).trans ?_
  exact congrArg (fun f => Finset.fold max negInf f (Finset.univ : Finset (Fin 16384)))
    (funext fun k => logit_at x p k)

/-- The row maximum: minus infinity against the fold. -/
theorem rowMax_at (p : Fin 16384) : val_main_v14 (F := Ideal) x (ix1 p) = rowMax (matOf x) p := by
  rw [val_main_v14_apply, foldmax_at, val_main_v13_apply, val_main_cst_3_apply]
  rfl

theorem maxcol_idx (p : Fin 16384) (z : Fin 1) : idx_main_v15 (ix2 p z) = ix1 p := by idx_rank1
/-- Spreading a column over the 16384 columns of each row reads the column at the row. -/
theorem maxspread_idx (p r : Fin 16384) : idx_main_v16 (ix2 p r) = ix2 p (0 : Fin 1) := by idx_rank2

/-! ## The shifted weights and their row sums -/

/-- The exponential of the logit less the row maximum. -/
theorem swgt_at (p r : Fin 16384) : val_main_v18 (F := Ideal) x (ix2 p r) = swgt (matOf x) p r := by
  rw [val_main_v18_apply, val_main_v17_apply, logit_at, val_main_v16_apply, maxspread_idx, val_main_v15_apply,
    maxcol_idx, rowMax_at]
  rfl

theorem wsum_idx (p : Fin 16384) (k : Fin 16384) : idx_main_v19 (ix1 p) k = ix2 p k := by idx_rank2

/-- The sum of the shifted weights of row `p`, started from the zero literal. -/
theorem wsum_at (p : Fin 16384) :
    val_main_v19 (F := Ideal) x (ix1 p) = ∑ l : Fin 16384, swgt (matOf x) p l := by
  rw [val_main_v19_apply, val_main_cst_4_apply, Ideal.ofBits_def, Ideal.ofBits_zero_f32, zero_add]
  exact Finset.sum_congr rfl fun k _ => by rw [wsum_idx, swgt_at]

theorem wsumcol_idx (p : Fin 16384) (z : Fin 1) : idx_main_v20 (ix2 p z) = ix1 p := by idx_rank1
theorem wsumspread_idx (p r : Fin 16384) : idx_main_v21 (ix2 p r) = ix2 p (0 : Fin 1) := by idx_rank2

/-- The normalised weight of column `r` in row `p`. -/
theorem nwgt_at (p r : Fin 16384) :
    val_main_v22 (F := Ideal) x (ix2 p r)
      = Ideal.div (swgt (matOf x) p r) (∑ l : Fin 16384, swgt (matOf x) p l) := by
  rw [val_main_v22_apply, swgt_at, val_main_v21_apply, wsumspread_idx, val_main_v20_apply, wsumcol_idx, wsum_at]
  rfl

/-! ## The aggregate -/

/-- The product of the normalised weights with the matrix contracts the 16384 rows: at `(p, q)` the weights are
    read at `(p, k)` and the matrix at `(k, q)`. -/
theorem agg_lidx (p : Fin 16384) (q : Fin 128) (k : Fin 16384) : lidx_main_v23 (ix2 p q) k = ix2 p k := by idx_rank2
theorem agg_ridx (p : Fin 16384) (q : Fin 128) (k : Fin 16384) : ridx_main_v23 (ix2 p q) k = ix2 k q := by idx_rank2

/-- The reference's aggregate of row `p` at entry `q`. -/
theorem aggR_at (p : Fin 16384) (q : Fin 128) : val_main_v23 (F := Ideal) x (ix2 p q) = aggR (matOf x) p q := by
  rw [val_main_v23_apply]
  exact Finset.sum_congr rfl fun k _ => by rw [agg_lidx, agg_ridx, nwgt_at]; rfl

end Cert.RefValue

end
-- ==== Proof.RefTail.lean ====
/-
  The reference program, read stage by stage at explicit coordinates: from the aggregate to the result.

  Row `p` of the matrix is blended with its aggregate (one and a half of the row less one half of the aggregate); the
  blended row is centred on its mean over the 128 entries, its mean square is offset by the small constant, and the
  centred row is multiplied by the reciprocal root of that, by the scale vector and shifted by the shift vector.
  The generated chain computes the centred row twice, once for the mean square and once for the product; both
  readings are the same function of the blended row.
-/
import proofs.«406149_j61881888801194_3_alg».proof.Proof.RefSoft

noncomputable section

open scoped BigOperators

namespace Cert.RefValue

open Cert.ReferenceIdeal Cert.ReferenceIdeal.Gen Cert.ReferenceIdeal.Read Cert.Spec Idealize.ShloMosaic
  Idealize.ShloMosaic.ValueIdx

local macro "idx_rank2" : tactic =>
  `(tactic| (funext a; apply Fin.ext; match a with | ⟨0, _⟩ => rfl | ⟨1, _⟩ => rfl))
local macro "idx_rank1" : tactic =>
  `(tactic| (funext a; apply Fin.ext; match a with | ⟨0, _⟩ => rfl))

variable (x : (⟨S16384x128, .f32⟩ : BufTy).Contents (Elt Ideal))

/-- Row `p` of the argument matrix blended with its aggregate: the row every later stage works on. -/
def brow (p : Fin 16384) : Row := blend (matOf x p) (aggR (matOf x) p)

/-! ## The blend -/

theorem blend_at (p : Fin 16384) (q : Fin 128) : val_main_v28 (F := Ideal) x (ix2 p q) = brow x p q := by
  rw [val_main_v28_apply, val_main_v25_apply, val_main_v24_apply, val_main_cst_5_apply, val_main_v27_apply,
    val_main_v26_apply, val_main_cst_6_apply, aggR_at]
  rfl

/-! ## The mean and the centred row -/

theorem mean_sum_idx (p : Fin 16384) (k : Fin 128) : idx_main_v29 (ix1 p) k = ix2 p k := by idx_rank2
theorem mean_col_idx (p : Fin 16384) (z : Fin 1) : idx_main_v30 (ix2 p z) = ix1 p := by idx_rank1

/-- The mean of the blended row, as a column. -/
theorem mean_at (p : Fin 16384) (z : Fin 1) : val_main_v32 (F := Ideal) x (ix2 p z) = mean (brow x p) := by
  rw [val_main_v32_apply, val_main_v30_apply, mean_col_idx, val_main_v29_apply, val_main_cst_7_apply,
    Ideal.ofBits_def, Ideal.ofBits_zero_f32, zero_add, val_main_v31_apply, val_main_cst_8_apply]
  rw [Finset.sum_congr rfl fun k _ => show val_main_v28 (F := Ideal) x (idx_main_v29 (ix1 p) k) = brow x p k by
    rw [mean_sum_idx, blend_at]]
  rfl

theorem mean_spread_idx (p : Fin 16384) (q : Fin 128) : idx_main_v33 (ix2 p q) = ix2 p (0 : Fin 1) := by idx_rank2
theorem mean_spread_idx' (p : Fin 16384) (q : Fin 128) : idx_main_v40 (ix2 p q) = ix2 p (0 : Fin 1) := by idx_rank2

/-- The centred row, as the mean square reads it. -/
theorem cen_at (p : Fin 16384) (q : Fin 128) : val_main_v34 (F := Ideal) x (ix2 p q) = cen (brow x p) q := by
  rw [val_main_v34_apply, blend_at, val_main_v33_apply, mean_spread_idx, mean_at]
  rfl

/-- The centred row, as the final product reads it. -/
theorem cen_at' (p : Fin 16384) (q : Fin 128) : val_main_v41 (F := Ideal) x (ix2 p q) = cen (brow x p) q := by
  rw [val_main_v41_apply, blend_at, val_main_v40_apply, mean_spread_idx', mean_at]
  rfl

/-! ## The mean square and its reciprocal root -/

theorem var_sum_idx (p : Fin 16384) (k : Fin 128) : idx_main_v36 (ix1 p) k = ix2 p k := by idx_rank2
theorem var_col_idx (p : Fin 16384) (z : Fin 1) : idx_main_v37 (ix2 p z) = ix1 p := by idx_rank1

/-- The mean square of the centred row, as a column. -/
theorem var_at (p : Fin 16384) (z : Fin 1) : val_main_v39 (F := Ideal) x (ix2 p z) = var (brow x p) := by
  rw [val_main_v39_apply, val_main_v37_apply, var_col_idx, val_main_v36_apply, val_main_cst_9_apply,
    Ideal.ofBits_def, Ideal.ofBits_zero_f32, zero_add, val_main_v38_apply, val_main_cst_10_apply]
  rw [Finset.sum_congr rfl fun k _ => show val_main_v35 (F := Ideal) x (idx_main_v36 (ix1 p) k)
      = cen (brow x p) k * cen (brow x p) k by
    rw [var_sum_idx, val_main_v35_apply, cen_at]; rfl]
  rfl

/-- The reciprocal root of the offset mean square, as a column. -/
theorem rstd_at (p : Fin 16384) (z : Fin 1) :
    val_main_v44 (F := Ideal) x (ix2 p z) = Ideal.rsqrt (var (brow x p) + lnEps) := by
  rw [val_main_v44_apply, val_main_v43_apply, var_at, val_main_v42_apply, val_main_cst_11_apply]
  rfl

theorem rstd_spread_idx (p : Fin 16384) (q : Fin 128) : idx_main_v45 (ix2 p q) = ix2 p (0 : Fin 1) := by idx_rank2

/-- The centred row times the reciprocal root. -/
theorem normed_at (p : Fin 16384) (q : Fin 128) :
    val_main_v46 (F := Ideal) x (ix2 p q) = cen (brow x p) q * Ideal.rsqrt (var (brow x p) + lnEps) := by
  rw [val_main_v46_apply, cen_at', val_main_v45_apply, rstd_spread_idx, rstd_at]
  rfl

/-! ## Scale and shift -/

variable (g b : (⟨S128, .f32⟩ : BufTy).Contents (Elt Ideal))

/-- A vector kept as one row is read at its entry; spread over the rows it is read at the column. -/
theorem vec_row_idx (z : Fin 1) (q : Fin 128) : idx_main_v47 (ix2 z q) = ix1 q := by idx_rank1
theorem vec_spread_idx (p : Fin 16384) (q : Fin 128) : idx_main_v48 (ix2 p q) = ix2 (0 : Fin 1) q := by idx_rank2
theorem vec_row_idx' (z : Fin 1) (q : Fin 128) : idx_main_v50 (ix2 z q) = ix1 q := by idx_rank1
theorem vec_spread_idx' (p : Fin 16384) (q : Fin 128) : idx_main_v51 (ix2 p q) = ix2 (0 : Fin 1) q := by idx_rank2

theorem scale_at (p : Fin 16384) (q : Fin 128) : val_main_v48 (F := Ideal) g (ix2 p q) = rowOf g q := by
  rw [val_main_v48_apply, vec_spread_idx, val_main_v47_apply, vec_row_idx]
  rfl

theorem shift_at (p : Fin 16384) (q : Fin 128) : val_main_v51 (F := Ideal) b (ix2 p q) = rowOf b q := by
  rw [val_main_v51_apply, vec_spread_idx', val_main_v50_apply, vec_row_idx']
  rfl

/-- The result at `(p, q)`: the layer normalisation of the blended row. -/
theorem out_at (p : Fin 16384) (q : Fin 128) :
    val_main_v52 (F := Ideal) x g b (ix2 p q) = outR (matOf x) (rowOf g) (rowOf b) p q := by
  rw [val_main_v52_apply, val_main_v49_apply, normed_at, scale_at, shift_at]
  rfl

/-- The result array is the common vocabulary's `outR`, laid out by coordinates. -/
theorem out_eq : val_main_v52 (F := Ideal) x g b = arrOf (outR (matOf x) (rowOf g) (rowOf b)) := by
  funext j
  obtain ⟨p, q, rfl⟩ : ∃ (p : Fin 16384) (q : Fin 128), j = ix2 p q := ⟨j 0, j 1, eq_ix2 j⟩
  rw [out_at, arrOf_ix2]

end Cert.RefValue

end
-- ==== Proof.RefValue.lean ====
/-
  The reference program's result, read back as the plain function of its three argument arrays that the common
  vocabulary calls `outR`.

  The generated run says that every execution of the reference ends with its result buffer at the composed term of
  the launch contents of the three arguments, and with the arguments unchanged.  That term is the last stage of the
  generated chain, and the stage lemmas read the chain at every index `(p, q)`: the normalised rows, their inner
  products over the literal one, the row maximum, the shifted and normalised weights, the aggregate, the blend and
  the layer normalisation.  So the result buffer holds `outR` of the argument matrix and the two vectors.
-/
import proofs.«406149_j61881888801194_3_alg».proof.Proof.Gen.ReferenceIdeal.Run
import proofs.«406149_j61881888801194_3_alg».proof.Proof.Gen.ReferenceIdeal.Read
import proofs.«406149_j61881888801194_3_alg».proof.Proof.Spec
import proofs.«406149_j61881888801194_3_alg».proof.Proof.RefTail

noncomputable section

namespace Cert.RefValue

open Cert.ReferenceIdeal Cert.ReferenceIdeal.Gen Idealize.ShloMosaic Idealize.ShloMosaic.TcCoe Idealize.SL.Sem

/-- The composed term of the generated run is `outR` of the arguments' launch contents, laid out by coordinates. -/
theorem result_eq (m' : (ℓ : Loc nD τ sig) → Buf (Elt Ideal) ℓ) (c : Dev nD) :
    Cert.ReferenceIdeal.Value.res_main_v52 m' c
      = Cert.Spec.arrOf (Cert.Spec.outR (Cert.Spec.matOf (m' ((c.tc : Thread nD τ).loc main_arg0)))
          (Cert.Spec.rowOf (m' ((c.tc : Thread nD τ).loc main_arg1)))
          (Cert.Spec.rowOf (m' ((c.tc : Thread nD τ).loc main_arg2)))) :=
  (Cert.ReferenceIdeal.Read.val_main_v52_eq m' c).trans (out_eq _ _ _)

/-- From any memory with zero counters every weakly fair execution of the reference terminates with its result
    buffer at `outR` of the arguments' launch contents and the three arguments unchanged. -/
theorem run (m' : (ℓ : Loc nD τ sig) → Buf (Elt Ideal) ℓ) (ρ' : Dev nD → PrngReg) :
    θ_run (Cert.ReferenceIdeal.defs (F := Ideal)) (onTc (τ := τ) (Cert.ReferenceIdeal.main (F := Ideal)))
      ⟨m', fun _ => 0, ρ'⟩ (fun r => ∀ c : Dev nD,
        r.2.mem ((c.tc : Thread nD τ).loc main_v52)
          = Cert.Spec.arrOf (Cert.Spec.outR (Cert.Spec.matOf (m' ((c.tc : Thread nD τ).loc main_arg0)))
              (Cert.Spec.rowOf (m' ((c.tc : Thread nD τ).loc main_arg1)))
              (Cert.Spec.rowOf (m' ((c.tc : Thread nD τ).loc main_arg2))))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)) :=
  (θ_run Cert.ReferenceIdeal.defs _ _).mono (fun _ h c => ⟨(h c).1.trans (result_eq m' c), (h c).2⟩)
    (Cert.ReferenceIdeal.Value.run (F := Ideal) m' ρ')

end Cert.RefValue

end
-- ==== Proof.Bridge.lean ====
/-
  Real entries make the two aggregates equal.

  When every entry of the matrix is a real number, every intermediate quantity of both programs is a real number:
  the clipped row norm is a positive real, the normalised rows and their inner products are reals, every logit is
  real and so is the row's largest logit, and all weights are positive reals.  Subtracting the largest logit
  multiplies every weight by the same positive factor, which cancels between the normalised weight's numerator and
  denominator; what is left is the weighted sum of the rows over the sum of the weights.
-/
import proofs.«406149_j61881888801194_3_alg».proof.Proof.Spec
import Mathlib.Data.EReal.Basic
import Mathlib.Data.EReal.Operations
import Mathlib.Data.EReal.Inv
import Mathlib.Data.Finset.Fold
import Mathlib.Analysis.SpecialFunctions.Exp
import Mathlib.Analysis.SpecialFunctions.Sqrt
import Mathlib.Algebra.BigOperators.Field
import Mathlib.Algebra.Order.BigOperators.Ring.Finset
import Mathlib.Tactic.FieldSimp
import Mathlib.Tactic.NormNum
import Mathlib.Tactic.Positivity

noncomputable section

open scoped BigOperators

namespace Cert.Bridge

open Idealize.ShloMosaic Cert.Spec

/-! ### Coercion of finite sums -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The three literals -/

/-- The norm's lower clip is a positive real. -/
theorem normEps_real : ∃ e : ℝ, 0 < e ∧ normEps = (e : EReal) := by
  refine ⟨(9223372 : ℝ) * (2 : ℝ) ^ (-63 : ℤ), by positivity, ?_⟩
  simp [normEps, Ideal.ofBits, Ideal.ieee, -EReal.coe_mul]

/-- The literal one is the real number one. -/
theorem one_eq : one = ((1 : ℝ) : EReal) := by
  simp [one, Ideal.ofBits, Ideal.ieee, -EReal.coe_mul]
  norm_num

/-- The starting value of the row maximum is the bottom element. -/
theorem negInf_eq : negInf = ⊥ := by
  simp [negInf, Ideal.ofBits, Ideal.ieee]

/-! ### The real counterparts of the shared quantities -/

/-- A 16384 × 128 matrix of reals. -/
abbrev RMat := Fin 16384 → Fin 128 → ℝ

/-- The clipped Euclidean norm of row `i` of a real matrix, with clip `e`. -/
def nrmR (e : ℝ) (xr : RMat) (i : Fin 16384) : ℝ := max (Real.sqrt (∑ d : Fin 128, xr i d * xr i d)) e
/-- The normalised rows of a real matrix. -/
def nxR (e : ℝ) (xr : RMat) (i : Fin 16384) (d : Fin 128) : ℝ := xr i d * (1 / nrmR e xr i)
/-- The inner product of the normalised rows `i` and `j` of a real matrix. -/
def simR (e : ℝ) (xr : RMat) (i j : Fin 16384) : ℝ := ∑ k : Fin 128, nxR e xr i k * nxR e xr j k

/-- A norm clipped below by a positive number is positive. -/
theorem nrmR_pos {e : ℝ} (he : 0 < e) (xr : RMat) (i : Fin 16384) : 0 < nrmR e xr i :=
  lt_max_of_lt_right he

/-- A sum of exponentials over the rows is positive: there is at least one row. -/
theorem sum_exp_pos (s : Fin 16384 → ℝ) : 0 < ∑ j : Fin 16384, Real.exp (s j) :=
  Finset.sum_pos (fun j _ => Real.exp_pos _) Finset.univ_nonempty

/-! ### Every shared quantity of a real matrix is the coercion of its real counterpart -/

section Coe

variable {x : Mat} {xr : RMat} {e : ℝ}
  (hx : ∀ i d, x i d = (xr i d : EReal)) (he : 0 < e) (hE : normEps = (e : EReal))
include hx he hE

/-- The clipped norm: the sum of squares is a nonnegative real, its root is real, and the larger of two reals is
    real. -/
theorem nrm_eq (i : Fin 16384) : nrm x i = (nrmR e xr i : EReal) := by
  have hs : (∑ d : Fin 128, x i d * x i d) = ((∑ d : Fin 128, xr i d * xr i d : ℝ) : EReal) := by
    rw [coe_sum]
    exact Finset.sum_congr rfl (fun d _ => by rw [hx, EReal.coe_mul])
  have h0 : ¬ (∑ d : Fin 128, xr i d * xr i d) < 0 :=
    not_lt.mpr (Finset.sum_nonneg (fun d _ => mul_self_nonneg _))
  rw [nrm, hs, Ideal.sqrt_coe, if_neg h0, hE, nrmR, EReal.coe_strictMono.monotone.map_max]

/-- The normalised rows: the quotient by a nonzero real is the product with its reciprocal. -/
theorem nx_eq (i : Fin 16384) (d : Fin 128) : nx x i d = (nxR e xr i d : EReal) := by
  rw [nx, nrm_eq hx he hE, Ideal.div_coe (nrmR_pos he xr i).ne', hx, ← EReal.coe_mul, nxR]

/-- The inner products. -/
theorem sim_eq (i j : Fin 16384) : sim x i j = (simR e xr i j : EReal) := by
  rw [sim, simR, coe_sum]
  exact Finset.sum_congr rfl (fun k _ => by rw [nx_eq hx he hE, nx_eq hx he hE, EReal.coe_mul])

/-- The kernel's weights are exponentials of reals. -/
theorem wgt_eq (i j : Fin 16384) : wgt x i j = (Real.exp (simR e xr i j) : EReal) := by
  rw [wgt, sim_eq hx he hE, Ideal.exp_coe]

/-- The reference's logits: dividing by the literal one changes nothing. -/
theorem logit_eq (i j : Fin 16384) : logit x i j = (simR e xr i j : EReal) := by
  rw [logit, one_eq, Ideal.div_coe one_ne_zero, sim_eq hx he hE, ← EReal.coe_mul, one_div_one, mul_one]

/-- The row maximum is a real number: it lies below the top element because every logit does and so does the
    starting value, and above the bottom element because it is at least the first logit. -/
theorem rowMax_real (i : Fin 16384) : ∃ m : ℝ, rowMax x i = (m : EReal) := by
  have htop : rowMax x i ≠ ⊤ := by
    rw [rowMax, negInf_eq, max_eq_right bot_le]
    refine ne_of_lt ?_
    rw [Finset.fold_max_lt]
    exact ⟨bot_lt_top, fun j _ => by rw [logit_eq hx he hE]; exact EReal.coe_lt_top _⟩
  have hbot : rowMax x i ≠ ⊥ := by
    rw [rowMax, negInf_eq, max_eq_right bot_le]
    refine ne_of_gt ?_
    rw [Finset.lt_fold_max]
    exact Or.inr ⟨0, Finset.mem_univ _, by rw [logit_eq hx he hE]; exact EReal.bot_lt_coe _⟩
  exact ⟨(rowMax x i).toReal, (EReal.coe_toReal htop hbot).symm⟩

/-- The reference's shifted weights are exponentials of reals. -/
theorem swgt_eq {m : ℝ} (i : Fin 16384) (hm : rowMax x i = (m : EReal)) (j : Fin 16384) :
    swgt x i j = (Real.exp (simR e xr i j - m) : EReal) := by
  rw [swgt, logit_eq hx he hE, hm, ← EReal.coe_sub, Ideal.exp_coe]

/-- The kernel's aggregate as a real number. -/
theorem aggK_eq (i : Fin 16384) (d : Fin 128) :
    aggK x i d = (((∑ j : Fin 16384, Real.exp (simR e xr i j) * xr j d)
      * (1 / ∑ j : Fin 16384, Real.exp (simR e xr i j)) : ℝ) : EReal) := by
  have h1 : (∑ j : Fin 16384, wgt x i j * x j d)
      = ((∑ j : Fin 16384, Real.exp (simR e xr i j) * xr j d : ℝ) : EReal) := by
    rw [coe_sum]
    exact Finset.sum_congr rfl (fun j _ => by rw [wgt_eq hx he hE, hx, EReal.coe_mul])
  have h2 : (∑ j : Fin 16384, wgt x i j) = ((∑ j : Fin 16384, Real.exp (simR e xr i j) : ℝ) : EReal) := by
    rw [coe_sum]
    exact Finset.sum_congr rfl (fun j _ => wgt_eq hx he hE i j)
  rw [aggK, h1, h2, Ideal.div_coe (sum_exp_pos _).ne', ← EReal.coe_mul]

/-- The reference's aggregate as a real number, given the real value of the row maximum. -/
theorem aggR_eq {m : ℝ} (i : Fin 16384) (hm : rowMax x i = (m : EReal)) (d : Fin 128) :
    aggR x i d = ((∑ j : Fin 16384, Real.exp (simR e xr i j - m)
      * (1 / ∑ l : Fin 16384, Real.exp (simR e xr i l - m)) * xr j d : ℝ) : EReal) := by
  have h2 : (∑ l : Fin 16384, swgt x i l)
      = ((∑ l : Fin 16384, Real.exp (simR e xr i l - m) : ℝ) : EReal) := by
    rw [coe_sum]
    exact Finset.sum_congr rfl (fun l _ => swgt_eq hx he hE i hm l)
  rw [aggR, coe_sum]
  refine Finset.sum_congr rfl (fun j _ => ?_)
  rw [h2, swgt_eq hx he hE i hm, Ideal.div_coe (sum_exp_pos _).ne', hx, ← EReal.coe_mul, ← EReal.coe_mul]

end Coe

/-! ### The identity in the reals -/

/-- Shifting every logit by the same real `m` does not change the normalised weighted sum: each weight picks up
    the factor `exp (-m)`, and so does their sum. -/
theorem softmax_shift {ι : Type*} [Fintype ι] (s y : ι → ℝ) (m : ℝ) (hS : (∑ j, Real.exp (s j)) ≠ 0) :
    (∑ j, Real.exp (s j - m) * (1 / ∑ l, Real.exp (s l - m)) * y j)
      = (∑ j, Real.exp (s j) * y j) * (1 / ∑ j, Real.exp (s j)) := by
  have hsh : ∀ j, Real.exp (s j - m) = Real.exp (s j) * Real.exp (-m) := fun j => by
    rw [sub_eq_add_neg, Real.exp_add]
  have hc : Real.exp (-m) ≠ 0 := (Real.exp_pos _).ne'
  have hsum : (∑ l, Real.exp (s l - m)) = (∑ l, Real.exp (s l)) * Real.exp (-m) := by
    rw [Finset.sum_mul]
    exact Finset.sum_congr rfl (fun l _ => hsh l)
  rw [hsum]
  generalize (∑ l, Real.exp (s l)) = S at hS ⊢
  generalize Real.exp (-m) = c at hc hsh ⊢
  rw [Finset.sum_mul]
  refine Finset.sum_congr rfl (fun j _ => ?_)
  rw [hsh j]
  field_simp

/-! ### The two aggregates agree -/

/-- On a matrix of real entries the reference's aggregate is the kernel's. -/
theorem aggR_eq_aggK (x : Mat) (hx : ∀ i d, ∃ r : ℝ, x i d = (r : EReal)) : aggR x = aggK x := by
  choose xr hxr using hx
  obtain ⟨e, he, hE⟩ := normEps_real
  funext i d
  obtain ⟨m, hm⟩ := rowMax_real hxr he hE i
  rw [aggR_eq hxr he hE i hm d, aggK_eq hxr he hE i d]
  exact congrArg Real.toEReal
    (softmax_shift (fun j => simR e xr i j) (fun j => xr j d) m (sum_exp_pos _).ne')

/-- Hence the two results agree on a matrix of real entries, whatever the scale and the shift. -/
theorem outR_eq_outK (x : Mat) (hx : ∀ i d, ∃ r : ℝ, x i d = (r : EReal)) (g b : Row) :
    outR x g b = outK x g b :=
  outR_eq_outK_of_agg (aggR_eq_aggK x hx) g b

end Cert.Bridge

end
-- ==== Proof.Finite.lean ====
/-
  The precondition makes the matrix argument real.

  The printed precondition says of every entry of each argument that its absolute value lies strictly below plus
  infinity.  On the extended reals that excludes both infinities, so the entry is a real number.
-/
import proofs.«406149_j61881888801194_3_alg».proof.Defs
import proofs.«406149_j61881888801194_3_alg».proof.Proof.Spec
import Idealize.ShloMosaic.Lib.ReduceAll
import Mathlib.Data.EReal.Basic

noncomputable section

namespace Cert.Finite

open Idealize.ShloMosaic Idealize.SL.Sem Idealize.ShloMosaic.ValueIdx

/-- The rank-0 shape has one index. -/
instance : Subsingleton Cert.Pre_finite_inputs.S_.Idx := ⟨fun a b => funext fun d => d.elim0⟩

/-- The pattern of plus infinity denotes the top element. -/
theorem ofBits_inf : Ideal.ofBits .f32 0x7F800000#32 = (⊤ : EReal) := by
  simp [Ideal.ofBits, Ideal.ieee]

/-- An extended real whose absolute value lies strictly below plus infinity is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => exact absurd h (by simp [Ideal.cmp])
  | coe r => exact ⟨r, rfl⟩
  | top => exact absurd h (by simp [Ideal.cmp])

/-- Under the precondition every entry of the matrix argument is a real number. -/
theorem x_real [h : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ (i : Fin 16384) (d : Fin 128), ∃ r : ℝ,
      Cert.Spec.matOf (m ((c.tc : Thread Cert.KernelIdeal.nD Cert.KernelIdeal.τ).loc Cert.KernelIdeal.main_arg0)) i d
        = (r : EReal) := by
  intro i d
  have h0 := congrFun (hpre c) ValueIdx.ix0
  dsimp only [Cert.Pre_finite_inputs.fn] at h0
  -- the conjunction's first conjunct is the reduction over the matrix argument
  have h1 := (IntOp.andi_eq_one.1 (IntOp.andi_eq_one.1 h0).1).1
  -- a reduction by "and" over all axes that is one is one at every entry
  have h2 := Host.reduce_andi_all _ _ _ _ _ h1 (ix2 i d)
  exact real_of_abs_lt_inf _ h2

end Cert.Finite

end
-- ==== Proof.lean ====
/-
  The certificate's claim, assembled.

  The kernel computes, for each row of a 16384 × 128 matrix, a softmax-weighted average of all rows (weights the
  exponentials of the cosine similarities), blends it with the row and applies a layer normalisation.  It does so one
  block of 2048 rows against one block of 1024 rows at a time, keeping the running sum of weights and the running
  weighted sum of rows, and divides at the end; the reference forms all 16384 × 16384 weights at once, subtracts each
  row's largest logit before exponentiating and normalises the weights before summing.

  * The three frames: each program runs to its end and leaves its three arguments unchanged.  The two kernels' frames
    are the run of the region from the body's three cases (first, middle and last block of a row of blocks); the
    reference's is its run with the result dropped.
  * The idealization replaces one round trip through the narrower float format by the identity.
  * The value: at the extended reals the kernel's final array is `outK` of the arguments and the reference's is
    `outR`; where the matrix has real entries (the precondition) the softmax does not depend on the shift by the row
    maximum and a quotient of sums is the sum of quotients, so the two agree.
-/
import proofs.«406149_j61881888801194_3_alg».proof.Defs
import proofs.«406149_j61881888801194_3_alg».proof.Proof.Gen.Kernel
import proofs.«406149_j61881888801194_3_alg».proof.Proof.Gen.KernelIdeal
import proofs.«406149_j61881888801194_3_alg».proof.Proof.Gen.ReferenceIdeal
import proofs.«406149_j61881888801194_3_alg».proof.Proof.Gen.Pre_finite_inputs
import proofs.«406149_j61881888801194_3_alg».proof.Proof.KernelFrame.Run
import proofs.«406149_j61881888801194_3_alg».proof.Proof.KernelIdealFrame.Run
import proofs.«406149_j61881888801194_3_alg».proof.Proof.KernelIdealValue.Value
import proofs.«406149_j61881888801194_3_alg».proof.Proof.RefValue
import proofs.«406149_j61881888801194_3_alg».proof.Proof.Bridge
import proofs.«406149_j61881888801194_3_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Fr.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefValue.run m ρ)

/-- Narrowing to the shorter format and widening back is the identity on extended reals. -/
theorem preserves : Cert.preserves_Kernel_KernelIdeal := IdealRules.truncf_extf.statement _ .f32 .bf16

/-- Both programs end with the same array: the kernel's `outK` of the arguments is the reference's `outR` of them
    because the matrix's entries are real numbers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, Cert.KernelIdeal.Val.run_value m ρ, ?_⟩
  refine (θ_run Cert.ReferenceIdeal.defs _ _).mono (fun _ h c => ⟨(h c).1.trans ?_, (h c).2⟩) (Cert.RefValue.run m' ρ')
  rw [(hagree c).1, (hagree c).2.1, (hagree c).2.2]
  exact congrArg Cert.Spec.arrOf (Cert.Bridge.outR_eq_outK _ (Cert.Finite.x_real m hpre c) _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
